-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x128 : Shape := ⟨2, ![512, 128]⟩
abbrev S1024x128 : Shape := ⟨2, ![1024, 128]⟩
abbrev S512x1 : Shape := ⟨2, ![512, 1]⟩
abbrev S1x1024 : Shape := ⟨2, ![1, 1024]⟩
abbrev S128x1024 : Shape := ⟨2, ![128, 1024]⟩
abbrev S512x1024 : Shape := ⟨2, ![512, 1024]⟩
abbrev S512 : Shape := ⟨1, ![512]⟩

abbrev nBuf : Space → Nat
  | .hbm => 58
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x1, .i32⟩
  | .hbm, ⟨18, _⟩ => ⟨S1x8192, .i32⟩
  | .hbm, ⟨19, _⟩ => ⟨S8192x1, .f32⟩
  | .hbm, ⟨20, _⟩ => ⟨S8192x1, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .i1⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .i1⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .i1⟩
  | .hbm, ⟨44, _⟩ => ⟨S8192, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1, .i32⟩
  | .local _ .vmem, ⟨9, _⟩ => ⟨S512x1, .i32⟩
  | .local _ .vmem, ⟨10, _⟩ => ⟨S1x1024, .i32⟩
  | .local _ .vmem, ⟨11, _⟩ => ⟨S1x1024, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_v25 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_call2_v0 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  iota_S512x1_d0_w32 : S512x1.Iotas .tc 32 [0]
  iota_S1x1024_d1_w32 : S1x1024.Iotas .tc 32 [1]
  reduces_S512x1024_S512 : S512x1024.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  natLt_1_32 : 1 < 32
  reducesTo_S8192_S_d0 : S8192.ReducesTo [0] S_
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v7) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S128x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i32⟩
  | .hbm, ⟨36, _⟩ => ⟨S8192x8192, .i32⟩
  | .hbm, ⟨37, _⟩ => ⟨S_, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S8192x8192, .i1⟩
  | .hbm, ⟨42, _⟩ => ⟨S8192x8192, .i1⟩
  | .hbm, ⟨43, _⟩ => ⟨S8192x8192, .i1⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .i1⟩
  | .hbm, ⟨57, _⟩ => ⟨S8192, .i1⟩
  | .hbm, ⟨58, _⟩ => ⟨S_, .i1⟩
  | .hbm, ⟨59, _⟩ => ⟨S8192, .i1⟩
  | .hbm, ⟨60, _⟩ => ⟨S8192, .i1⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .i1⟩
  | .hbm, ⟨75, _⟩ => ⟨S8192, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_call3_cst : Ref sig .tc := ⟨.hbm, 65, rfl⟩
abbrev main_call3_v0 : Ref sig .tc := ⟨.hbm, 66, rfl⟩
abbrev main_v43 : Ref sig .tc := ⟨.hbm, 67, rfl⟩
abbrev main_cst_10 : Ref sig .tc := ⟨.hbm, 68, rfl⟩
abbrev main_call4_v0 : Ref sig .tc := ⟨.hbm, 69, rfl⟩
abbrev main_call4_v1 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_v53 : Ref sig .tc := ⟨.hbm, 85, rfl⟩
abbrev main_cst_16 : Ref sig .tc := ⟨.hbm, 86, rfl⟩
abbrev main_call5_v0 : Ref sig .tc := ⟨.hbm, 87, rfl⟩
abbrev main_v54 : Ref sig .tc := ⟨.hbm, 88, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Data.lean ====
/-
  The kernel's one region, as data. The grid has 16 x 8 points, point t = (i, j) with i = t / 8 the
  row block (512 anchors) and j = t % 8 the column block (1024 candidates). At every point the body computes the
  512 x 1024 tile of pairwise distances between rows of the normalised embeddings, masks it by the label
  relation, and folds the row-wise maximum of the positives' distances (and minimum of the negatives') into two
  512 x 1 accumulators, which it resets at j = 0 and which the pipeline writes back after j = 7.

  Here: the contents of @main's buffers when the region is entered (the host prefix applied to the launch
  memory), each input window's block at a point, the two accumulators after each point by recursion on the
  point, and the pipeline's proof data over them. Everything is generic in the float instance.
-/
import proofs.«159311_j57509612094151_1_alg».proof.Proof.Gen.Kernel.Launch
import proofs.«159311_j57509612094151_1_alg».proof.Proof.Gen.Kernel.Skeleton
import proofs.«159311_j57509612094151_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The buffers' contents when the region is entered -/

/-- Core `c`'s buffers at launch. -/
abbrev W0 (c : Dev nD) : Valuation τ sig (Elt F) := fun b => m (c, b)
/-- Core `c`'s buffers after the host prefix: the normalised embeddings, their squared norms as a column and
    as a row, the labels as a column and as a row. -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The six input blocks at a point under their literal types: 512 anchor rows and 1024 candidate rows of the
    normalised embeddings, the anchors' squared norms (a column), the candidates' (a row), the anchors' labels
    (a column), the candidates' (a row). -/
abbrev xrow (c : Dev nD) (t : Fin cfg0.N) : Vec F S512x128 .f32 := iblk m c 0 t
abbrev xcol (c : Dev nD) (t : Fin cfg0.N) : Vec F S1024x128 .f32 := iblk m c 1 t
abbrev sqrow (c : Dev nD) (t : Fin cfg0.N) : Vec F S512x1 .f32 := iblk m c 2 t
abbrev sqcol (c : Dev nD) (t : Fin cfg0.N) : Vec F S1x1024 .f32 := iblk m c 3 t
abbrev labrow (c : Dev nD) (t : Fin cfg0.N) : Vec F S512x1 .i32 := iblk m c 4 t
abbrev labcol (c : Dev nD) (t : Fin cfg0.N) : Vec F S1x1024 .i32 := iblk m c 5 t

/-! ## The accumulators, point by point -/

/-- The tile of distances the body computes at point `t`. -/
def tile (c : Dev nD) (t : Fin cfg0.N) : FVec F S512x1024 .f32 :=
  k0_pay6 (xrow m c t) (xcol m c t) (sqrow m c t) (sqcol m c t)

/-- One point's update of the pair (running maximum over positives, running minimum over negatives), from
    what the pair held when the body's accumulation began. -/
def step (c : Dev nD) (t : Fin cfg0.N) (p : Vec F S512x1 .f32 × Vec F S512x1 .f32) : Vec F S512x1 .f32 × Vec F S512x1 .f32 :=
  (k0_pay2 (tile m c t) (k0_pay7 (grid0.coords t)) (k0_pay8 (labrow m c t)) (labcol m c t) p.1,
   k0_pay3 (tile m c t) (k0_pay8 (labrow m c t)) (labcol m c t) p.2)

/-- The pair the body's reset stores at the first column block. -/
def fresh : Vec F S512x1 .f32 × Vec F S512x1 .f32 := (k0_pay4 (F := F), k0_pay5 (F := F))

/-- What the two output staging buffers hold after the body at point `n`: at a first column block the update
    of the reset pair, otherwise the update of what the point before left. -/
def accAt (c : Dev nD) : (n : ℕ) → n < cfg0.N → Vec F S512x1 .f32 × Vec F S512x1 .f32
  | 0, h => step m c ⟨0, h⟩ (fresh (F := F))
  | n + 1, h =>
    if (n + 1) % 8 = 0 then step m c ⟨n + 1, h⟩ (fresh (F := F))
    else step m c ⟨n + 1, h⟩ (accAt c n (Nat.lt_of_succ_lt h))

/-! ## The pipeline's proof data -/

/-- The proof data of the one pipeline on core `c`: the arrays as the region finds them; after the body at
    point `t` each input's buffer at its block and the two outputs' at the accumulators; the invariant the
    scoped rest and the generator register; nothing owed. The normalised embeddings are handed to the kernel
    through two windows: each holds half of that array's share. -/
def dats (_ : Fin 1) (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => (accAt m c t.val t.isLt).2
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V1 m c (Pipeline.arrRef spec0 w) := by
  dsimp only [dats]

/-- The two result arrays (8192 x 1 each) when the region is left: what the write-backs after every eighth
    point have assembled of the accumulators. -/
abbrev dapArr (c : Dev nD) : Vec F S8192x1 .f32 := (dats m 0 c).arrAt 6 cfg0.N
abbrev danArr (c : Dev nD) : Vec F S8192x1 .f32 := (dats m 0 c).arrAt 7 cfg0.N

end Cert.Kernel.Hand

end
-- ==== Proof.K.Body.lean ====
/-
  The body of the one region at a grid point, as a triple. The grid point is (i, j); the body first, when
  j = 0, overwrites the two 512 x 1 accumulators with the least and the greatest value; it then reads the six
  input blocks, forms the 512 x 1024 tile of distances and the two label masks, and replaces the first
  accumulator by its maximum with the row-wise maxima over the positives and the second by its minimum with the
  row-wise minima over the negatives. So after the body the accumulators hold one step of the recursion that
  defines them: from the fresh pair when j = 0, from what the point before left otherwise, and the input blocks
  are as they were. From this, what every staging buffer holds before the body at a point, and the obligation
  the pipeline asks of the body at every point.
-/
import proofs.«159311_j57509612094151_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The accumulators' recursion, one equation per kind of point -/

/-- At a first column block the pair is one step from the fresh pair. -/
theorem accAt_reset (c : Dev nD) (t : Fin cfg0.N) (h0 : t.val % 8 = 0) :
    accAt m c t.val t.isLt = step m c t (fresh (F := F)) := by
  obtain ⟨n, hn⟩ := t
  cases n with
  | zero => rfl
  | succ n => exact if_pos h0

/-- At any other column block the pair is one step from what the point before left. -/
theorem accAt_acc (c : Dev nD) (t : Fin cfg0.N) (h0 : ¬t.val % 8 = 0) :
    accAt m c t.val t.isLt
      = step m c t (accAt m c (t.val - 1) (Nat.lt_of_le_of_lt (Nat.sub_le _ _) t.isLt)) := by
  obtain ⟨n, hn⟩ := t
  cases n with
  | zero => exact absurd (Nat.zero_mod 8) h0
  | succ n => exact if_neg h0

/-! ## What the proof data say each buffer holds after the body -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (accAt m c t.val t.isLt).1 := by dsimp only [dats]
theorem after0_7 (c : Dev nD) (t : Fin cfg0.N) : (dats m 0 c).after 7 t = (accAt m c t.val t.isLt).2 := by dsimp only [dats]

/-! ## What each buffer holds before the body

An input window's buffer holds the window's block at every point. Where the block was fetched at the point this
is what the fetch put there; where it was not, the block index has not moved since the point before, and the body
left that point's block in place. -/

theorem before0_0 (c : Dev nD) (t : Fin cfg0.N) (d) : (dats m 0 c).before 0 t d = iblk m c 0 t := by
  have hk : ∀ s, (cfg0.win 0).cut (cfg0.grid.coords s) ((dats m 0 c).after 0 s) = (dats m 0 c).blockOf 0 s := fun s => by
    rw [after0_0]; unfold Dat.blockOf iblk; rw [A_eq]
  rw [(dats m 0 c).before_in_eq_fetched 0 rfl (fun _ => rfl) (fun _ _ _ => rfl) hk t d]
  unfold Dat.fetched Dat.blockOf iblk; rw [A_eq]; rfl
theorem before0_1 (c : Dev nD) (t : Fin cfg0.N) (d) : (dats m 0 c).before 1 t d = iblk m c 1 t := by
  have hk : ∀ s, (cfg0.win 1).cut (cfg0.grid.coords s) ((dats m 0 c).after 1 s) = (dats m 0 c).blockOf 1 s := fun s => by
    rw [after0_1]; unfold Dat.blockOf iblk; rw [A_eq]
  rw [(dats m 0 c).before_in_eq_fetched 1 rfl (fun _ => rfl) (fun _ _ _ => rfl) hk t d]
  unfold Dat.fetched Dat.blockOf iblk; rw [A_eq]; rfl
theorem before0_2 (c : Dev nD) (t : Fin cfg0.N) (d) : (dats m 0 c).before 2 t d = iblk m c 2 t := by
  have hk : ∀ s, (cfg0.win 2).cut (cfg0.grid.coords s) ((dats m 0 c).after 2 s) = (dats m 0 c).blockOf 2 s := fun s => by
    rw [after0_2]; unfold Dat.blockOf iblk; rw [A_eq]
  rw [(dats m 0 c).before_in_eq_fetched 2 rfl (fun _ => rfl) (fun _ _ _ => rfl) hk t d]
  unfold Dat.fetched Dat.blockOf iblk; rw [A_eq]; rfl
theorem before0_3 (c : Dev nD) (t : Fin cfg0.N) (d) : (dats m 0 c).before 3 t d = iblk m c 3 t := by
  have hk : ∀ s, (cfg0.win 3).cut (cfg0.grid.coords s) ((dats m 0 c).after 3 s) = (dats m 0 c).blockOf 3 s := fun s => by
    rw [after0_3]; unfold Dat.blockOf iblk; rw [A_eq]
  rw [(dats m 0 c).before_in_eq_fetched 3 rfl (fun _ => rfl) (fun _ _ _ => rfl) hk t d]
  unfold Dat.fetched Dat.blockOf iblk; rw [A_eq]; rfl
theorem before0_4 (c : Dev nD) (t : Fin cfg0.N) (d) : (dats m 0 c).before 4 t d = iblk m c 4 t := by
  have hk : ∀ s, (cfg0.win 4).cut (cfg0.grid.coords s) ((dats m 0 c).after 4 s) = (dats m 0 c).blockOf 4 s := fun s => by
    rw [after0_4]; unfold Dat.blockOf iblk; rw [A_eq]
  rw [(dats m 0 c).before_in_eq_fetched 4 rfl (fun _ => rfl) (fun _ _ _ => rfl) hk t d]
  unfold Dat.fetched Dat.blockOf iblk; rw [A_eq]; rfl
theorem before0_5 (c : Dev nD) (t : Fin cfg0.N) (d) : (dats m 0 c).before 5 t d = iblk m c 5 t := by
  have hk : ∀ s, (cfg0.win 5).cut (cfg0.grid.coords s) ((dats m 0 c).after 5 s) = (dats m 0 c).blockOf 5 s := fun s => by
    rw [after0_5]; unfold Dat.blockOf iblk; rw [A_eq]
  rw [(dats m 0 c).before_in_eq_fetched 5 rfl (fun _ => rfl) (fun _ _ _ => rfl) hk t d]
  unfold Dat.fetched Dat.blockOf iblk; rw [A_eq]; rfl

/-- Output window 6: fresh at a first column block, else what the point before left. -/
theorem before0_6_reset (c : Dev nD) (t : Fin cfg0.N) (h0 : t.val % 8 = 0) (d) : (dats m 0 c).before 6 t d = d := by
  refine (dats m 0 c).before_out_reset 6 rfl t ?_ d
  by_cases ht : t.val = 0
  · exact .inl ht
  · exact .inr ⟨ht, (flush0_6 _).mpr (show (t.val - 1) % 8 = 7 by omega)⟩

theorem before0_6_acc (c : Dev nD) (t : Fin cfg0.N) (h0 : ¬t.val % 8 = 0) (d) :
    (dats m 0 c).before 6 t d = (accAt m c (t.val - 1) (Nat.lt_of_le_of_lt (Nat.sub_le _ _) t.isLt)).1 := by
  have hfl : (cfg0.win 6).flush ⟨t.val - 1, Nat.lt_of_le_of_lt (Nat.sub_le _ _) t.isLt⟩ = false := by
    rw [Bool.eq_false_iff]; intro h
    have h7 : (t.val - 1) % 8 = 7 := (flush0_6 _).mp h
    omega
  rw [(dats m 0 c).before_out_kept 6 rfl t (fun ht => h0 (by rw [ht])) hfl (fun _ => rfl) (fun _ _ => rfl) d, after0_6]

/-- Output window 7: fresh at a first column block, else what the point before left. -/
theorem before0_7_reset (c : Dev nD) (t : Fin cfg0.N) (h0 : t.val % 8 = 0) (d) : (dats m 0 c).before 7 t d = d := by
  refine (dats m 0 c).before_out_reset 7 rfl t ?_ d
  by_cases ht : t.val = 0
  · exact .inl ht
  · exact .inr ⟨ht, (flush0_7 _).mpr (show (t.val - 1) % 8 = 7 by omega)⟩

theorem before0_7_acc (c : Dev nD) (t : Fin cfg0.N) (h0 : ¬t.val % 8 = 0) (d) :
    (dats m 0 c).before 7 t d = (accAt m c (t.val - 1) (Nat.lt_of_le_of_lt (Nat.sub_le _ _) t.isLt)).2 := by
  have hfl : (cfg0.win 7).flush ⟨t.val - 1, Nat.lt_of_le_of_lt (Nat.sub_le _ _) t.isLt⟩ = false := by
    rw [Bool.eq_false_iff]; intro h
    have h7 : (t.val - 1) % 8 = 7 := (flush0_7 _).mp h
    omega
  rw [(dats m 0 c).before_out_kept 7 rfl t (fun ht => h0 (by rw [ht])) hfl (fun _ => rfl) (fun _ _ => rfl) d, after0_7]

/-! ## The reset's condition -/

/-- The condition under which the body resets the accumulators, as the body computes it from the grid point:
    the column coordinate, as a 32-bit word, equals zero. -/
abbrev resets (i : grid0.Coords) : Prop :=
  Scalar.cmpi .ne (Scalar.extui (Scalar.cmpi .eq (BitVec.ofNat 32 (i 1).val) 0#32) : BitVec 32) 0#32 = 1#1

/-- It holds exactly at the first column block of each row block. -/
theorem resets_iff : ∀ t : Fin cfg0.N, resets (grid0.coords t) ↔ t.val % 8 = 0 :=
  (by decide +kernel : ∀ t : Fin grid0.N, resets (grid0.coords t) ↔ t.val % 8 = 0)

/-! ## Reading a whole buffer, and reading back a store that fills it -/

/-- The two-axis offset vector of zeros is the constant zero. -/
theorem zeros2 : (![0, 0] : Fin 2 → ℕ) = fun _ => 0 := by
  funext a; fin_cases a <;> rfl

section whole
variable {Val : EltTy → Type} {κ : Kind} {sp : Space} {S : Shape} {e : EltTy}

/-- A read of all of a whole buffer held at the raw contents that read `X` is `X`. -/
theorem readAt_all {M : Memref sig κ sp S e} (h : M.IsWhole) (X : S.Idx → Val e) {off : Fin S.rank → ℕ}
    (h0 : off = fun _ => 0) (inb : ∀ a, off a + S.size a ≤ S.size a) :
    View.readAt Val M.view (Rect.unit off S.size inb).toLoadRect (h.unread X) = X := by
  subst h0; funext x
  refine (congrFun (h.read_unread X) _).trans ?_
  show X ((Rect.whole S).emb x) = X x
  rw [Rect.emb_whole_apply]

/-- After a store that fills the buffer, made last, the buffer reads the stored value. -/
theorem read_after_fill (v : View sig κ sp S e) (f : v.ty.Contents Val) {off : Fin S.rank → ℕ}
    (h0 : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h0; funext y
  have e := View.read_writes_cons_emb v f (Rect.whole S) w L y
  rwa [Rect.emb_whole_apply] at e

end whole

/-! ## The body on any eight whole buffers -/

set_option maxHeartbeats 1000000 in
/-- Where the body resets: whatever the accumulators held, they are left one step from the fresh pair. -/
theorem run_reset (c : Dev nD) (i : grid0.Coords)
    (arg2 : Memref sig .tc .vmem S512x128 .f32) (harg2 : arg2.IsWhole) (arg3 : Memref sig .tc .vmem S1024x128 .f32) (harg3 : arg3.IsWhole)
    (arg4 : Memref sig .tc .vmem S512x1 .f32) (harg4 : arg4.IsWhole) (arg5 : Memref sig .tc .vmem S1x1024 .f32) (harg5 : arg5.IsWhole)
    (arg6 : Memref sig .tc .vmem S512x1 .i32) (harg6 : arg6.IsWhole) (arg7 : Memref sig .tc .vmem S1x1024 .i32) (harg7 : arg7.IsWhole)
    (arg8 : Memref sig .tc .vmem S512x1 .f32) (harg8 : arg8.IsWhole) (arg9 : Memref sig .tc .vmem S512x1 .f32) (harg9 : arg9.IsWhole)
    (hc : resets i)
    (x0 : Vec F S512x128 .f32) (x1 : Vec F S1024x128 .f32) (x2 : Vec F S512x1 .f32) (x3 : Vec F S1x1024 .f32)
    (x4 : Vec F S512x1 .i32) (x5 : Vec F S1x1024 .i32) (o6 o7 : Vec F S512x1 .f32)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare o6 ∗ owns (c : Thread nD τ) arg9 fullShare o7
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare
                  (k0_pay2 (k0_pay6 x0 x1 x2 x3) (k0_pay7 i) (k0_pay8 x4) x5 (k0_pay4 (F := F)))
              ∗ owns (c : Thread nD τ) arg9 fullShare
                  (k0_pay3 (k0_pay6 x0 x1 x2 x3) (k0_pay8 x4) x5 (k0_pay5 (F := F)))) -∗ K ⟨⟩))
      ⊢ wp frame (wpE (defs₀ (F := F)) Variants.none c none) E
          (cc0__mining_kernel i arg2 harg2 arg3 harg3 arg4 harg4 arg5 harg5 arg6 harg6 arg7 harg7 arg8 harg8 arg9 harg9) K := by
  simp only [cc0__mining_kernel_eq_skeleton]; unfold cc0__mining_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr; swap; · iexact H6
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, View.readCov_cons_toLoadRect]
  · iexists _; isplitr; swap; · iexact H7
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, View.readCov_cons_toLoadRect]

set_option maxHeartbeats 1000000 in
/-- Where it does not: the accumulators are left one step from what they held. -/
theorem run_acc (c : Dev nD) (i : grid0.Coords)
    (arg2 : Memref sig .tc .vmem S512x128 .f32) (harg2 : arg2.IsWhole) (arg3 : Memref sig .tc .vmem S1024x128 .f32) (harg3 : arg3.IsWhole)
    (arg4 : Memref sig .tc .vmem S512x1 .f32) (harg4 : arg4.IsWhole) (arg5 : Memref sig .tc .vmem S1x1024 .f32) (harg5 : arg5.IsWhole)
    (arg6 : Memref sig .tc .vmem S512x1 .i32) (harg6 : arg6.IsWhole) (arg7 : Memref sig .tc .vmem S1x1024 .i32) (harg7 : arg7.IsWhole)
    (arg8 : Memref sig .tc .vmem S512x1 .f32) (harg8 : arg8.IsWhole) (arg9 : Memref sig .tc .vmem S512x1 .f32) (harg9 : arg9.IsWhole)
    (hc : ¬resets i)
    (x0 : Vec F S512x128 .f32) (x1 : Vec F S1024x128 .f32) (x2 : Vec F S512x1 .f32) (x3 : Vec F S1x1024 .f32)
    (x4 : Vec F S512x1 .i32) (x5 : Vec F S1x1024 .i32) (o6 o7 : Vec F S512x1 .f32)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare o6 ∗ owns (c : Thread nD τ) arg9 fullShare o7
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare
                  (k0_pay2 (k0_pay6 x0 x1 x2 x3) (k0_pay7 i) (k0_pay8 x4) x5 o6)
              ∗ owns (c : Thread nD τ) arg9 fullShare
                  (k0_pay3 (k0_pay6 x0 x1 x2 x3) (k0_pay8 x4) x5 o7)) -∗ K ⟨⟩))
      ⊢ wp frame (wpE (defs₀ (F := F)) Variants.none c none) E
          (cc0__mining_kernel i arg2 harg2 arg3 harg3 arg4 harg4 arg5 harg5 arg6 harg6 arg7 harg7 arg8 harg8 arg9 harg9) K := by
  simp only [cc0__mining_kernel_eq_skeleton]; unfold cc0__mining_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr; swap; · iexact H6
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, readAt_all harg8 o6 zeros2]
  · iexists _; isplitr; swap; · iexact H7
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, readAt_all harg9 o7 zeros2]

/-! ## The body at a point of the grid -/

/-- The eight staging buffers the body is called with at point `t`, under their literal types, each whole. -/
abbrev sb0 (t : Fin cfg0.N) : Memref sig .tc .vmem S512x128 .f32 := win0_0.stage (cfg0.slots t 0)
abbrev hb0 (t : Fin cfg0.N) : (sb0 t).IsWhole := hstage0_0 ((cfg0.slots t 0).cast nbuf0_0)
abbrev sb1 (t : Fin cfg0.N) : Memref sig .tc .vmem S1024x128 .f32 := win0_1.stage (cfg0.slots t 1)
abbrev hb1 (t : Fin cfg0.N) : (sb1 t).IsWhole := hstage0_1 ((cfg0.slots t 1).cast nbuf0_1)
abbrev sb2 (t : Fin cfg0.N) : Memref sig .tc .vmem S512x1 .f32 := win0_2.stage (cfg0.slots t 2)
abbrev hb2 (t : Fin cfg0.N) : (sb2 t).IsWhole := hstage0_2 ((cfg0.slots t 2).cast nbuf0_2)
abbrev sb3 (t : Fin cfg0.N) : Memref sig .tc .vmem S1x1024 .f32 := win0_3.stage (cfg0.slots t 3)
abbrev hb3 (t : Fin cfg0.N) : (sb3 t).IsWhole := hstage0_3 ((cfg0.slots t 3).cast nbuf0_3)
abbrev sb4 (t : Fin cfg0.N) : Memref sig .tc .vmem S512x1 .i32 := win0_4.stage (cfg0.slots t 4)
abbrev hb4 (t : Fin cfg0.N) : (sb4 t).IsWhole := hstage0_4 ((cfg0.slots t 4).cast nbuf0_4)
abbrev sb5 (t : Fin cfg0.N) : Memref sig .tc .vmem S1x1024 .i32 := win0_5.stage (cfg0.slots t 5)
abbrev hb5 (t : Fin cfg0.N) : (sb5 t).IsWhole := hstage0_5 ((cfg0.slots t 5).cast nbuf0_5)
abbrev sb6 (t : Fin cfg0.N) : Memref sig .tc .vmem S512x1 .f32 := win0_6.stage (cfg0.slots t 6)
abbrev hb6 (t : Fin cfg0.N) : (sb6 t).IsWhole := hstage0_6 ((cfg0.slots t 6).cast nbuf0_6)
abbrev sb7 (t : Fin cfg0.N) : Memref sig .tc .vmem S512x1 .f32 := win0_7.stage (cfg0.slots t 7)
abbrev hb7 (t : Fin cfg0.N) : (sb7 t).IsWhole := hstage0_7 ((cfg0.slots t 7).cast nbuf0_7)

set_option maxHeartbeats 1000000 in
/-- At every point: each input's buffer holds its block, the accumulators' buffers hold anything at a first column
    block and what the point before left otherwise; the body leaves the blocks and one more step of the pair. -/
theorem sound_body (c : Dev nD) (t : Fin cfg0.N) :
    iprop((dats m 0 c).Φ t.castSucc ∗ (dats m 0 c).owesAt () t.castSucc
        ∗ (∃ d, owns (c : Thread nD τ) (sb0 t) fullShare ((dats m 0 c).before 0 t d))
        ∗ (∃ d, owns (c : Thread nD τ) (sb1 t) fullShare ((dats m 0 c).before 1 t d))
        ∗ (∃ d, owns (c : Thread nD τ) (sb2 t) fullShare ((dats m 0 c).before 2 t d))
        ∗ (∃ d, owns (c : Thread nD τ) (sb3 t) fullShare ((dats m 0 c).before 3 t d))
        ∗ (∃ d, owns (c : Thread nD τ) (sb4 t) fullShare ((dats m 0 c).before 4 t d))
        ∗ (∃ d, owns (c : Thread nD τ) (sb5 t) fullShare ((dats m 0 c).before 5 t d))
        ∗ (∃ d, owns (c : Thread nD τ) (sb6 t) fullShare ((dats m 0 c).before 6 t d))
        ∗ (∃ d, owns (c : Thread nD τ) (sb7 t) fullShare ((dats m 0 c).before 7 t d)))
      ⊢ wp frame (wpE (defs₀ (F := F)) Variants.none c none) Set.univ (bodyAt0 t) fun _ =>
          iprop((dats m 0 c).Φ t.succ ∗ (dats m 0 c).owesAt () t.succ
            ∗ owns (c : Thread nD τ) (sb0 t) fullShare ((dats m 0 c).after 0 t)
            ∗ owns (c : Thread nD τ) (sb1 t) fullShare ((dats m 0 c).after 1 t)
            ∗ owns (c : Thread nD τ) (sb2 t) fullShare ((dats m 0 c).after 2 t)
            ∗ owns (c : Thread nD τ) (sb3 t) fullShare ((dats m 0 c).after 3 t)
            ∗ owns (c : Thread nD τ) (sb4 t) fullShare ((dats m 0 c).after 4 t)
            ∗ owns (c : Thread nD τ) (sb5 t) fullShare ((dats m 0 c).after 5 t)
            ∗ owns (c : Thread nD τ) (sb6 t) fullShare ((dats m 0 c).after 6 t)
            ∗ owns (c : Thread nD τ) (sb7 t) fullShare ((dats m 0 c).after 7 t)) := by
  have hΦ : (dats m 0 c).Φ t.succ = (dats m 0 c).Φ t.castSucc := rfl
  have hO : (dats m 0 c).owesAt () t.succ = (dats m 0 c).owesAt () t.castSucc := rfl
  simp only [before0_0, before0_1, before0_2, before0_3, before0_4, before0_5]
  rw [hΦ, hO, after0_0, after0_1, after0_2, after0_3, after0_4, after0_5, after0_6, after0_7]
  by_cases h0 : t.val % 8 = 0
  · simp only [before0_6_reset m c t h0, before0_7_reset m c t h0]
    rw [accAt_reset m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_reset c (grid0.coords t) (sb0 t) (hb0 t) (sb1 t) (hb1 t) (sb2 t) (hb2 t) (sb3 t) (hb3 t) (sb4 t) (hb4 t) (sb5 t) (hb5 t) (sb6 t) (hb6 t) (sb7 t) (hb7 t)
      ((resets_iff t).mpr h0) (xrow m c t) (xcol m c t) (sqrow m c t) (sqcol m c t) (labrow m c t) (labcol m c t) d6 d7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_6_acc m c t h0, before0_7_acc m c t h0]
    rw [accAt_acc m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_acc c (grid0.coords t) (sb0 t) (hb0 t) (sb1 t) (hb1 t) (sb2 t) (hb2 t) (sb3 t) (hb3 t) (sb4 t) (hb4 t) (sb5 t) (hb5 t) (sb6 t) (hb6 t) (sb7 t) (hb7 t)
      (fun h => h0 ((resets_iff t).mp h)) (xrow m c t) (xcol m c t) (sqrow m c t) (sqcol m c t) (labrow m c t) (labcol m c t)
      (accAt m c (t.val - 1) (Nat.lt_of_le_of_lt (Nat.sub_le _ _) t.isLt)).1
      (accAt m c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's obligation on the body, at every point. -/
theorem body_obligation (c : Dev nD) :
    Pipeline.BodyObligation (dats (F := F) m 0 c) (defs₀ (F := F)) Variants.none () Set.univ := fun t => by
  rw [bigSep_W0, bigSep_W0]
  exact sound_body m c t

end Cert.Kernel.Hand

end
-- ==== Proof.K.After.lean ====
/-
  The contents of @main's buffers after the region and after each host stretch that follows it: the region
  changes only the two result arrays; the stretches then compute, from those, which anchors have both a
  positive and a negative, each anchor's hinge term, the number of positive terms, and their mean.
-/
import proofs.«159311_j57509612094151_1_alg».proof.Proof.K.Data

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- After the region: the two result arrays at what the pipeline assembled, every other buffer as at entry. -/
abbrev W2 (c : Dev nD) : Valuation τ sig (Elt F) :=
  Function.update (Function.update (W1 m c) main_v14_0 (dapArr m c)) main_v14_1 (danArr m c)
/-- After each of the six host stretches that follow, in order. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev W8 (c : Dev nD) : Valuation τ sig (Elt F) := StableHlo.after hostOps1_5 (W7 m c)

end Cert.Kernel.Hand

end
-- ==== Proof.K.Split.lean ====
/-
  The region's arrays taken out of the core's buffers at its entry, and put back at its exit.

  The eight windows stand on seven buffers: the normalised embeddings are read through two windows (a block of
  anchor rows and a block of candidate rows). At the entry each buffer is held whole; the embeddings' buffer is
  cut into the two halves of its share, one per window, and every other buffer goes to its one window whole.
  At the exit the six input arrays are as they were (an input's array is never written), so the two halves
  join again; the two result arrays hold what the write-backs assembled; every buffer no window stands on is
  untouched.
-/
import proofs.«159311_j57509612094151_1_alg».proof.Proof.K.After
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The distinct buffers behind the eight windows' arrays: seven, the normalised embeddings' counted once. -/
theorem arrRefs_eq : Finset.univ.image (Pipeline.arrRef spec0)
    = ({main_v7, main_v10, main_v11, main_v12, main_v13, main_v14_0, main_v14_1} : Finset (Ref sig .tc)) := by decide

/-- The windows' arrays, each a whole buffer named by its reference. -/
theorem arrays_loc (c : Dev nD) (G : (w : Fin cfg0.W) → Buf (Elt F) ((cfg0.win w).arr.view.loc (c.tc : Thread nD τ))) :
    ((dats m 0 c).arrays G : sProp 𝕄)
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- Each window's share of its array: a half each for the two windows on the embeddings, the whole otherwise. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

set_option maxHeartbeats 4000000 in
/-- The seven buffers, each whole, make the eight windows' arrays at the entry contents. -/
theorem arrBufs_arrays (c : Dev nD) :
    (Pipeline.arrBufs spec0 c (V1 m c) : sProp 𝕄) ⊢ (dats m 0 c).arrays ((dats m 0 c).arrAt · 0) := by
  rw [arrays_loc, bigSep_W0]
  unfold Pipeline.arrBufs
  rw [arrRefs_eq]
  rw [bigSep_insert (by decide), bigSep_insert (by decide), bigSep_insert (by decide), bigSep_insert (by decide),
    bigSep_insert (by decide), bigSep_insert (by decide), bigSep_singleton]
  rw [share_0 m c, share_1 m c, share_2 m c, share_3 m c, share_4 m c, share_5 m c, share_6 m c, share_7 m c]
  show (iprop((((c.tc : Thread nD τ).loc main_v7) ↦{fullShare} V1 m c main_v7) ∗ (((c.tc : Thread nD τ).loc main_v10) ↦{fullShare} V1 m c main_v10) ∗ (((c.tc : Thread nD τ).loc main_v11) ↦{fullShare} V1 m c main_v11)
      ∗ (((c.tc : Thread nD τ).loc main_v12) ↦{fullShare} V1 m c main_v12) ∗ (((c.tc : Thread nD τ).loc main_v13) ↦{fullShare} V1 m c main_v13)
      ∗ (((c.tc : Thread nD τ).loc main_v14_0) ↦{fullShare} V1 m c main_v14_0) ∗ (((c.tc : Thread nD τ).loc main_v14_1) ↦{fullShare} V1 m c main_v14_1)) : sProp 𝕄) ⊢ _
  iintro ⟨H7, H10, H11, H12, H13, H140, H141⟩
  ihave H7' := (pointsTo_share (PosShare.mem_left_op_right fullShare)).1 $$ H7
  icases H7' with ⟨Ha, Hb⟩
  isplitl [Ha]; · iexact Ha
  isplitl [Hb]; · iexact Hb
  isplitl [H10]; · iexact H10
  isplitl [H11]; · iexact H11
  isplitl [H12]; · iexact H12
  isplitl [H13]; · iexact H13
  isplitl [H140]; · iexact H140
  iexact H141

/-- The exit contents at a reference. -/
abbrev V2 : (c : Dev nD) → (b : Ref sig .tc) → Buf (Elt F) ((c : Thread nD τ).loc b) := fun c b => W2 m c b

/-- The exit contents differ from the entry contents only at the two result arrays. -/
theorem V2_of_ne (c : Dev nD) (b : Ref sig .tc) (h0 : b ≠ main_v14_0) (h1 : b ≠ main_v14_1) : V2 m c b = V1 m c b := by
  show Function.update (Function.update (W1 m c) main_v14_0 (dapArr m c)) main_v14_1 (danArr m c) (Proc.devRef .tc b) = _
  rw [Function.update_of_ne (StableHlo.devRef_ne_of_ne h1), Function.update_of_ne (StableHlo.devRef_ne_of_ne h0)]
theorem V2_dap (c : Dev nD) : V2 m c main_v14_0 = dapArr m c := by
  show Function.update (Function.update (W1 m c) main_v14_0 (dapArr m c)) main_v14_1 (danArr m c) (Proc.devRef .tc main_v14_0) = _
  rw [Function.update_of_ne (StableHlo.devRef_ne_of_ne (by decide)), Function.update_self]
theorem V2_dan (c : Dev nD) : V2 m c main_v14_1 = danArr m c := by
  show Function.update (Function.update (W1 m c) main_v14_0 (dapArr m c)) main_v14_1 (danArr m c) (Proc.devRef .tc main_v14_1) = _
  rw [Function.update_self]

set_option maxHeartbeats 4000000 in
/-- The eight windows' arrays at what the pipeline leaves make the seven buffers, each whole, at the exit contents. -/
theorem arrays_arrBufs (c : Dev nD) :
    ((dats m 0 c).arrays ((dats m 0 c).arrAt · cfg0.N) : sProp 𝕄) ⊢ Pipeline.arrBufs spec0 c (V2 m c) := by
  rw [arrays_loc, bigSep_W0]
  unfold Pipeline.arrBufs
  rw [arrRefs_eq]
  rw [bigSep_insert (by decide), bigSep_insert (by decide), bigSep_insert (by decide), bigSep_insert (by decide),
    bigSep_insert (by decide), bigSep_insert (by decide), bigSep_singleton]
  rw [share_0 m c, share_1 m c, share_2 m c, share_3 m c, share_4 m c, share_5 m c, share_6 m c, share_7 m c]
  rw [V2_of_ne m c main_v7 (by decide) (by decide), V2_of_ne m c main_v10 (by decide) (by decide), V2_of_ne m c main_v11 (by decide) (by decide),
    V2_of_ne m c main_v12 (by decide) (by decide), V2_of_ne m c main_v13 (by decide) (by decide), V2_dap, V2_dan]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  show _ ⊢ (iprop((((c.tc : Thread nD τ).loc main_v7) ↦{fullShare} V1 m c main_v7) ∗ (((c.tc : Thread nD τ).loc main_v10) ↦{fullShare} V1 m c main_v10) ∗ (((c.tc : Thread nD τ).loc main_v11) ↦{fullShare} V1 m c main_v11)
      ∗ (((c.tc : Thread nD τ).loc main_v12) ↦{fullShare} V1 m c main_v12) ∗ (((c.tc : Thread nD τ).loc main_v13) ↦{fullShare} V1 m c main_v13)
      ∗ (((c.tc : Thread nD τ).loc main_v14_0) ↦{fullShare} dapArr m c) ∗ (((c.tc : Thread nD τ).loc main_v14_1) ↦{fullShare} danArr m c)) : sProp 𝕄)
  iintro ⟨Ha, Hb, H10, H11, H12, H13, H140, H141⟩
  isplitl [Ha Hb]
  · iapply (pointsTo_share (PosShare.mem_left_op_right fullShare)).2
    isplitl [Ha]; · iexact Ha
    iexact Hb
  isplitl [H10]; · iexact H10
  isplitl [H11]; · iexact H11
  isplitl [H12]; · iexact H12
  isplitl [H13]; · iexact H13
  isplitl [H140]; · iexact H140
  iexact H141

/-- No window's array is a scoped buffer. -/
theorem arr_unscoped0 : ∀ w : Fin (cfgs 0).W, (Pipeline.arrRef (cfgs 0).spec w).isScoped = false := by decide

/-- ENTRY. The core's buffers at the entry contents are the windows' arrays, each at its window's share, and
    the buffers no window stands on. -/
theorem entry_split (c : Dev nD) :
    (StableHlo.held (c : Thread nD τ) (Pipeline.ucRefs τ sig) (W1 m c) : sProp 𝕄)
      ⊢ iprop((dats m 0 c).arrays ((dats m 0 c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs 0 arr_unscoped0 c]
  exact sep_mono (arrBufs_arrays m c) .rfl

/-- EXIT. The windows' arrays at what the pipeline leaves and the buffers no window stands on, as they were,
    are the core's buffers at the exit contents. -/
theorem exit_join (c : Dev nD) :
    (iprop((dats m 0 c).arrays ((dats m 0 c).arrAt · cfg0.N)
          ∗ Pipeline.unscopedRest (Ix := Unit) (Name := ℕ) (U := UR sig nD τ) (Lvl := ℕ) spec0 c (V1 m c)) : sProp 𝕄)
      ⊢ StableHlo.held (c : Thread nD τ) (Pipeline.ucRefs τ sig) (W2 m c) := by
  rw [← Pipeline.unscopedBufs_held (Ix := Unit) (Name := ℕ) (U := UR sig nD τ) (Lvl := ℕ) c (W2 m c),
    Pipeline.unscopedBufs_split₀ cfgs 0 arr_unscoped0 c]
  refine sep_mono (arrays_arrBufs m c) (Entails.of_eq ?_)
  unfold Pipeline.unscopedRest
  exact bigSep_congr fun b hb => by
    have hb' := (Finset.mem_sdiff.mp hb).2
    rw [arrRefs_eq] at hb'
    rw [show (fun b => W2 m c (Proc.devRef .tc b)) b = V2 m c b from rfl,
      V2_of_ne m c b (fun h => hb' (by rw [h]; decide)) (fun h => hb' (by rw [h]; decide))]

end Cert.Kernel.Hand

end
-- ==== Proof.K.Launch.lean ====
/-
  The run of @main as a chain of items: the host prefix, the one kernel region, and six host stretches after
  it. Between two items the core holds every buffer of @main whole, at contents named here (W0 ... W8); the
  region takes the arrays its windows read and write out of that state and puts them back. The normalised
  embeddings reach the kernel through two windows, so their one buffer is split in two halves of its share at
  the region's entry, one per window, and the halves are joined again at its exit; the region writes only the
  two result arrays. The run ends with every buffer at W8's contents; in particular no item writes an
  argument.
-/
import proofs.«159311_j57509612094151_1_alg».proof.Proof.K.Split
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 1) → (pcfgs (F := F) p).Adm := fun p => (cfgs p).toPCfg_adm
/-- The one pipeline's proof data (a literal match, so that the configuration at a numeral reduces to the printed one). -/
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and that it owes nothing. -/
abbrev R (c : Dev nD) : sProp 𝕄 := iprop((∃ r, prngReg c r) ∗ ∃ W, owes (c : Thread nD τ) (0 : CellTallies nD τ sig Unit) W)

/-- A stretch of host operations as an item: from the buffers at `W` to the buffers at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- An unscoped TensorCore reference is among those the core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without what the core owes: every buffer at the last contents, the generator register at some state. -/
abbrev Tₙ (c : Dev nD) : sProp 𝕄 := iprop(StableHlo.held (c : Thread nD τ) (Pipeline.ucRefs τ sig) (W8 m c) ∗ ∃ r, prngReg c r)

/-! ## The region as an item -/

variable (hb : ∀ c : Dev nD, Pipeline.BodyObligation (dats (F := F) m 0 c) (defs₀ (F := F)) Variants.none () Set.univ)

set_option backward.isDefEq.respectTransparency.types false in
/-- The kernel region: entered with every buffer at `W1`, left with every buffer at `W2`. Its arrays are taken
    out of the buffers and put back (`entry_split`, `exit_join`); the generator register passes into the body's
    invariant and out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as the chain of its items -/

/-- The eight items of @main, in order. -/
abbrev segs : List (Seg (pcfgs (F := F)) adm (pdats m) () defs₀ 𝒱₀ L lv) :=
  [ .host (hseg hostOps0 hostOps0_sub hostOps0_fresh (W0 m)),
    .region (reg0 m hb),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)) ]

/-- @main is the run of its items. -/
theorem main_run (c : Dev nD) : main (F := F) c = Pipeline.Seg.run (segs m hb) := (main_chain c).trans (by chain_rfl)

include hb in
set_option backward.isDefEq.respectTransparency.types false in
/-- THE RUN. From any memory with zero counters every weakly fair execution of @main terminates, nothing
    faulting, and every buffer of @main ends at `W8`'s contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m hb)
    (fun c Q => by rw [main_run m hb c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Hand

end
-- ==== Proof.K.Args.lean ====
/-
  The two arguments of @main are never overwritten.

  @main is eight items run in order: a host stretch, the one kernel region, and six more host stretches. Every
  host operation writes exactly one buffer, its result, and no result is an argument: a stretch's operations
  write the finitely many references listed for it below, and neither argument is on any list. The region changes
  only its two result arrays. So reading an argument after the last item walks back, item by item, to what the
  launch memory held there.
-/
import proofs.«159311_j57509612094151_1_alg».proof.Proof.K.After

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-! ## What each host stretch writes -/

/-- A list of references, as the set of device buffers they name. -/
abbrev bufsOf (W : List (Ref sig .tc)) : Finset (DevRef τ sig) := (W.map (Proc.devRef (τ := τ) .tc)).toFinset

/-- The one buffer an operation writes lies in a list's set as soon as its reference is on the list. -/
theorem single_sub_bufsOf {W : List (Ref sig .tc)} {y : Ref sig .tc} (hy : y ∈ W) :
    ({Proc.devRef (τ := τ) .tc y} : Finset (DevRef τ sig)) ⊆ bufsOf W :=
  Finset.singleton_subset_iff.mpr (List.mem_toFinset.mpr (List.mem_map_of_mem hy))

/-- The results of the stretch before the region: the squares, the row sums, the norms and the clamped norms,
    the normalised embeddings, their squared norms in both layouts, the labels in both layouts. -/
abbrev wr0 : List (Ref sig .tc) :=
  [main_v0, main_cst, main_v1, main_v2, main_v3, main_cst_0, main_v4, main_v5, main_v6, main_v7, main_v8,
   main_cst_1, main_v9, main_v10, main_v11, main_v12, main_v13]
/-- The results of the first stretch after the region: the flattened results, the two validity tests and their
    conjunction, the difference of the two distances plus the margin. -/
abbrev wr1 : List (Ref sig .tc) :=
  [main_v15, main_v16, main_cst_2, main_v17, main_v18, main_cst_3, main_v19, main_v20, main_v21, main_v22,
   main_cst_4, main_v23, main_v24]
/-- The clamp at zero. -/
abbrev wr1_1 : List (Ref sig .tc) := [main_call0_cst, main_call0_v0, main_v25]
/-- One constant. -/
abbrev wr1_2 : List (Ref sig .tc) := [main_cst_5]
/-- The selection of the valid anchors' terms. -/
abbrev wr1_3 : List (Ref sig .tc) := [main_call1_v0, main_call1_v1, main_v26]
/-- The count of positive terms, their sum and the quotient. -/
abbrev wr1_4 : List (Ref sig .tc) :=
  [main_cst_6, main_v27, main_v28, main_v29, main_c, main_v30, main_v31, main_cst_7, main_v32, main_cst_8,
   main_v33, main_cst_9, main_v34, main_v35, main_cst_10]
/-- The final selection. -/
abbrev wr1_5 : List (Ref sig .tc) := [main_call2_v0, main_v36]

/- Each operation's written set is the singleton of its result, by unfolding; the result is on the list. -/
theorem hostOps0_wr : (hostOps0 : List (HloOp τ sig (Elt F))).Forall fun op => op.writes ⊆ bufsOf wr0 :=
  ⟨single_sub_bufsOf (y := main_v0) (by decide), single_sub_bufsOf (y := main_cst) (by decide),
   single_sub_bufsOf (y := main_v1) (by decide), single_sub_bufsOf (y := main_v2) (by decide),
   single_sub_bufsOf (y := main_v3) (by decide), single_sub_bufsOf (y := main_cst_0) (by decide),
   single_sub_bufsOf (y := main_v4) (by decide), single_sub_bufsOf (y := main_v5) (by decide),
   single_sub_bufsOf (y := main_v6) (by decide), single_sub_bufsOf (y := main_v7) (by decide),
   single_sub_bufsOf (y := main_v8) (by decide), single_sub_bufsOf (y := main_cst_1) (by decide),
   single_sub_bufsOf (y := main_v9) (by decide), single_sub_bufsOf (y := main_v10) (by decide),
   single_sub_bufsOf (y := main_v11) (by decide), single_sub_bufsOf (y := main_v12) (by decide),
   single_sub_bufsOf (y := main_v13) (by decide)⟩

theorem hostOps1_wr : (hostOps1 : List (HloOp τ sig (Elt F))).Forall fun op => op.writes ⊆ bufsOf wr1 :=
  ⟨single_sub_bufsOf (y := main_v15) (by decide), single_sub_bufsOf (y := main_v16) (by decide),
   single_sub_bufsOf (y := main_cst_2) (by decide), single_sub_bufsOf (y := main_v17) (by decide),
   single_sub_bufsOf (y := main_v18) (by decide), single_sub_bufsOf (y := main_cst_3) (by decide),
   single_sub_bufsOf (y := main_v19) (by decide), single_sub_bufsOf (y := main_v20) (by decide),
   single_sub_bufsOf (y := main_v21) (by decide), single_sub_bufsOf (y := main_v22) (by decide),
   single_sub_bufsOf (y := main_cst_4) (by decide), single_sub_bufsOf (y := main_v23) (by decide),
   single_sub_bufsOf (y := main_v24) (by decide)⟩

theorem hostOps1_1_wr : (hostOps1_1 : List (HloOp τ sig (Elt F))).Forall fun op => op.writes ⊆ bufsOf wr1_1 :=
  ⟨single_sub_bufsOf (y := main_call0_cst) (by decide), single_sub_bufsOf (y := main_call0_v0) (by decide),
   single_sub_bufsOf (y := main_v25) (by decide)⟩

theorem hostOps1_2_wr : (hostOps1_2 : List (HloOp τ sig (Elt F))).Forall fun op => op.writes ⊆ bufsOf wr1_2 :=
  single_sub_bufsOf (y := main_cst_5) (by decide)

theorem hostOps1_3_wr : (hostOps1_3 : List (HloOp τ sig (Elt F))).Forall fun op => op.writes ⊆ bufsOf wr1_3 :=
  ⟨single_sub_bufsOf (y := main_call1_v0) (by decide), single_sub_bufsOf (y := main_call1_v1) (by decide),
   single_sub_bufsOf (y := main_v26) (by decide)⟩

theorem hostOps1_4_wr : (hostOps1_4 : List (HloOp τ sig (Elt F))).Forall fun op => op.writes ⊆ bufsOf wr1_4 :=
  ⟨single_sub_bufsOf (y := main_cst_6) (by decide), single_sub_bufsOf (y := main_v27) (by decide),
   single_sub_bufsOf (y := main_v28) (by decide), single_sub_bufsOf (y := main_v29) (by decide),
   single_sub_bufsOf (y := main_c) (by decide), single_sub_bufsOf (y := main_v30) (by decide),
   single_sub_bufsOf (y := main_v31) (by decide), single_sub_bufsOf (y := main_cst_7) (by decide),
   single_sub_bufsOf (y := main_v32) (by decide), single_sub_bufsOf (y := main_cst_8) (by decide),
   single_sub_bufsOf (y := main_v33) (by decide), single_sub_bufsOf (y := main_cst_9) (by decide),
   single_sub_bufsOf (y := main_v34) (by decide), single_sub_bufsOf (y := main_v35) (by decide),
   single_sub_bufsOf (y := main_cst_10) (by decide)⟩

theorem hostOps1_5_wr : (hostOps1_5 : List (HloOp τ sig (Elt F))).Forall fun op => op.writes ⊆ bufsOf wr1_5 :=
  ⟨single_sub_bufsOf (y := main_call2_v0) (by decide), single_sub_bufsOf (y := main_v36) (by decide)⟩

/-! ## What each item leaves alone -/

/-- The region rewrites its two result arrays and nothing else. -/
theorem W2_keeps (c : Dev nD) (r : Ref sig .tc) (h0 : r ≠ main_v14_0) (h1 : r ≠ main_v14_1) : W2 m c r = W1 m c r :=
  (Function.update_of_ne (StableHlo.devRef_ne_of_ne h1) _ _).trans
    (Function.update_of_ne (StableHlo.devRef_ne_of_ne h0) _ _)

/-! ## The arguments at the end -/

/-- The embeddings are at the end what the launch memory held. -/
theorem W8_main_arg0 (c : Dev nD) : W8 m c main_arg0 = m ((c : Thread nD τ).loc main_arg0) :=
  calc W8 m c main_arg0
      = W7 m c main_arg0 := StableHlo.after_of_writes_sub hostOps1_5 _ hostOps1_5_wr (r := main_arg0) (by decide)
    _ = W6 m c main_arg0 := StableHlo.after_of_writes_sub hostOps1_4 _ hostOps1_4_wr (r := main_arg0) (by decide)
    _ = W5 m c main_arg0 := StableHlo.after_of_writes_sub hostOps1_3 _ hostOps1_3_wr (r := main_arg0) (by decide)
    _ = W4 m c main_arg0 := StableHlo.after_of_writes_sub hostOps1_2 _ hostOps1_2_wr (r := main_arg0) (by decide)
    _ = W3 m c main_arg0 := StableHlo.after_of_writes_sub hostOps1_1 _ hostOps1_1_wr (r := main_arg0) (by decide)
    _ = W2 m c main_arg0 := StableHlo.after_of_writes_sub hostOps1 _ hostOps1_wr (r := main_arg0) (by decide)
    _ = W1 m c main_arg0 := W2_keeps m c main_arg0 (by decide) (by decide)
    _ = W0 m c main_arg0 := StableHlo.after_of_writes_sub hostOps0 _ hostOps0_wr (r := main_arg0) (by decide)
    _ = m ((c : Thread nD τ).loc main_arg0) := rfl

/-- The labels are at the end what the launch memory held. -/
theorem W8_main_arg1 (c : Dev nD) : W8 m c main_arg1 = m ((c : Thread nD τ).loc main_arg1) :=
  calc W8 m c main_arg1
      = W7 m c main_arg1 := StableHlo.after_of_writes_sub hostOps1_5 _ hostOps1_5_wr (r := main_arg1) (by decide)
    _ = W6 m c main_arg1 := StableHlo.after_of_writes_sub hostOps1_4 _ hostOps1_4_wr (r := main_arg1) (by decide)
    _ = W5 m c main_arg1 := StableHlo.after_of_writes_sub hostOps1_3 _ hostOps1_3_wr (r := main_arg1) (by decide)
    _ = W4 m c main_arg1 := StableHlo.after_of_writes_sub hostOps1_2 _ hostOps1_2_wr (r := main_arg1) (by decide)
    _ = W3 m c main_arg1 := StableHlo.after_of_writes_sub hostOps1_1 _ hostOps1_1_wr (r := main_arg1) (by decide)
    _ = W2 m c main_arg1 := StableHlo.after_of_writes_sub hostOps1 _ hostOps1_wr (r := main_arg1) (by decide)
    _ = W1 m c main_arg1 := W2_keeps m c main_arg1 (by decide) (by decide)
    _ = W0 m c main_arg1 := StableHlo.after_of_writes_sub hostOps0 _ hostOps0_wr (r := main_arg1) (by decide)
    _ = m ((c : Thread nD τ).loc main_arg1) := rfl

end Cert.Kernel.Hand

end
-- ==== Proof.KI.Data.lean ====
/-
  The idealized kernel's one region, as data. The grid has 16 x 8 points, point t = (i, j) with i = t / 8 the
  row block (512 anchors) and j = t % 8 the column block (1024 candidates). At every point the body computes the
  512 x 1024 tile of pairwise distances between rows of the normalised embeddings, masks it by the label
  relation, and folds the row-wise maximum of the positives' distances (and minimum of the negatives') into two
  512 x 1 accumulators, which it resets at j = 0 and which the pipeline writes back after j = 7.

  Here: the contents of @main's buffers when the region is entered (the host prefix applied to the launch
  memory), each input window's block at a point, the two accumulators after each point by recursion on the
  point, and the pipeline's proof data over them. Everything is generic in the float instance.
-/
import proofs.«159311_j57509612094151_1_alg».proof.Proof.Gen.KernelIdeal.Launch
import proofs.«159311_j57509612094151_1_alg».proof.Proof.Gen.KernelIdeal.Skeleton
import proofs.«159311_j57509612094151_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-! ## The buffers' contents when the region is entered -/

/-- Core `c`'s buffers at launch. -/
abbrev W0 (c : Dev nD) : Valuation τ sig (Elt F) := fun b => m (c, b)
/-- Core `c`'s buffers after the host prefix: the normalised embeddings, their squared norms as a column and
    as a row, the labels as a column and as a row. -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The six input blocks at a point under their literal types: 512 anchor rows and 1024 candidate rows of the
    normalised embeddings, the anchors' squared norms (a column), the candidates' (a row), the anchors' labels
    (a column), the candidates' (a row). -/
abbrev xrow (c : Dev nD) (t : Fin cfg0.N) : Vec F S512x128 .f32 := iblk m c 0 t
abbrev xcol (c : Dev nD) (t : Fin cfg0.N) : Vec F S1024x128 .f32 := iblk m c 1 t
abbrev sqrow (c : Dev nD) (t : Fin cfg0.N) : Vec F S512x1 .f32 := iblk m c 2 t
abbrev sqcol (c : Dev nD) (t : Fin cfg0.N) : Vec F S1x1024 .f32 := iblk m c 3 t
abbrev labrow (c : Dev nD) (t : Fin cfg0.N) : Vec F S512x1 .i32 := iblk m c 4 t
abbrev labcol (c : Dev nD) (t : Fin cfg0.N) : Vec F S1x1024 .i32 := iblk m c 5 t

/-! ## The accumulators, point by point -/

/-- The tile of distances the body computes at point `t`. -/
def tile (c : Dev nD) (t : Fin cfg0.N) : FVec F S512x1024 .f32 :=
  k0_pay6 (xrow m c t) (xcol m c t) (sqrow m c t) (sqcol m c t)

/-- One point's update of the pair (running maximum over positives, running minimum over negatives), from
    what the pair held when the body's accumulation began. -/
def step (c : Dev nD) (t : Fin cfg0.N) (p : Vec F S512x1 .f32 × Vec F S512x1 .f32) : Vec F S512x1 .f32 × Vec F S512x1 .f32 :=
  (k0_pay2 (tile m c t) (k0_pay7 (grid0.coords t)) (k0_pay8 (labrow m c t)) (labcol m c t) p.1,
   k0_pay3 (tile m c t) (k0_pay8 (labrow m c t)) (labcol m c t) p.2)

/-- The pair the body's reset stores at the first column block. -/
def fresh : Vec F S512x1 .f32 × Vec F S512x1 .f32 := (k0_pay4 (F := F), k0_pay5 (F := F))

/-- What the two output staging buffers hold after the body at point `n`: at a first column block the update
    of the reset pair, otherwise the update of what the point before left. -/
def accAt (c : Dev nD) : (n : ℕ) → n < cfg0.N → Vec F S512x1 .f32 × Vec F S512x1 .f32
  | 0, h => step m c ⟨0, h⟩ (fresh (F := F))
  | n + 1, h =>
    if (n + 1) % 8 = 0 then step m c ⟨n + 1, h⟩ (fresh (F := F))
    else step m c ⟨n + 1, h⟩ (accAt c n (Nat.lt_of_succ_lt h))

/-! ## The pipeline's proof data -/

/-- The proof data of the one pipeline on core `c`: the arrays as the region finds them; after the body at
    point `t` each input's buffer at its block and the two outputs' at the accumulators; the invariant the
    scoped rest and the generator register; nothing owed. The normalised embeddings are handed to the kernel
    through two windows: each holds half of that array's share. -/
def dats (_ : Fin 1) (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => (accAt m c t.val t.isLt).2
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V1 m c (Pipeline.arrRef spec0 w) := by
  dsimp only [dats]

/-- The two result arrays (8192 x 1 each) when the region is left: what the write-backs after every eighth
    point have assembled of the accumulators. -/
abbrev dapArr (c : Dev nD) : Vec F S8192x1 .f32 := (dats m 0 c).arrAt 6 cfg0.N
abbrev danArr (c : Dev nD) : Vec F S8192x1 .f32 := (dats m 0 c).arrAt 7 cfg0.N

end Cert.KernelIdeal.Hand

end
-- ==== Proof.KI.Body.lean ====
/-
  The body of the one region at a grid point, as a triple. The grid point is (i, j); the body first, when
  j = 0, overwrites the two 512 x 1 accumulators with the least and the greatest value; it then reads the six
  input blocks, forms the 512 x 1024 tile of distances and the two label masks, and replaces the first
  accumulator by its maximum with the row-wise maxima over the positives and the second by its minimum with the
  row-wise minima over the negatives. So after the body the accumulators hold one step of the recursion that
  defines them: from the fresh pair when j = 0, from what the point before left otherwise, and the input blocks
  are as they were. From this, what every staging buffer holds before the body at a point, and the obligation
  the pipeline asks of the body at every point.
-/
import proofs.«159311_j57509612094151_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The accumulators' recursion, one equation per kind of point -/

/-- At a first column block the pair is one step from the fresh pair. -/
theorem accAt_reset (c : Dev nD) (t : Fin cfg0.N) (h0 : t.val % 8 = 0) :
    accAt m c t.val t.isLt = step m c t (fresh (F := F)) := by
  obtain ⟨n, hn⟩ := t
  cases n with
  | zero => rfl
  | succ n => exact if_pos h0

/-- At any other column block the pair is one step from what the point before left. -/
theorem accAt_acc (c : Dev nD) (t : Fin cfg0.N) (h0 : ¬t.val % 8 = 0) :
    accAt m c t.val t.isLt
      = step m c t (accAt m c (t.val - 1) (Nat.lt_of_le_of_lt (Nat.sub_le _ _) t.isLt)) := by
  obtain ⟨n, hn⟩ := t
  cases n with
  | zero => exact absurd (Nat.zero_mod 8) h0
  | succ n => exact if_neg h0

/-! ## What the proof data say each buffer holds after the body -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (accAt m c t.val t.isLt).1 := by dsimp only [dats]
theorem after0_7 (c : Dev nD) (t : Fin cfg0.N) : (dats m 0 c).after 7 t = (accAt m c t.val t.isLt).2 := by dsimp only [dats]

/-! ## What each buffer holds before the body

An input window's buffer holds the window's block at every point. Where the block was fetched at the point this
is what the fetch put there; where it was not, the block index has not moved since the point before, and the body
left that point's block in place. -/

theorem before0_0 (c : Dev nD) (t : Fin cfg0.N) (d) : (dats m 0 c).before 0 t d = iblk m c 0 t := by
  have hk : ∀ s, (cfg0.win 0).cut (cfg0.grid.coords s) ((dats m 0 c).after 0 s) = (dats m 0 c).blockOf 0 s := fun s => by
    rw [after0_0]; unfold Dat.blockOf iblk; rw [A_eq]
  rw [(dats m 0 c).before_in_eq_fetched 0 rfl (fun _ => rfl) (fun _ _ _ => rfl) hk t d]
  unfold Dat.fetched Dat.blockOf iblk; rw [A_eq]; rfl
theorem before0_1 (c : Dev nD) (t : Fin cfg0.N) (d) : (dats m 0 c).before 1 t d = iblk m c 1 t := by
  have hk : ∀ s, (cfg0.win 1).cut (cfg0.grid.coords s) ((dats m 0 c).after 1 s) = (dats m 0 c).blockOf 1 s := fun s => by
    rw [after0_1]; unfold Dat.blockOf iblk; rw [A_eq]
  rw [(dats m 0 c).before_in_eq_fetched 1 rfl (fun _ => rfl) (fun _ _ _ => rfl) hk t d]
  unfold Dat.fetched Dat.blockOf iblk; rw [A_eq]; rfl
theorem before0_2 (c : Dev nD) (t : Fin cfg0.N) (d) : (dats m 0 c).before 2 t d = iblk m c 2 t := by
  have hk : ∀ s, (cfg0.win 2).cut (cfg0.grid.coords s) ((dats m 0 c).after 2 s) = (dats m 0 c).blockOf 2 s := fun s => by
    rw [after0_2]; unfold Dat.blockOf iblk; rw [A_eq]
  rw [(dats m 0 c).before_in_eq_fetched 2 rfl (fun _ => rfl) (fun _ _ _ => rfl) hk t d]
  unfold Dat.fetched Dat.blockOf iblk; rw [A_eq]; rfl
theorem before0_3 (c : Dev nD) (t : Fin cfg0.N) (d) : (dats m 0 c).before 3 t d = iblk m c 3 t := by
  have hk : ∀ s, (cfg0.win 3).cut (cfg0.grid.coords s) ((dats m 0 c).after 3 s) = (dats m 0 c).blockOf 3 s := fun s => by
    rw [after0_3]; unfold Dat.blockOf iblk; rw [A_eq]
  rw [(dats m 0 c).before_in_eq_fetched 3 rfl (fun _ => rfl) (fun _ _ _ => rfl) hk t d]
  unfold Dat.fetched Dat.blockOf iblk; rw [A_eq]; rfl
theorem before0_4 (c : Dev nD) (t : Fin cfg0.N) (d) : (dats m 0 c).before 4 t d = iblk m c 4 t := by
  have hk : ∀ s, (cfg0.win 4).cut (cfg0.grid.coords s) ((dats m 0 c).after 4 s) = (dats m 0 c).blockOf 4 s := fun s => by
    rw [after0_4]; unfold Dat.blockOf iblk; rw [A_eq]
  rw [(dats m 0 c).before_in_eq_fetched 4 rfl (fun _ => rfl) (fun _ _ _ => rfl) hk t d]
  unfold Dat.fetched Dat.blockOf iblk; rw [A_eq]; rfl
theorem before0_5 (c : Dev nD) (t : Fin cfg0.N) (d) : (dats m 0 c).before 5 t d = iblk m c 5 t := by
  have hk : ∀ s, (cfg0.win 5).cut (cfg0.grid.coords s) ((dats m 0 c).after 5 s) = (dats m 0 c).blockOf 5 s := fun s => by
    rw [after0_5]; unfold Dat.blockOf iblk; rw [A_eq]
  rw [(dats m 0 c).before_in_eq_fetched 5 rfl (fun _ => rfl) (fun _ _ _ => rfl) hk t d]
  unfold Dat.fetched Dat.blockOf iblk; rw [A_eq]; rfl

/-- Output window 6: fresh at a first column block, else what the point before left. -/
theorem before0_6_reset (c : Dev nD) (t : Fin cfg0.N) (h0 : t.val % 8 = 0) (d) : (dats m 0 c).before 6 t d = d := by
  refine (dats m 0 c).before_out_reset 6 rfl t ?_ d
  by_cases ht : t.val = 0
  · exact .inl ht
  · exact .inr ⟨ht, (flush0_6 _).mpr (show (t.val - 1) % 8 = 7 by omega)⟩

theorem before0_6_acc (c : Dev nD) (t : Fin cfg0.N) (h0 : ¬t.val % 8 = 0) (d) :
    (dats m 0 c).before 6 t d = (accAt m c (t.val - 1) (Nat.lt_of_le_of_lt (Nat.sub_le _ _) t.isLt)).1 := by
  have hfl : (cfg0.win 6).flush ⟨t.val - 1, Nat.lt_of_le_of_lt (Nat.sub_le _ _) t.isLt⟩ = false := by
    rw [Bool.eq_false_iff]; intro h
    have h7 : (t.val - 1) % 8 = 7 := (flush0_6 _).mp h
    omega
  rw [(dats m 0 c).before_out_kept 6 rfl t (fun ht => h0 (by rw [ht])) hfl (fun _ => rfl) (fun _ _ => rfl) d, after0_6]

/-- Output window 7: fresh at a first column block, else what the point before left. -/
theorem before0_7_reset (c : Dev nD) (t : Fin cfg0.N) (h0 : t.val % 8 = 0) (d) : (dats m 0 c).before 7 t d = d := by
  refine (dats m 0 c).before_out_reset 7 rfl t ?_ d
  by_cases ht : t.val = 0
  · exact .inl ht
  · exact .inr ⟨ht, (flush0_7 _).mpr (show (t.val - 1) % 8 = 7 by omega)⟩

theorem before0_7_acc (c : Dev nD) (t : Fin cfg0.N) (h0 : ¬t.val % 8 = 0) (d) :
    (dats m 0 c).before 7 t d = (accAt m c (t.val - 1) (Nat.lt_of_le_of_lt (Nat.sub_le _ _) t.isLt)).2 := by
  have hfl : (cfg0.win 7).flush ⟨t.val - 1, Nat.lt_of_le_of_lt (Nat.sub_le _ _) t.isLt⟩ = false := by
    rw [Bool.eq_false_iff]; intro h
    have h7 : (t.val - 1) % 8 = 7 := (flush0_7 _).mp h
    omega
  rw [(dats m 0 c).before_out_kept 7 rfl t (fun ht => h0 (by rw [ht])) hfl (fun _ => rfl) (fun _ _ => rfl) d, after0_7]

/-! ## The reset's condition -/

/-- The condition under which the body resets the accumulators, as the body computes it from the grid point:
    the column coordinate, as a 32-bit word, equals zero. -/
abbrev resets (i : grid0.Coords) : Prop :=
  Scalar.cmpi .ne (Scalar.extui (Scalar.cmpi .eq (BitVec.ofNat 32 (i 1).val) 0#32) : BitVec 32) 0#32 = 1#1

/-- It holds exactly at the first column block of each row block. -/
theorem resets_iff : ∀ t : Fin cfg0.N, resets (grid0.coords t) ↔ t.val % 8 = 0 :=
  (by decide +kernel : ∀ t : Fin grid0.N, resets (grid0.coords t) ↔ t.val % 8 = 0)

/-! ## Reading a whole buffer, and reading back a store that fills it -/

/-- The two-axis offset vector of zeros is the constant zero. -/
theorem zeros2 : (![0, 0] : Fin 2 → ℕ) = fun _ => 0 := by
  funext a; fin_cases a <;> rfl

section whole
variable {Val : EltTy → Type} {κ : Kind} {sp : Space} {S : Shape} {e : EltTy}

/-- A read of all of a whole buffer held at the raw contents that read `X` is `X`. -/
theorem readAt_all {M : Memref sig κ sp S e} (h : M.IsWhole) (X : S.Idx → Val e) {off : Fin S.rank → ℕ}
    (h0 : off = fun _ => 0) (inb : ∀ a, off a + S.size a ≤ S.size a) :
    View.readAt Val M.view (Rect.unit off S.size inb).toLoadRect (h.unread X) = X := by
  subst h0; funext x
  refine (congrFun (h.read_unread X) _).trans ?_
  show X ((Rect.whole S).emb x) = X x
  rw [Rect.emb_whole_apply]

/-- After a store that fills the buffer, made last, the buffer reads the stored value. -/
theorem read_after_fill (v : View sig κ sp S e) (f : v.ty.Contents Val) {off : Fin S.rank → ℕ}
    (h0 : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h0; funext y
  have e := View.read_writes_cons_emb v f (Rect.whole S) w L y
  rwa [Rect.emb_whole_apply] at e

end whole

/-! ## The body on any eight whole buffers -/

set_option maxHeartbeats 1000000 in
/-- Where the body resets: whatever the accumulators held, they are left one step from the fresh pair. -/
theorem run_reset (c : Dev nD) (i : grid0.Coords)
    (arg2 : Memref sig .tc .vmem S512x128 .f32) (harg2 : arg2.IsWhole) (arg3 : Memref sig .tc .vmem S1024x128 .f32) (harg3 : arg3.IsWhole)
    (arg4 : Memref sig .tc .vmem S512x1 .f32) (harg4 : arg4.IsWhole) (arg5 : Memref sig .tc .vmem S1x1024 .f32) (harg5 : arg5.IsWhole)
    (arg6 : Memref sig .tc .vmem S512x1 .i32) (harg6 : arg6.IsWhole) (arg7 : Memref sig .tc .vmem S1x1024 .i32) (harg7 : arg7.IsWhole)
    (arg8 : Memref sig .tc .vmem S512x1 .f32) (harg8 : arg8.IsWhole) (arg9 : Memref sig .tc .vmem S512x1 .f32) (harg9 : arg9.IsWhole)
    (hc : resets i)
    (x0 : Vec F S512x128 .f32) (x1 : Vec F S1024x128 .f32) (x2 : Vec F S512x1 .f32) (x3 : Vec F S1x1024 .f32)
    (x4 : Vec F S512x1 .i32) (x5 : Vec F S1x1024 .i32) (o6 o7 : Vec F S512x1 .f32)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare o6 ∗ owns (c : Thread nD τ) arg9 fullShare o7
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare
                  (k0_pay2 (k0_pay6 x0 x1 x2 x3) (k0_pay7 i) (k0_pay8 x4) x5 (k0_pay4 (F := F)))
              ∗ owns (c : Thread nD τ) arg9 fullShare
                  (k0_pay3 (k0_pay6 x0 x1 x2 x3) (k0_pay8 x4) x5 (k0_pay5 (F := F)))) -∗ K ⟨⟩))
      ⊢ wp frame (wpE (defs₀ (F := F)) Variants.none c none) E
          (cc0__mining_kernel i arg2 harg2 arg3 harg3 arg4 harg4 arg5 harg5 arg6 harg6 arg7 harg7 arg8 harg8 arg9 harg9) K := by
  simp only [cc0__mining_kernel_eq_skeleton]; unfold cc0__mining_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr; swap; · iexact H6
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, View.readCov_cons_toLoadRect]
  · iexists _; isplitr; swap; · iexact H7
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, View.readCov_cons_toLoadRect]

set_option maxHeartbeats 1000000 in
/-- Where it does not: the accumulators are left one step from what they held. -/
theorem run_acc (c : Dev nD) (i : grid0.Coords)
    (arg2 : Memref sig .tc .vmem S512x128 .f32) (harg2 : arg2.IsWhole) (arg3 : Memref sig .tc .vmem S1024x128 .f32) (harg3 : arg3.IsWhole)
    (arg4 : Memref sig .tc .vmem S512x1 .f32) (harg4 : arg4.IsWhole) (arg5 : Memref sig .tc .vmem S1x1024 .f32) (harg5 : arg5.IsWhole)
    (arg6 : Memref sig .tc .vmem S512x1 .i32) (harg6 : arg6.IsWhole) (arg7 : Memref sig .tc .vmem S1x1024 .i32) (harg7 : arg7.IsWhole)
    (arg8 : Memref sig .tc .vmem S512x1 .f32) (harg8 : arg8.IsWhole) (arg9 : Memref sig .tc .vmem S512x1 .f32) (harg9 : arg9.IsWhole)
    (hc : ¬resets i)
    (x0 : Vec F S512x128 .f32) (x1 : Vec F S1024x128 .f32) (x2 : Vec F S512x1 .f32) (x3 : Vec F S1x1024 .f32)
    (x4 : Vec F S512x1 .i32) (x5 : Vec F S1x1024 .i32) (o6 o7 : Vec F S512x1 .f32)
    (E : Set ℕ) (K : PUnit → sProp 𝕄) :
    iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare o6 ∗ owns (c : Thread nD τ) arg9 fullShare o7
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare
                  (k0_pay2 (k0_pay6 x0 x1 x2 x3) (k0_pay7 i) (k0_pay8 x4) x5 o6)
              ∗ owns (c : Thread nD τ) arg9 fullShare
                  (k0_pay3 (k0_pay6 x0 x1 x2 x3) (k0_pay8 x4) x5 o7)) -∗ K ⟨⟩))
      ⊢ wp frame (wpE (defs₀ (F := F)) Variants.none c none) E
          (cc0__mining_kernel i arg2 harg2 arg3 harg3 arg4 harg4 arg5 harg5 arg6 harg6 arg7 harg7 arg8 harg8 arg9 harg9) K := by
  simp only [cc0__mining_kernel_eq_skeleton]; unfold cc0__mining_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  sl_exec (disch := first | exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr; swap; · iexact H6
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, readAt_all harg8 o6 zeros2]
  · iexists _; isplitr; swap; · iexact H7
    ipureintro
    sl_unfold_run_names
    refine (read_after_fill _ _ zeros2 _ _ _).trans ?_
    dsimp only
    rw [readAt_all harg2 x0 zeros2, readAt_all harg3 x1 zeros2, readAt_all harg4 x2 zeros2, readAt_all harg5 x3 zeros2,
      readAt_all harg6 x4 zeros2, readAt_all harg7 x5 zeros2, readAt_all harg9 o7 zeros2]

/-! ## The body at a point of the grid -/

/-- The eight staging buffers the body is called with at point `t`, under their literal types, each whole. -/
abbrev sb0 (t : Fin cfg0.N) : Memref sig .tc .vmem S512x128 .f32 := win0_0.stage (cfg0.slots t 0)
abbrev hb0 (t : Fin cfg0.N) : (sb0 t).IsWhole := hstage0_0 ((cfg0.slots t 0).cast nbuf0_0)
abbrev sb1 (t : Fin cfg0.N) : Memref sig .tc .vmem S1024x128 .f32 := win0_1.stage (cfg0.slots t 1)
abbrev hb1 (t : Fin cfg0.N) : (sb1 t).IsWhole := hstage0_1 ((cfg0.slots t 1).cast nbuf0_1)
abbrev sb2 (t : Fin cfg0.N) : Memref sig .tc .vmem S512x1 .f32 := win0_2.stage (cfg0.slots t 2)
abbrev hb2 (t : Fin cfg0.N) : (sb2 t).IsWhole := hstage0_2 ((cfg0.slots t 2).cast nbuf0_2)
abbrev sb3 (t : Fin cfg0.N) : Memref sig .tc .vmem S1x1024 .f32 := win0_3.stage (cfg0.slots t 3)
abbrev hb3 (t : Fin cfg0.N) : (sb3 t).IsWhole := hstage0_3 ((cfg0.slots t 3).cast nbuf0_3)
abbrev sb4 (t : Fin cfg0.N) : Memref sig .tc .vmem S512x1 .i32 := win0_4.stage (cfg0.slots t 4)
abbrev hb4 (t : Fin cfg0.N) : (sb4 t).IsWhole := hstage0_4 ((cfg0.slots t 4).cast nbuf0_4)
abbrev sb5 (t : Fin cfg0.N) : Memref sig .tc .vmem S1x1024 .i32 := win0_5.stage (cfg0.slots t 5)
abbrev hb5 (t : Fin cfg0.N) : (sb5 t).IsWhole := hstage0_5 ((cfg0.slots t 5).cast nbuf0_5)
abbrev sb6 (t : Fin cfg0.N) : Memref sig .tc .vmem S512x1 .f32 := win0_6.stage (cfg0.slots t 6)
abbrev hb6 (t : Fin cfg0.N) : (sb6 t).IsWhole := hstage0_6 ((cfg0.slots t 6).cast nbuf0_6)
abbrev sb7 (t : Fin cfg0.N) : Memref sig .tc .vmem S512x1 .f32 := win0_7.stage (cfg0.slots t 7)
abbrev hb7 (t : Fin cfg0.N) : (sb7 t).IsWhole := hstage0_7 ((cfg0.slots t 7).cast nbuf0_7)

set_option maxHeartbeats 1000000 in
/-- At every point: each input's buffer holds its block, the accumulators' buffers hold anything at a first column
    block and what the point before left otherwise; the body leaves the blocks and one more step of the pair. -/
theorem sound_body (c : Dev nD) (t : Fin cfg0.N) :
    iprop((dats m 0 c).Φ t.castSucc ∗ (dats m 0 c).owesAt () t.castSucc
        ∗ (∃ d, owns (c : Thread nD τ) (sb0 t) fullShare ((dats m 0 c).before 0 t d))
        ∗ (∃ d, owns (c : Thread nD τ) (sb1 t) fullShare ((dats m 0 c).before 1 t d))
        ∗ (∃ d, owns (c : Thread nD τ) (sb2 t) fullShare ((dats m 0 c).before 2 t d))
        ∗ (∃ d, owns (c : Thread nD τ) (sb3 t) fullShare ((dats m 0 c).before 3 t d))
        ∗ (∃ d, owns (c : Thread nD τ) (sb4 t) fullShare ((dats m 0 c).before 4 t d))
        ∗ (∃ d, owns (c : Thread nD τ) (sb5 t) fullShare ((dats m 0 c).before 5 t d))
        ∗ (∃ d, owns (c : Thread nD τ) (sb6 t) fullShare ((dats m 0 c).before 6 t d))
        ∗ (∃ d, owns (c : Thread nD τ) (sb7 t) fullShare ((dats m 0 c).before 7 t d)))
      ⊢ wp frame (wpE (defs₀ (F := F)) Variants.none c none) Set.univ (bodyAt0 t) fun _ =>
          iprop((dats m 0 c).Φ t.succ ∗ (dats m 0 c).owesAt () t.succ
            ∗ owns (c : Thread nD τ) (sb0 t) fullShare ((dats m 0 c).after 0 t)
            ∗ owns (c : Thread nD τ) (sb1 t) fullShare ((dats m 0 c).after 1 t)
            ∗ owns (c : Thread nD τ) (sb2 t) fullShare ((dats m 0 c).after 2 t)
            ∗ owns (c : Thread nD τ) (sb3 t) fullShare ((dats m 0 c).after 3 t)
            ∗ owns (c : Thread nD τ) (sb4 t) fullShare ((dats m 0 c).after 4 t)
            ∗ owns (c : Thread nD τ) (sb5 t) fullShare ((dats m 0 c).after 5 t)
            ∗ owns (c : Thread nD τ) (sb6 t) fullShare ((dats m 0 c).after 6 t)
            ∗ owns (c : Thread nD τ) (sb7 t) fullShare ((dats m 0 c).after 7 t)) := by
  have hΦ : (dats m 0 c).Φ t.succ = (dats m 0 c).Φ t.castSucc := rfl
  have hO : (dats m 0 c).owesAt () t.succ = (dats m 0 c).owesAt () t.castSucc := rfl
  simp only [before0_0, before0_1, before0_2, before0_3, before0_4, before0_5]
  rw [hΦ, hO, after0_0, after0_1, after0_2, after0_3, after0_4, after0_5, after0_6, after0_7]
  by_cases h0 : t.val % 8 = 0
  · simp only [before0_6_reset m c t h0, before0_7_reset m c t h0]
    rw [accAt_reset m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_reset c (grid0.coords t) (sb0 t) (hb0 t) (sb1 t) (hb1 t) (sb2 t) (hb2 t) (sb3 t) (hb3 t) (sb4 t) (hb4 t) (sb5 t) (hb5 t) (sb6 t) (hb6 t) (sb7 t) (hb7 t)
      ((resets_iff t).mpr h0) (xrow m c t) (xcol m c t) (sqrow m c t) (sqcol m c t) (labrow m c t) (labcol m c t) d6 d7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_6_acc m c t h0, before0_7_acc m c t h0]
    rw [accAt_acc m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_acc c (grid0.coords t) (sb0 t) (hb0 t) (sb1 t) (hb1 t) (sb2 t) (hb2 t) (sb3 t) (hb3 t) (sb4 t) (hb4 t) (sb5 t) (hb5 t) (sb6 t) (hb6 t) (sb7 t) (hb7 t)
      (fun h => h0 ((resets_iff t).mp h)) (xrow m c t) (xcol m c t) (sqrow m c t) (sqcol m c t) (labrow m c t) (labcol m c t)
      (accAt m c (t.val - 1) (Nat.lt_of_le_of_lt (Nat.sub_le _ _) t.isLt)).1
      (accAt m c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's obligation on the body, at every point. -/
theorem body_obligation (c : Dev nD) :
    Pipeline.BodyObligation (dats (F := F) m 0 c) (defs₀ (F := F)) Variants.none () Set.univ := fun t => by
  rw [bigSep_W0, bigSep_W0]
  exact sound_body m c t

end Cert.KernelIdeal.Hand

end
-- ==== Proof.KI.After.lean ====
/-
  The contents of @main's buffers after the region and after each host stretch that follows it: the region
  changes only the two result arrays; the stretches then compute, from those, which anchors have both a
  positive and a negative, each anchor's hinge term, the number of positive terms, and their mean.
-/
import proofs.«159311_j57509612094151_1_alg».proof.Proof.KI.Data

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

/-- After the region: the two result arrays at what the pipeline assembled, every other buffer as at entry. -/
abbrev W2 (c : Dev nD) : Valuation τ sig (Elt F) :=
  Function.update (Function.update (W1 m c) main_v14_0 (dapArr m c)) main_v14_1 (danArr m c)
/-- After each of the six host stretches that follow, in order. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev W8 (c : Dev nD) : Valuation τ sig (Elt F) := StableHlo.after hostOps1_5 (W7 m c)

end Cert.KernelIdeal.Hand

end
-- ==== Proof.KI.Split.lean ====
/-
  The region's arrays taken out of the core's buffers at its entry, and put back at its exit.

  The eight windows stand on seven buffers: the normalised embeddings are read through two windows (a block of
  anchor rows and a block of candidate rows). At the entry each buffer is held whole; the embeddings' buffer is
  cut into the two halves of its share, one per window, and every other buffer goes to its one window whole.
  At the exit the six input arrays are as they were (an input's array is never written), so the two halves
  join again; the two result arrays hold what the write-backs assembled; every buffer no window stands on is
  untouched.
-/
import proofs.«159311_j57509612094151_1_alg».proof.Proof.KI.After
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The distinct buffers behind the eight windows' arrays: seven, the normalised embeddings' counted once. -/
theorem arrRefs_eq : Finset.univ.image (Pipeline.arrRef spec0)
    = ({main_v7, main_v10, main_v11, main_v12, main_v13, main_v14_0, main_v14_1} : Finset (Ref sig .tc)) := by decide

/-- The windows' arrays, each a whole buffer named by its reference. -/
theorem arrays_loc (c : Dev nD) (G : (w : Fin cfg0.W) → Buf (Elt F) ((cfg0.win w).arr.view.loc (c.tc : Thread nD τ))) :
    ((dats m 0 c).arrays G : sProp 𝕄)
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- Each window's share of its array: a half each for the two windows on the embeddings, the whole otherwise. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

set_option maxHeartbeats 4000000 in
/-- The seven buffers, each whole, make the eight windows' arrays at the entry contents. -/
theorem arrBufs_arrays (c : Dev nD) :
    (Pipeline.arrBufs spec0 c (V1 m c) : sProp 𝕄) ⊢ (dats m 0 c).arrays ((dats m 0 c).arrAt · 0) := by
  rw [arrays_loc, bigSep_W0]
  unfold Pipeline.arrBufs
  rw [arrRefs_eq]
  rw [bigSep_insert (by decide), bigSep_insert (by decide), bigSep_insert (by decide), bigSep_insert (by decide),
    bigSep_insert (by decide), bigSep_insert (by decide), bigSep_singleton]
  rw [share_0 m c, share_1 m c, share_2 m c, share_3 m c, share_4 m c, share_5 m c, share_6 m c, share_7 m c]
  show (iprop((((c.tc : Thread nD τ).loc main_v7) ↦{fullShare} V1 m c main_v7) ∗ (((c.tc : Thread nD τ).loc main_v10) ↦{fullShare} V1 m c main_v10) ∗ (((c.tc : Thread nD τ).loc main_v11) ↦{fullShare} V1 m c main_v11)
      ∗ (((c.tc : Thread nD τ).loc main_v12) ↦{fullShare} V1 m c main_v12) ∗ (((c.tc : Thread nD τ).loc main_v13) ↦{fullShare} V1 m c main_v13)
      ∗ (((c.tc : Thread nD τ).loc main_v14_0) ↦{fullShare} V1 m c main_v14_0) ∗ (((c.tc : Thread nD τ).loc main_v14_1) ↦{fullShare} V1 m c main_v14_1)) : sProp 𝕄) ⊢ _
  iintro ⟨H7, H10, H11, H12, H13, H140, H141⟩
  ihave H7' := (pointsTo_share (PosShare.mem_left_op_right fullShare)).1 $$ H7
  icases H7' with ⟨Ha, Hb⟩
  isplitl [Ha]; · iexact Ha
  isplitl [Hb]; · iexact Hb
  isplitl [H10]; · iexact H10
  isplitl [H11]; · iexact H11
  isplitl [H12]; · iexact H12
  isplitl [H13]; · iexact H13
  isplitl [H140]; · iexact H140
  iexact H141

/-- The exit contents at a reference. -/
abbrev V2 : (c : Dev nD) → (b : Ref sig .tc) → Buf (Elt F) ((c : Thread nD τ).loc b) := fun c b => W2 m c b

/-- The exit contents differ from the entry contents only at the two result arrays. -/
theorem V2_of_ne (c : Dev nD) (b : Ref sig .tc) (h0 : b ≠ main_v14_0) (h1 : b ≠ main_v14_1) : V2 m c b = V1 m c b := by
  show Function.update (Function.update (W1 m c) main_v14_0 (dapArr m c)) main_v14_1 (danArr m c) (Proc.devRef .tc b) = _
  rw [Function.update_of_ne (StableHlo.devRef_ne_of_ne h1), Function.update_of_ne (StableHlo.devRef_ne_of_ne h0)]
theorem V2_dap (c : Dev nD) : V2 m c main_v14_0 = dapArr m c := by
  show Function.update (Function.update (W1 m c) main_v14_0 (dapArr m c)) main_v14_1 (danArr m c) (Proc.devRef .tc main_v14_0) = _
  rw [Function.update_of_ne (StableHlo.devRef_ne_of_ne (by decide)), Function.update_self]
theorem V2_dan (c : Dev nD) : V2 m c main_v14_1 = danArr m c := by
  show Function.update (Function.update (W1 m c) main_v14_0 (dapArr m c)) main_v14_1 (danArr m c) (Proc.devRef .tc main_v14_1) = _
  rw [Function.update_self]

set_option maxHeartbeats 4000000 in
/-- The eight windows' arrays at what the pipeline leaves make the seven buffers, each whole, at the exit contents. -/
theorem arrays_arrBufs (c : Dev nD) :
    ((dats m 0 c).arrays ((dats m 0 c).arrAt · cfg0.N) : sProp 𝕄) ⊢ Pipeline.arrBufs spec0 c (V2 m c) := by
  rw [arrays_loc, bigSep_W0]
  unfold Pipeline.arrBufs
  rw [arrRefs_eq]
  rw [bigSep_insert (by decide), bigSep_insert (by decide), bigSep_insert (by decide), bigSep_insert (by decide),
    bigSep_insert (by decide), bigSep_insert (by decide), bigSep_singleton]
  rw [share_0 m c, share_1 m c, share_2 m c, share_3 m c, share_4 m c, share_5 m c, share_6 m c, share_7 m c]
  rw [V2_of_ne m c main_v7 (by decide) (by decide), V2_of_ne m c main_v10 (by decide) (by decide), V2_of_ne m c main_v11 (by decide) (by decide),
    V2_of_ne m c main_v12 (by decide) (by decide), V2_of_ne m c main_v13 (by decide) (by decide), V2_dap, V2_dan]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  show _ ⊢ (iprop((((c.tc : Thread nD τ).loc main_v7) ↦{fullShare} V1 m c main_v7) ∗ (((c.tc : Thread nD τ).loc main_v10) ↦{fullShare} V1 m c main_v10) ∗ (((c.tc : Thread nD τ).loc main_v11) ↦{fullShare} V1 m c main_v11)
      ∗ (((c.tc : Thread nD τ).loc main_v12) ↦{fullShare} V1 m c main_v12) ∗ (((c.tc : Thread nD τ).loc main_v13) ↦{fullShare} V1 m c main_v13)
      ∗ (((c.tc : Thread nD τ).loc main_v14_0) ↦{fullShare} dapArr m c) ∗ (((c.tc : Thread nD τ).loc main_v14_1) ↦{fullShare} danArr m c)) : sProp 𝕄)
  iintro ⟨Ha, Hb, H10, H11, H12, H13, H140, H141⟩
  isplitl [Ha Hb]
  · iapply (pointsTo_share (PosShare.mem_left_op_right fullShare)).2
    isplitl [Ha]; · iexact Ha
    iexact Hb
  isplitl [H10]; · iexact H10
  isplitl [H11]; · iexact H11
  isplitl [H12]; · iexact H12
  isplitl [H13]; · iexact H13
  isplitl [H140]; · iexact H140
  iexact H141

/-- No window's array is a scoped buffer. -/
theorem arr_unscoped0 : ∀ w : Fin (cfgs 0).W, (Pipeline.arrRef (cfgs 0).spec w).isScoped = false := by decide

/-- ENTRY. The core's buffers at the entry contents are the windows' arrays, each at its window's share, and
    the buffers no window stands on. -/
theorem entry_split (c : Dev nD) :
    (StableHlo.held (c : Thread nD τ) (Pipeline.ucRefs τ sig) (W1 m c) : sProp 𝕄)
      ⊢ iprop((dats m 0 c).arrays ((dats m 0 c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs 0 arr_unscoped0 c]
  exact sep_mono (arrBufs_arrays m c) .rfl

/-- EXIT. The windows' arrays at what the pipeline leaves and the buffers no window stands on, as they were,
    are the core's buffers at the exit contents. -/
theorem exit_join (c : Dev nD) :
    (iprop((dats m 0 c).arrays ((dats m 0 c).arrAt · cfg0.N)
          ∗ Pipeline.unscopedRest (Ix := Unit) (Name := ℕ) (U := UR sig nD τ) (Lvl := ℕ) spec0 c (V1 m c)) : sProp 𝕄)
      ⊢ StableHlo.held (c : Thread nD τ) (Pipeline.ucRefs τ sig) (W2 m c) := by
  rw [← Pipeline.unscopedBufs_held (Ix := Unit) (Name := ℕ) (U := UR sig nD τ) (Lvl := ℕ) c (W2 m c),
    Pipeline.unscopedBufs_split₀ cfgs 0 arr_unscoped0 c]
  refine sep_mono (arrays_arrBufs m c) (Entails.of_eq ?_)
  unfold Pipeline.unscopedRest
  exact bigSep_congr fun b hb => by
    have hb' := (Finset.mem_sdiff.mp hb).2
    rw [arrRefs_eq] at hb'
    rw [show (fun b => W2 m c (Proc.devRef .tc b)) b = V2 m c b from rfl,
      V2_of_ne m c b (fun h => hb' (by rw [h]; decide)) (fun h => hb' (by rw [h]; decide))]

end Cert.KernelIdeal.Hand

end
-- ==== Proof.KI.Launch.lean ====
/-
  The run of @main as a chain of items: the host prefix, the one kernel region, and six host stretches after
  it. Between two items the core holds every buffer of @main whole, at contents named here (W0 ... W8); the
  region takes the arrays its windows read and write out of that state and puts them back. The normalised
  embeddings reach the kernel through two windows, so their one buffer is split in two halves of its share at
  the region's entry, one per window, and the halves are joined again at its exit; the region writes only the
  two result arrays. The run ends with every buffer at W8's contents; in particular no item writes an
  argument.
-/
import proofs.«159311_j57509612094151_1_alg».proof.Proof.KI.Split
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- No pipeline has a prefetched table. -/
abbrev adm : (p : Fin 1) → (pcfgs (F := F) p).Adm := fun p => (cfgs p).toPCfg_adm
/-- The one pipeline's proof data (a literal match, so that the configuration at a numeral reduces to the printed one). -/
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and that it owes nothing. -/
abbrev R (c : Dev nD) : sProp 𝕄 := iprop((∃ r, prngReg c r) ∗ ∃ W, owes (c : Thread nD τ) (0 : CellTallies nD τ sig Unit) W)

/-- A stretch of host operations as an item: from the buffers at `W` to the buffers at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- An unscoped TensorCore reference is among those the core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without what the core owes: every buffer at the last contents, the generator register at some state. -/
abbrev Tₙ (c : Dev nD) : sProp 𝕄 := iprop(StableHlo.held (c : Thread nD τ) (Pipeline.ucRefs τ sig) (W8 m c) ∗ ∃ r, prngReg c r)

/-! ## The region as an item -/

variable (hb : ∀ c : Dev nD, Pipeline.BodyObligation (dats (F := F) m 0 c) (defs₀ (F := F)) Variants.none () Set.univ)

set_option backward.isDefEq.respectTransparency.types false in
/-- The kernel region: entered with every buffer at `W1`, left with every buffer at `W2`. Its arrays are taken
    out of the buffers and put back (`entry_split`, `exit_join`); the generator register passes into the body's
    invariant and out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as the chain of its items -/

/-- The eight items of @main, in order. -/
abbrev segs : List (Seg (pcfgs (F := F)) adm (pdats m) () defs₀ 𝒱₀ L lv) :=
  [ .host (hseg hostOps0 hostOps0_sub hostOps0_fresh (W0 m)),
    .region (reg0 m hb),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)) ]

/-- @main is the run of its items. -/
theorem main_run (c : Dev nD) : main (F := F) c = Pipeline.Seg.run (segs m hb) := (main_chain c).trans (by chain_rfl)

include hb in
set_option backward.isDefEq.respectTransparency.types false in
/-- THE RUN. From any memory with zero counters every weakly fair execution of @main terminates, nothing
    faulting, and every buffer of @main ends at `W8`'s contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m hb)
    (fun c Q => by rw [main_run m hb c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Hand

end
-- ==== Proof.KI.Args.lean ====
/-
  The two arguments of @main are never overwritten.

  @main is eight items run in order: a host stretch, the one kernel region, and six more host stretches. Every
  host operation writes exactly one buffer, its result, and no result is an argument: a stretch's operations
  write the finitely many references listed for it below, and neither argument is on any list. The region changes
  only its two result arrays. So reading an argument after the last item walks back, item by item, to what the
  launch memory held there.
-/
import proofs.«159311_j57509612094151_1_alg».proof.Proof.KI.After

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

/-! ## What each host stretch writes -/

/-- A list of references, as the set of device buffers they name. -/
abbrev bufsOf (W : List (Ref sig .tc)) : Finset (DevRef τ sig) := (W.map (Proc.devRef (τ := τ) .tc)).toFinset

/-- The one buffer an operation writes lies in a list's set as soon as its reference is on the list. -/
theorem single_sub_bufsOf {W : List (Ref sig .tc)} {y : Ref sig .tc} (hy : y ∈ W) :
    ({Proc.devRef (τ := τ) .tc y} : Finset (DevRef τ sig)) ⊆ bufsOf W :=
  Finset.singleton_subset_iff.mpr (List.mem_toFinset.mpr (List.mem_map_of_mem hy))

/-- The results of the stretch before the region: the squares, the row sums, the norms and the clamped norms,
    the normalised embeddings, their squared norms in both layouts, the labels in both layouts. -/
abbrev wr0 : List (Ref sig .tc) :=
  [main_v0, main_cst, main_v1, main_v2, main_v3, main_cst_0, main_v4, main_v5, main_v6, main_v7, main_v8,
   main_cst_1, main_v9, main_v10, main_v11, main_v12, main_v13]
/-- The results of the first stretch after the region: the flattened results, the two validity tests and their
    conjunction, the difference of the two distances plus the margin. -/
abbrev wr1 : List (Ref sig .tc) :=
  [main_v15, main_v16, main_cst_2, main_v17, main_v18, main_cst_3, main_v19, main_v20, main_v21, main_v22,
   main_cst_4, main_v23, main_v24]
/-- The clamp at zero. -/
abbrev wr1_1 : List (Ref sig .tc) := [main_call0_cst, main_call0_v0, main_v25]
/-- One constant. -/
abbrev wr1_2 : List (Ref sig .tc) := [main_cst_5]
/-- The selection of the valid anchors' terms. -/
abbrev wr1_3 : List (Ref sig .tc) := [main_call1_v0, main_call1_v1, main_v26]
/-- The count of positive terms, their sum and the quotient. -/
abbrev wr1_4 : List (Ref sig .tc) :=
  [main_cst_6, main_v27, main_v28, main_v29, main_c, main_v30, main_v31, main_cst_7, main_v32, main_cst_8,
   main_v33, main_cst_9, main_v34, main_v35, main_cst_10]
/-- The final selection. -/
abbrev wr1_5 : List (Ref sig .tc) := [main_call2_v0, main_v36]

/- Each operation's written set is the singleton of its result, by unfolding; the result is on the list. -/
theorem hostOps0_wr : (hostOps0 : List (HloOp τ sig (Elt F))).Forall fun op => op.writes ⊆ bufsOf wr0 :=
  ⟨single_sub_bufsOf (y := main_v0) (by decide), single_sub_bufsOf (y := main_cst) (by decide),
   single_sub_bufsOf (y := main_v1) (by decide), single_sub_bufsOf (y := main_v2) (by decide),
   single_sub_bufsOf (y := main_v3) (by decide), single_sub_bufsOf (y := main_cst_0) (by decide),
   single_sub_bufsOf (y := main_v4) (by decide), single_sub_bufsOf (y := main_v5) (by decide),
   single_sub_bufsOf (y := main_v6) (by decide), single_sub_bufsOf (y := main_v7) (by decide),
   single_sub_bufsOf (y := main_v8) (by decide), single_sub_bufsOf (y := main_cst_1) (by decide),
   single_sub_bufsOf (y := main_v9) (by decide), single_sub_bufsOf (y := main_v10) (by decide),
   single_sub_bufsOf (y := main_v11) (by decide), single_sub_bufsOf (y := main_v12) (by decide),
   single_sub_bufsOf (y := main_v13) (by decide)⟩

theorem hostOps1_wr : (hostOps1 : List (HloOp τ sig (Elt F))).Forall fun op => op.writes ⊆ bufsOf wr1 :=
  ⟨single_sub_bufsOf (y := main_v15) (by decide), single_sub_bufsOf (y := main_v16) (by decide),
   single_sub_bufsOf (y := main_cst_2) (by decide), single_sub_bufsOf (y := main_v17) (by decide),
   single_sub_bufsOf (y := main_v18) (by decide), single_sub_bufsOf (y := main_cst_3) (by decide),
   single_sub_bufsOf (y := main_v19) (by decide), single_sub_bufsOf (y := main_v20) (by decide),
   single_sub_bufsOf (y := main_v21) (by decide), single_sub_bufsOf (y := main_v22) (by decide),
   single_sub_bufsOf (y := main_cst_4) (by decide), single_sub_bufsOf (y := main_v23) (by decide),
   single_sub_bufsOf (y := main_v24) (by decide)⟩

theorem hostOps1_1_wr : (hostOps1_1 : List (HloOp τ sig (Elt F))).Forall fun op => op.writes ⊆ bufsOf wr1_1 :=
  ⟨single_sub_bufsOf (y := main_call0_cst) (by decide), single_sub_bufsOf (y := main_call0_v0) (by decide),
   single_sub_bufsOf (y := main_v25) (by decide)⟩

theorem hostOps1_2_wr : (hostOps1_2 : List (HloOp τ sig (Elt F))).Forall fun op => op.writes ⊆ bufsOf wr1_2 :=
  single_sub_bufsOf (y := main_cst_5) (by decide)

theorem hostOps1_3_wr : (hostOps1_3 : List (HloOp τ sig (Elt F))).Forall fun op => op.writes ⊆ bufsOf wr1_3 :=
  ⟨single_sub_bufsOf (y := main_call1_v0) (by decide), single_sub_bufsOf (y := main_call1_v1) (by decide),
   single_sub_bufsOf (y := main_v26) (by decide)⟩

theorem hostOps1_4_wr : (hostOps1_4 : List (HloOp τ sig (Elt F))).Forall fun op => op.writes ⊆ bufsOf wr1_4 :=
  ⟨single_sub_bufsOf (y := main_cst_6) (by decide), single_sub_bufsOf (y := main_v27) (by decide),
   single_sub_bufsOf (y := main_v28) (by decide), single_sub_bufsOf (y := main_v29) (by decide),
   single_sub_bufsOf (y := main_c) (by decide), single_sub_bufsOf (y := main_v30) (by decide),
   single_sub_bufsOf (y := main_v31) (by decide), single_sub_bufsOf (y := main_cst_7) (by decide),
   single_sub_bufsOf (y := main_v32) (by decide), single_sub_bufsOf (y := main_cst_8) (by decide),
   single_sub_bufsOf (y := main_v33) (by decide), single_sub_bufsOf (y := main_cst_9) (by decide),
   single_sub_bufsOf (y := main_v34) (by decide), single_sub_bufsOf (y := main_v35) (by decide),
   single_sub_bufsOf (y := main_cst_10) (by decide)⟩

theorem hostOps1_5_wr : (hostOps1_5 : List (HloOp τ sig (Elt F))).Forall fun op => op.writes ⊆ bufsOf wr1_5 :=
  ⟨single_sub_bufsOf (y := main_call2_v0) (by decide), single_sub_bufsOf (y := main_v36) (by decide)⟩

/-! ## What each item leaves alone -/

/-- The region rewrites its two result arrays and nothing else. -/
theorem W2_keeps (c : Dev nD) (r : Ref sig .tc) (h0 : r ≠ main_v14_0) (h1 : r ≠ main_v14_1) : W2 m c r = W1 m c r :=
  (Function.update_of_ne (StableHlo.devRef_ne_of_ne h1) _ _).trans
    (Function.update_of_ne (StableHlo.devRef_ne_of_ne h0) _ _)

/-! ## The arguments at the end -/

/-- The embeddings are at the end what the launch memory held. -/
theorem W8_main_arg0 (c : Dev nD) : W8 m c main_arg0 = m ((c : Thread nD τ).loc main_arg0) :=
  calc W8 m c main_arg0
      = W7 m c main_arg0 := StableHlo.after_of_writes_sub hostOps1_5 _ hostOps1_5_wr (r := main_arg0) (by decide)
    _ = W6 m c main_arg0 := StableHlo.after_of_writes_sub hostOps1_4 _ hostOps1_4_wr (r := main_arg0) (by decide)
    _ = W5 m c main_arg0 := StableHlo.after_of_writes_sub hostOps1_3 _ hostOps1_3_wr (r := main_arg0) (by decide)
    _ = W4 m c main_arg0 := StableHlo.after_of_writes_sub hostOps1_2 _ hostOps1_2_wr (r := main_arg0) (by decide)
    _ = W3 m c main_arg0 := StableHlo.after_of_writes_sub hostOps1_1 _ hostOps1_1_wr (r := main_arg0) (by decide)
    _ = W2 m c main_arg0 := StableHlo.after_of_writes_sub hostOps1 _ hostOps1_wr (r := main_arg0) (by decide)
    _ = W1 m c main_arg0 := W2_keeps m c main_arg0 (by decide) (by decide)
    _ = W0 m c main_arg0 := StableHlo.after_of_writes_sub hostOps0 _ hostOps0_wr (r := main_arg0) (by decide)
    _ = m ((c : Thread nD τ).loc main_arg0) := rfl

/-- The labels are at the end what the launch memory held. -/
theorem W8_main_arg1 (c : Dev nD) : W8 m c main_arg1 = m ((c : Thread nD τ).loc main_arg1) :=
  calc W8 m c main_arg1
      = W7 m c main_arg1 := StableHlo.after_of_writes_sub hostOps1_5 _ hostOps1_5_wr (r := main_arg1) (by decide)
    _ = W6 m c main_arg1 := StableHlo.after_of_writes_sub hostOps1_4 _ hostOps1_4_wr (r := main_arg1) (by decide)
    _ = W5 m c main_arg1 := StableHlo.after_of_writes_sub hostOps1_3 _ hostOps1_3_wr (r := main_arg1) (by decide)
    _ = W4 m c main_arg1 := StableHlo.after_of_writes_sub hostOps1_2 _ hostOps1_2_wr (r := main_arg1) (by decide)
    _ = W3 m c main_arg1 := StableHlo.after_of_writes_sub hostOps1_1 _ hostOps1_1_wr (r := main_arg1) (by decide)
    _ = W2 m c main_arg1 := StableHlo.after_of_writes_sub hostOps1 _ hostOps1_wr (r := main_arg1) (by decide)
    _ = W1 m c main_arg1 := W2_keeps m c main_arg1 (by decide) (by decide)
    _ = W0 m c main_arg1 := StableHlo.after_of_writes_sub hostOps0 _ hostOps0_wr (r := main_arg1) (by decide)
    _ = m ((c : Thread nD τ).loc main_arg1) := rfl

end Cert.KernelIdeal.Hand

end
-- ==== Proof.KI.TailDef.lean ====
/-
  What both programs compute once each anchor's two mined distances are known: which anchors count, each
  counted anchor's hinge term, how many terms are positive, and the mean of the terms over that count.
  Stated once, over any float instance, as a function of the two distance vectors and the mask of counted
  anchors, so that the two programs' last stretches are compared by comparing those three arguments only.
-/
import proofs.«159311_j57509612094151_1_alg».proof.KernelIdeal

noncomputable section

namespace Cert.KernelIdeal.Hand

open Cert.KernelIdeal
open Idealize.ShloMosaic

variable {F : FTy → Type} [FloatOps F]

/-! ## The shape relations the operations below ask for -/

/-- An 8192 x 1 column has the elements of a vector of 8192. -/
theorem colCasts : S8192x1.ShapeCasts S8192 := by decide
/-- A scalar spreads over a vector of 8192 (no axis of the scalar to place). -/
theorem scalarSpreads : S_.BroadcastsInDim S8192 (![] : Fin 0 → Fin S8192.rank) := by decide
/-- Folding a vector of 8192 along its one axis leaves a scalar. -/
theorem vecFolds : S8192.ReducesTo [0] S_ := by decide
/-- A scalar has an element. -/
theorem scalarInhabited : 0 < S_.numel := by decide
/-- A one-bit flag widens to 32 bits. -/
theorem flagWidens : 1 < 32 := by decide

/-! ## The definitions -/

/-- A column of 8192 rows read as a vector: entry r is row r (row-major order of a single column). -/
def col (a : Vec F S8192x1 .f32) : Vec F S8192 .f32 :=
  shapeCast S8192 a colCasts

/-- The anchors that count: those whose hardest positive distance is above the low sentinel (so some
    positive exists) and whose hardest negative distance is below the high sentinel (so some negative exists). -/
def validK (dap dan : Vec F S8192 .f32) : IVec S8192 1 :=
  andi
    (cmpf (F := F) .ogt dap (broadcastInDim S8192 ![] scalarSpreads (constant (F := F) S_ .f32 0xEFA18F08#32)))
    (cmpf (F := F) .olt dan (broadcastInDim S8192 ![] scalarSpreads (constant (F := F) S_ .f32 0x6FA18F08#32)))

/-- Each anchor's term: max(dap - dan + margin, 0) where the anchor counts, 0 where it does not. -/
def perAnchor (dap dan : Vec F S8192 .f32) (valid : IVec S8192 1) : Vec F S8192 .f32 :=
  select valid
    (maximumf
      (addf (subf dap dan) (broadcastInDim S8192 ![] scalarSpreads (constant (F := F) S_ .f32 0x3D4CCCCD#32)))
      (broadcastInDim S8192 ![] scalarSpreads (constant (F := F) S_ .f32 0x00000000#32)))
    (broadcastInDim S8192 ![] scalarSpreads (constant (F := F) S_ .f32 0x00000000#32))

/-- How many terms are strictly positive, as a float. -/
def posCount (per : Vec F S8192 .f32) : Vec F S_ .f32 :=
  sitofp (F := F) .f32
    (Host.reduce IntOp.addi
      (extui 32 (cmpf (F := F) .ogt per (broadcastInDim S8192 ![] scalarSpreads (constant (F := F) S_ .f32 0x00000000#32))) flagWidens)
      (constantI S_ 32 0#32) vecFolds scalarInhabited)

/-- The mean of the terms over the number of positive ones (at least one), and 0 when none is positive. -/
def meanOver (per : Vec F S8192 .f32) (cnt : Vec F S_ .f32) : Vec F S_ .f32 :=
  select (cmpf (F := F) .ogt cnt (constant (F := F) S_ .f32 0x00000000#32))
    (Host.divf
      (Host.reduceAdd per (constant (F := F) S_ .f32 0x00000000#32) vecFolds scalarInhabited)
      (maximumf cnt (constant (F := F) S_ .f32 0x3F800000#32)))
    (constant (F := F) S_ .f32 0x00000000#32)

/-- Everything computed from the two distance vectors and the mask of counted anchors. -/
def loss (dap dan : Vec F S8192 .f32) (valid : IVec S8192 1) : Vec F S_ .f32 :=
  meanOver (perAnchor dap dan valid) (posCount (perAnchor dap dan valid))

end Cert.KernelIdeal.Hand

end
-- ==== Proof.KI.Tail.lean ====
/-
  The last stretches of the idealized kernel's @main, followed value by value: from the two result arrays
  the region leaves (each anchor's hardest positive and hardest negative distance, as columns) the program
  reads the columns as vectors, marks the anchors that have both a positive and a negative, forms each marked
  anchor's hinge term, counts the positive terms and divides the terms' sum by that count. The outcome is the
  function `loss` of the two vectors and the mask, which is the form the reference's last stretch has too.

  Each stretch is first followed from arbitrary contents of the buffers, then the six are chained.
-/
import proofs.«159311_j57509612094151_1_alg».proof.Proof.KI.After
import proofs.«159311_j57509612094151_1_alg».proof.Proof.KI.TailDef
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

variable {F : FTy → Type} [FloatOps F] [Named F]

/-! ## One stretch at a time, from any contents -/

section Stretches

variable (V : Valuation τ sig (Elt F))

/-- First stretch: the mask of counted anchors, from the two columns read as vectors. -/
theorem after1_valid :
    (StableHlo.after hostOps1 V main_v21 : IVec S8192 1)
      = validK (col (V main_v14_0 : Vec F S8192x1 .f32)) (col (V main_v14_1 : Vec F S8192x1 .f32)) := by
  dsimp only [hostOps1]
  after_results <;> rfl

/-- First stretch: the difference of the two distances plus the margin. -/
theorem after1_gap :
    (StableHlo.after hostOps1 V main_v24 : Vec F S8192 .f32)
      = addf (subf (col (V main_v14_0 : Vec F S8192x1 .f32)) (col (V main_v14_1 : Vec F S8192x1 .f32)))
          (broadcastInDim S8192 ![] scalarSpreads (constant (F := F) S_ .f32 0x3D4CCCCD#32)) := by
  dsimp only [hostOps1]
  after_results <;> rfl

/-- Second stretch: the gap clamped below at 0; the mask is not touched. -/
theorem after2_hinge :
    (StableHlo.after hostOps1_1 V main_v25 : Vec F S8192 .f32)
      = maximumf (V main_v24 : Vec F S8192 .f32)
          (broadcastInDim S8192 ![] scalarSpreads (constant (F := F) S_ .f32 0x00000000#32)) := by
  dsimp only [hostOps1_1]
  after_results <;> rfl

theorem after2_valid : StableHlo.after hostOps1_1 V main_v21 = V main_v21 := by
  dsimp only [hostOps1_1]
  after_results <;> rfl

/-- Third stretch: a zero scalar; the mask and the clamped gap are not touched. -/
theorem after3_zero :
    (StableHlo.after hostOps1_2 V main_cst_5 : Vec F S_ .f32) = constant (F := F) S_ .f32 0x00000000#32 := by
  dsimp only [hostOps1_2]
  after_results <;> rfl

theorem after3_valid : StableHlo.after hostOps1_2 V main_v21 = V main_v21 := by
  dsimp only [hostOps1_2]
  after_results <;> rfl

theorem after3_hinge : StableHlo.after hostOps1_2 V main_v25 = V main_v25 := by
  dsimp only [hostOps1_2]
  after_results <;> rfl

/-- Fourth stretch: the clamped gap where the anchor counts, the scalar spread out where it does not. -/
theorem after4_per :
    (StableHlo.after hostOps1_3 V main_v26 : Vec F S8192 .f32)
      = select (V main_v21 : IVec S8192 1) (V main_v25 : Vec F S8192 .f32)
          (broadcastInDim S8192 ![] scalarSpreads (V main_cst_5 : Vec F S_ .f32)) := by
  dsimp only [hostOps1_3]
  after_results <;> rfl

/-- Fifth stretch: whether any term is positive, the terms' sum over the count of positive terms, and a zero. -/
theorem after5_any :
    (StableHlo.after hostOps1_4 V main_v32 : IVec S_ 1)
      = cmpf (F := F) .ogt (posCount (V main_v26 : Vec F S8192 .f32)) (constant (F := F) S_ .f32 0x00000000#32) := by
  dsimp only [hostOps1_4]
  after_results <;> rfl

theorem after5_mean :
    (StableHlo.after hostOps1_4 V main_v35 : Vec F S_ .f32)
      = Host.divf
          (Host.reduceAdd (V main_v26 : Vec F S8192 .f32) (constant (F := F) S_ .f32 0x00000000#32) vecFolds scalarInhabited)
          (maximumf (posCount (V main_v26 : Vec F S8192 .f32)) (constant (F := F) S_ .f32 0x3F800000#32)) := by
  dsimp only [hostOps1_4]
  after_results <;> rfl

theorem after5_zero :
    (StableHlo.after hostOps1_4 V main_cst_10 : Vec F S_ .f32) = constant (F := F) S_ .f32 0x00000000#32 := by
  dsimp only [hostOps1_4]
  after_results <;> rfl

/-- Sixth stretch: the mean where some term is positive, the zero otherwise. -/
theorem after6_out :
    (StableHlo.after hostOps1_5 V main_v36 : Vec F S_ .f32)
      = select (V main_v32 : IVec S_ 1) (V main_v35 : Vec F S_ .f32) (V main_cst_10 : Vec F S_ .f32) := by
  dsimp only [hostOps1_5]
  after_results <;> rfl

end Stretches

/-! ## The six stretches chained -/

variable (m : (ℓ : Loc nD τ sig) → Buf (Elt F) ℓ)

/-- The kernel's result: the loss of the two mined distance vectors, over the anchors the kernel counts. -/
theorem W8_out (c : Dev nD) :
    (W8 m c main_v36 : Vec F S_ .f32)
      = loss (col (dapArr m c)) (col (danArr m c)) (validK (col (dapArr m c)) (col (danArr m c))) := by
  -- what the region left in the two result arrays
  have hd : (W2 m c main_v14_0 : Vec F S8192x1 .f32) = dapArr m c :=
    (Function.update_of_ne (StableHlo.devRef_ne_of_ne (by decide)) _ _).trans (Function.update_self _ _ _)
  have hn : (W2 m c main_v14_1 : Vec F S8192x1 .f32) = danArr m c := Function.update_self _ _ _
  -- the mask and the gap after the first stretch
  have hvalid3 : (W3 m c main_v21 : IVec S8192 1) = validK (col (dapArr m c)) (col (danArr m c)) :=
    (after1_valid (W2 m c)).trans (by rw [hd, hn])
  have hgap3 : (W3 m c main_v24 : Vec F S8192 .f32)
      = addf (subf (col (dapArr m c)) (col (danArr m c)))
          (broadcastInDim S8192 ![] scalarSpreads (constant (F := F) S_ .f32 0x3D4CCCCD#32)) :=
    (after1_gap (W2 m c)).trans (by rw [hd, hn])
  -- the mask carried along, the gap clamped
  have hvalid4 : (W4 m c main_v21 : IVec S8192 1) = validK (col (dapArr m c)) (col (danArr m c)) :=
    (after2_valid (W3 m c)).trans hvalid3
  have hhinge4 : (W4 m c main_v25 : Vec F S8192 .f32)
      = maximumf (addf (subf (col (dapArr m c)) (col (danArr m c)))
            (broadcastInDim S8192 ![] scalarSpreads (constant (F := F) S_ .f32 0x3D4CCCCD#32)))
          (broadcastInDim S8192 ![] scalarSpreads (constant (F := F) S_ .f32 0x00000000#32)) :=
    (after2_hinge (W3 m c)).trans (by rw [hgap3])
  have hvalid5 : (W5 m c main_v21 : IVec S8192 1) = validK (col (dapArr m c)) (col (danArr m c)) :=
    (after3_valid (W4 m c)).trans hvalid4
  have hhinge5 : (W5 m c main_v25 : Vec F S8192 .f32)
      = maximumf (addf (subf (col (dapArr m c)) (col (danArr m c)))
            (broadcastInDim S8192 ![] scalarSpreads (constant (F := F) S_ .f32 0x3D4CCCCD#32)))
          (broadcastInDim S8192 ![] scalarSpreads (constant (F := F) S_ .f32 0x00000000#32)) :=
    (after3_hinge (W4 m c)).trans hhinge4
  have hzero5 : (W5 m c main_cst_5 : Vec F S_ .f32) = constant (F := F) S_ .f32 0x00000000#32 :=
    after3_zero (W4 m c)
  -- each anchor's term
  have hper6 : (W6 m c main_v26 : Vec F S8192 .f32)
      = perAnchor (col (dapArr m c)) (col (danArr m c)) (validK (col (dapArr m c)) (col (danArr m c))) :=
    (after4_per (W5 m c)).trans (by rw [hvalid5, hhinge5, hzero5]; rfl)
  -- the count, the mean, the final choice
  have hany7 : (W7 m c main_v32 : IVec S_ 1)
      = cmpf (F := F) .ogt
          (posCount (perAnchor (col (dapArr m c)) (col (danArr m c)) (validK (col (dapArr m c)) (col (danArr m c)))))
          (constant (F := F) S_ .f32 0x00000000#32) :=
    (after5_any (W6 m c)).trans (by rw [hper6])
  have hmean7 : (W7 m c main_v35 : Vec F S_ .f32)
      = Host.divf
          (Host.reduceAdd (perAnchor (col (dapArr m c)) (col (danArr m c)) (validK (col (dapArr m c)) (col (danArr m c))))
            (constant (F := F) S_ .f32 0x00000000#32) vecFolds scalarInhabited)
          (maximumf
            (posCount (perAnchor (col (dapArr m c)) (col (danArr m c)) (validK (col (dapArr m c)) (col (danArr m c)))))
            (constant (F := F) S_ .f32 0x3F800000#32)) :=
    (after5_mean (W6 m c)).trans (by rw [hper6])
  have hzero7 : (W7 m c main_cst_10 : Vec F S_ .f32) = constant (F := F) S_ .f32 0x00000000#32 :=
    after5_zero (W6 m c)
  exact (after6_out (W7 m c)).trans (by rw [hany7, hmean7, hzero7]; rfl)

/-! ## The column read at a row, at the exact instance -/

/-- Entry r of the vector is row r of the column: both sit at row-major position r. -/
theorem col_read (a : Vec Ideal S8192x1 .f32) (r : Fin 8192) :
    col a (ValueIdx.ix1 r) = a (ValueIdx.ix2 r (0 : Fin 1)) := by
  unfold col
  refine shapeCast_apply a colCasts (ValueIdx.ix1 r) (ValueIdx.ix2 r (0 : Fin 1)) ?_
  rw [Shape.rowMajor_val_two, Shape.rowMajor_val_one]
  show r.val * 1 + 0 = r.val
  omega

end Cert.KernelIdeal.Hand

end
-- ==== Proof.KI.Tile.lean ====
/-
  The body's arithmetic read at one element, over the extended reals. Each named value of the kernel body is a
  pure function of the blocks it loads; here each is read at a row p of the 512 anchors and a column q of the
  1024 candidates of a tile.
-/
import proofs.«159311_j57509612094151_1_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.Affine

noncomputable section

open scoped BigOperators

namespace Cert.KernelIdeal.Hand

open Cert.KernelIdeal Cert.KernelIdeal.Gen
open Idealize.ShloMosaic Idealize.ShloMosaic.TcCoe Idealize.ShloMosaic.ValueIdx

/-- The reset value of the running maximum is the lattice's bottom. -/
theorem pay4_apply (p : Fin 512) : k0_pay4 (F := Ideal) (ix2 p (0 : Fin 1)) = (⊥ : EReal) := by
  unfold k0_pay4
  show Named.named (F := Ideal) κ "neg_big" (φ := .f32) 0xF149F2CA#32 = ⊥
  exact IdealRules.named_const.ideal_named_scalar _ _ _ _ rfl

/-- The reset value of the running minimum is the lattice's top. -/
theorem pay5_apply (p : Fin 512) : k0_pay5 (F := Ideal) (ix2 p (0 : Fin 1)) = (⊤ : EReal) := by
  unfold k0_pay5
  show Named.named (F := Ideal) κ "pos_big" (φ := .f32) 0x7149F2CA#32 = ⊤
  exact IdealRules.named_const.ideal_named_scalar _ _ _ _ rfl

/-- The block product read at one entry: the sum over the 128 shared coordinates. -/
private theorem mm_apply (L : FVec Ideal S512x128 .bf16) (R : FVec Ideal S128x1024 .bf16) (p : Fin 512) (q : Fin 1024) :
    matmul dot_S512x128_S128x1024_S512x1024_1_0_0_1_n_n none L R (constant (F := Ideal) S512x1024 .f32 0x00000000#32) (ix2 p q)
      = ∑ k : Fin 128, L (ix2 p k) * R (ix2 k q) := by
  show FloatOps.matmul _ none L R _ (ix2 p q) = _
  rw [Ideal.matmul_constant_zero_apply,
    ← Equiv.sum_comp (contrEquiv1 dot_S512x128_S128x1024_S512x1024_1_0_0_1_n_n 128 rfl rfl).symm]
  refine Finset.sum_congr rfl fun c _ => ?_
  have c2 := contrEquiv1_symm_val dot_S512x128_S128x1024_S512x1024_1_0_0_1_n_n 128 rfl rfl c
  have l2 : dot_S512x128_S128x1024_S512x1024_1_0_0_1_n_n.lhsIdx (ix2 p q) ((contrEquiv1 _ 128 rfl rfl).symm c) = ix2 p c := by
    funext ax; apply Fin.ext
    match ax with
    | ⟨0, _⟩ => simp [DotDims.lhsIdx, dot_S512x128_S128x1024_S512x1024_1_0_0_1_n_n]; rfl
    | ⟨1, _⟩ => simp [DotDims.lhsIdx, dot_S512x128_S128x1024_S512x1024_1_0_0_1_n_n]; exact c2
  have r2 : dot_S512x128_S128x1024_S512x1024_1_0_0_1_n_n.rhsIdx (ix2 p q) ((contrEquiv1 _ 128 rfl rfl).symm c) = ix2 c q := by
    funext ax; apply Fin.ext
    match ax with
    | ⟨0, _⟩ => simp [DotDims.rhsIdx, dot_S512x128_S128x1024_S512x1024_1_0_0_1_n_n]; exact c2
    | ⟨1, _⟩ => simp [DotDims.rhsIdx, dot_S512x128_S128x1024_S512x1024_1_0_0_1_n_n]; rfl
  rw [l2, r2]

/-- An entry of the tile: the distance between anchor row p and candidate row q, from the two rows, the
    anchor's squared norm and the candidate's. -/
theorem pay6_apply (x : FVec Ideal S512x128 .f32) (y : FVec Ideal S1024x128 .f32) (a : FVec Ideal S512x1 .f32)
    (b : FVec Ideal S1x1024 .f32) (p : Fin 512) (q : Fin 1024) :
    k0_pay6 (F := Ideal) x y a b (ix2 p q)
      = Ideal.sqrt (max (a (ix2 p (0 : Fin 1)) + b (ix2 (0 : Fin 1) q)
          - Ideal.ofBits .f32 0x40000000#32 * ∑ k : Fin 128, x (ix2 p k) * y (ix2 q k)) (Ideal.ofBits .f32 0x00000000#32)) := by
  unfold k0_pay6
  have ha : broadcastTo S512x1024 (shapeCast S512x1 a shapeCasts_S512x1_S512x1) broadcasts_S512x1_S512x1024 (ix2 p q)
      = a (ix2 p (0 : Fin 1)) := by
    rw [shapeCast_self]
    refine broadcastTo_apply _ _ (ix2 p q) (ix2 p (0 : Fin 1)) fun ax => ?_
    match ax with
    | ⟨0, _⟩ => rfl
    | ⟨1, _⟩ => rfl
  have hb : broadcastTo S512x1024 (shapeCast S1x1024 b shapeCasts_S1x1024_S1x1024) broadcasts_S1x1024_S512x1024 (ix2 p q)
      = b (ix2 (0 : Fin 1) q) := by
    rw [shapeCast_self]
    exact broadcastTo_1b_ab_apply _ _ p q
  have hm := mm_apply (truncf .bf16 (shapeCast S512x128 x shapeCasts_S512x128_S512x128) bitsLt_bf16_f32)
    (transpose S128x1024 [1, 0] (truncf .bf16 (shapeCast S1024x128 y shapeCasts_S1024x128_S1024x128) bitsLt_bf16_f32)
      transposes_S1024x128_p1_0_S128x1024) p q
  have hs : ∀ k : Fin 128,
      (truncf .bf16 (shapeCast S512x128 x shapeCasts_S512x128_S512x128) bitsLt_bf16_f32 : FVec Ideal S512x128 .bf16) (ix2 p k)
        * (transpose S128x1024 [1, 0] (truncf .bf16 (shapeCast S1024x128 y shapeCasts_S1024x128_S1024x128) bitsLt_bf16_f32 : FVec Ideal S1024x128 .bf16)
            transposes_S1024x128_p1_0_S128x1024) (ix2 k q)
        = x (ix2 p k) * y (ix2 q k) := by
    intro k
    rw [transpose_ix2_apply, truncf_apply, truncf_apply, shapeCast_self, shapeCast_self]
  rw [Finset.sum_congr rfl fun k _ => hs k] at hm
  show Ideal.sqrt (max (_ + _ - Ideal.ofBits .f32 0x40000000#32 * _) (Ideal.ofBits .f32 0x00000000#32)) = _
  rw [ha, hb, hm]

/-- The tile's diagonal mask at point (i, j): set exactly where the anchor's global row is the candidate's. -/
theorem pay7_apply (i : grid0.Coords) (p : Fin 512) (q : Fin 1024) :
    k0_pay7 i (ix2 p q) = 1#1 ↔ (i 0).val * 512 + p.val = (i 1).val * 1024 + q.val := by
  have h0 : (i 0).val < 16 := (i 0).isLt
  have h1 : (i 1).val < 8 := (i 1).isLt
  have hp := p.isLt
  have hq := q.isLt
  unfold k0_pay7
  simp only [cmpi]
  rw [IntOp.cmpi_eq]
  have hl : broadcastTo S512x1024 (addi (broadcast S512x1 (Scalar.muli (BitVec.ofNat 32 (i 0).val) 512#32)) (iota .tc S512x1 32 [0] iota_S512x1_d0_w32)) broadcasts_S512x1_S512x1024 (ix2 p q)
      = BitVec.ofNat 32 ((i 0).val * 512 + p.val) := by
    refine (broadcastTo_apply _ _ (ix2 p q) (ix2 p (0 : Fin 1)) fun ax => ?_).trans ?_
    · match ax with
      | ⟨0, _⟩ => rfl
      | ⟨1, _⟩ => rfl
    · show BitVec.ofNat 32 (i 0).val * 512#32 + iota .tc S512x1 32 [0] iota_S512x1_d0_w32 (ix2 p 0) = _
      rw [iota_single_apply]
      show BitVec.ofNat 32 (i 0).val * BitVec.ofNat 32 512 + BitVec.ofNat 32 p.val = _
      rw [← BitVec.ofNat_mul, ← BitVec.ofNat_add]
  have hr : broadcastTo S512x1024 (addi (broadcast S1x1024 (Scalar.muli (BitVec.ofNat 32 (i 1).val) 1024#32)) (iota .tc S1x1024 32 [1] iota_S1x1024_d1_w32)) broadcasts_S1x1024_S512x1024 (ix2 p q)
      = BitVec.ofNat 32 ((i 1).val * 1024 + q.val) := by
    refine (broadcastTo_1b_ab_apply _ _ p q).trans ?_
    show BitVec.ofNat 32 (i 1).val * 1024#32 + iota .tc S1x1024 32 [1] iota_S1x1024_d1_w32 (ix2 0 q) = _
    rw [iota_single_apply]
    show BitVec.ofNat 32 (i 1).val * BitVec.ofNat 32 1024 + BitVec.ofNat 32 q.val = _
    rw [← BitVec.ofNat_mul, ← BitVec.ofNat_add]
  rw [hl, hr]
  constructor
  · intro h
    have := congrArg BitVec.toNat h
    rw [BitVec.toNat_ofNat, BitVec.toNat_ofNat] at this
    omega
  · intro h
    rw [h]

/-- The anchors' labels pass through unchanged. -/
theorem pay8_apply (v : Vec Ideal S512x1 .i32) (p : Fin 512) : k0_pay8 (F := Ideal) v (ix2 p (0 : Fin 1)) = v (ix2 p (0 : Fin 1)) := by
  unfold k0_pay8
  exact congrFun (shapeCast_self v _) _

/-- Folding the larger-of-two from the bottom over a finite family is its supremum. -/
private theorem fold_max_bot_eq_sup {ι : Type} (s : Finset ι) (f : ι → EReal) : s.fold max ⊥ f = s.sup f := by
  apply le_antisymm
  · exact (Finset.fold_max_le _).2 ⟨bot_le, fun x hx => Finset.le_sup hx⟩
  · exact Finset.sup_le fun x hx => (Finset.le_fold_max _).2 (Or.inr ⟨x, hx, le_rfl⟩)

/-- Folding the smaller-of-two from the top over a finite family is its infimum. -/
private theorem fold_min_top_eq_inf {ι : Type} (s : Finset ι) (f : ι → EReal) : s.fold min ⊤ f = s.inf f := by
  apply le_antisymm
  · exact Finset.le_inf fun x hx => (Finset.fold_min_le _).2 (Or.inr ⟨x, hx, le_rfl⟩)
  · exact (Finset.le_fold_min _).2 ⟨le_top, fun x hx => Finset.inf_le hx⟩

/-- The entry of row p of the tile with lane coordinate k inserted is the entry (p, k). -/
private theorem lift_row (p : Fin 512) (k : Fin 1024) :
    reduces_S512x1024_S512.lift (ix1 p) k = ix2 p k := by
  funext c; apply Fin.ext
  match c with
  | ⟨0, _⟩ => rfl
  | ⟨1, _⟩ => rfl

/-- A lane reduction by the smaller-of-two over one axis is the fold of min over that axis's coordinates. -/
private theorem minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row maximum of a tile, from the word of minus infinity: the supremum of the row. -/
private theorem rowmax_apply (src : FVec Ideal S512x1024 .f32) (p : Fin 512) :
    multiReduction .maximumf [1] S512 src 0xFF800000#32 reduces_S512x1024_S512 (.inl rfl) rfl (ix1 p)
      = Finset.univ.sup fun q : Fin 1024 => (src (ix2 p q) : EReal) := by
  refine (Ideal.multiReduction_maximumf_single src _ reduces_S512x1024_S512 _ _ (ix1 p)).trans ?_
  have h0 : Ideal.ofBits .f32 0xFF800000#32 = (⊥ : EReal) := by simp [Ideal.ofBits, Ideal.ieee]
  show (Finset.univ : Finset (Fin 1024)).fold max (Ideal.ofBits .f32 0xFF800000#32)
    (fun q : Fin 1024 => src (reduces_S512x1024_S512.lift (ix1 p) q)) = _
  rw [h0, fold_max_bot_eq_sup]
  exact Finset.sup_congr rfl fun q _ => congrArg src (lift_row p q)

/-- The row minimum of a tile, from the word of plus infinity: the infimum of the row. -/
private theorem rowmin_apply (src : FVec Ideal S512x1024 .f32) (p : Fin 512) :
    multiReduction .minimumf [1] S512 src 0x7F800000#32 reduces_S512x1024_S512 (.inl rfl) rfl (ix1 p)
      = Finset.univ.inf fun q : Fin 1024 => (src (ix2 p q) : EReal) := by
  refine (minimumf_single src _ reduces_S512x1024_S512 _ _ (ix1 p)).trans ?_
  have h0 : Ideal.ofBits .f32 0x7F800000#32 = (⊤ : EReal) := by simp [Ideal.ofBits, Ideal.ieee]
  show (Finset.univ : Finset (Fin 1024)).fold min (Ideal.ofBits .f32 0x7F800000#32)
    (fun q : Fin 1024 => src (reduces_S512x1024_S512.lift (ix1 p) q)) = _
  rw [h0, fold_min_top_eq_inf]
  exact Finset.inf_congr rfl fun q _ => congrArg src (lift_row p q)

/-- A vector of 512 entries viewed as a column reads, at row p, its entry p. -/
private theorem col_apply {α : Type} (v : S512.Idx → α) (p : Fin 512) :
    shapeCast S512x1 v shapeCasts_S512_S512x1 (ix2 p (0 : Fin 1)) = v (ix1 p) :=
  shapeCast_apply v _ _ _ (by
    rw [Shape.rowMajor_val_two, Shape.rowMajor_val_one]
    show p.val = p.val * 1 + 0
    omega)

/-- The label comparison of the tile at (p, q): set exactly where anchor p's label is candidate q's. -/
private theorem pay1_apply (lr : IVec S512x1 32) (lc : Vec Ideal S1x1024 .i32) (p : Fin 512) (q : Fin 1024) :
    k0_pay1 (F := Ideal) lr lc (ix2 p q) = 1#1 ↔ lr (ix2 p (0 : Fin 1)) = lc (ix2 (0 : Fin 1) q) := by
  unfold k0_pay1
  simp only [cmpi]
  rw [IntOp.cmpi_eq]
  have hl : broadcastTo S512x1024 lr broadcasts_S512x1_S512x1024 (ix2 p q) = lr (ix2 p (0 : Fin 1)) := by
    refine broadcastTo_apply _ _ (ix2 p q) (ix2 p (0 : Fin 1)) fun ax => ?_
    match ax with
    | ⟨0, _⟩ => rfl
    | ⟨1, _⟩ => rfl
  have hr : broadcastTo S512x1024 (shapeCast S1x1024 lc shapeCasts_S1x1024_S1x1024) broadcasts_S1x1024_S512x1024 (ix2 p q)
      = lc (ix2 (0 : Fin 1) q) := by
    rw [shapeCast_self]
    exact broadcastTo_1b_ab_apply _ _ p q
  rw [hl, hr]

/-- Flipping a one-bit word sets it exactly when it was clear. -/
private theorem xori_one_eq_one (c : BitVec 1) : IntOp.xori c 1#1 = 1#1 ↔ ¬ c = 1#1 := by
  revert c; decide

/-- The update of the running maximum at anchor p: the larger of what it held and the largest tile entry
    among the candidates that carry p's label and are not on the diagonal (bottom when there is none). -/
theorem pay2_apply (d : FVec Ideal S512x1024 .f32) (eye : IVec S512x1024 1) (lr : IVec S512x1 32)
    (lc : Vec Ideal S1x1024 .i32) (acc : Vec Ideal S512x1 .f32) (p : Fin 512) :
    k0_pay2 (F := Ideal) d eye lr lc acc (ix2 p (0 : Fin 1))
      = max (acc (ix2 p (0 : Fin 1)) : EReal)
          (Finset.univ.sup fun q : Fin 1024 =>
            if lr (ix2 p (0 : Fin 1)) = lc (ix2 (0 : Fin 1) q) ∧ ¬ eye (ix2 p q) = 1#1 then (d (ix2 p q) : EReal) else ⊥) := by
  unfold k0_pay2
  have hneg : Named.named (F := Ideal) κ "neg_big" (φ := .f32) 0xF149F2CA#32 = (⊥ : EReal) :=
    IdealRules.named_const.ideal_named_scalar _ _ _ _ rfl
  show max (shapeCast S512x1 acc shapeCasts_S512x1_S512x1 (ix2 p (0 : Fin 1)))
    (shapeCast S512x1 (multiReduction (F := Ideal) .maximumf [1] S512 _ 0xFF800000#32 reduces_S512x1024_S512 (.inl rfl) rfl) shapeCasts_S512_S512x1 (ix2 p (0 : Fin 1))) = _
  rw [shapeCast_self, col_apply, rowmax_apply]
  refine congrArg (max (acc (ix2 p (0 : Fin 1)) : EReal)) (Finset.sup_congr rfl fun q _ => ?_)
  rw [select_apply, broadcast_apply, hneg]
  show (if _ = 1 then _ else _) = _
  refine if_congr ?_ rfl rfl
  show IntOp.andi (k0_pay1 (F := Ideal) lr lc (ix2 p q)) (IntOp.xori (eye (ix2 p q)) 1#1) = 1#1 ↔ _
  rw [IntOp.andi_eq_one, pay1_apply, xori_one_eq_one]

/-- The update of the running minimum at anchor p: the smaller of what it held and the smallest tile entry
    among the candidates that carry another label (top when there is none). -/
theorem pay3_apply (d : FVec Ideal S512x1024 .f32) (lr : IVec S512x1 32)
    (lc : Vec Ideal S1x1024 .i32) (acc : Vec Ideal S512x1 .f32) (p : Fin 512) :
    k0_pay3 (F := Ideal) d lr lc acc (ix2 p (0 : Fin 1))
      = min (acc (ix2 p (0 : Fin 1)) : EReal)
          (Finset.univ.inf fun q : Fin 1024 =>
            if ¬ lr (ix2 p (0 : Fin 1)) = lc (ix2 (0 : Fin 1) q) then (d (ix2 p q) : EReal) else ⊤) := by
  unfold k0_pay3
  have hpos : Named.named (F := Ideal) κ "pos_big" (φ := .f32) 0x7149F2CA#32 = (⊤ : EReal) :=
    IdealRules.named_const.ideal_named_scalar _ _ _ _ rfl
  show min (shapeCast S512x1 acc shapeCasts_S512x1_S512x1 (ix2 p (0 : Fin 1)))
    (shapeCast S512x1 (multiReduction (F := Ideal) .minimumf [1] S512 _ 0x7F800000#32 reduces_S512x1024_S512 (.inl rfl) rfl) shapeCasts_S512_S512x1 (ix2 p (0 : Fin 1))) = _
  rw [shapeCast_self, col_apply, rowmin_apply]
  refine congrArg (min (acc (ix2 p (0 : Fin 1)) : EReal)) (Finset.inf_congr rfl fun q _ => ?_)
  rw [select_apply, broadcast_apply, hpos]
  show (if _ = 1 then _ else _) = _
  refine if_congr ?_ rfl rfl
  show IntOp.xori (k0_pay1 (F := Ideal) lr lc (ix2 p q)) 1#1 = 1#1 ↔ _
  rw [xori_one_eq_one, pay1_apply]

end Cert.KernelIdeal.Hand

end
-- ==== Proof.Spec.lean ====
/-
  The mathematics both programs compute, over the extended reals, with no program in sight.

  From embeddings e (8192 rows of 128 entries) and labels l (8192 words):
  * each row is divided by max(its Euclidean norm, a small positive constant): xn;
  * sq r is the squared norm of the normalised row r, dot r c the inner product of two normalised rows;
  * dist r c = sqrt(max(sq r + sq c - 2 dot r c, 0)) is the distance between normalised rows r and c;
  * c is a POSITIVE for the anchor r when it carries r's label and is not r itself, a NEGATIVE when it
    carries another label;
  * dap r is the largest distance from r to a positive (the lattice's bottom when r has none),
    dan r the smallest distance from r to a negative (the lattice's top when r has none).
  The sums are written as the host's reductions read at an index: the initial value plus the sum.
-/
import Idealize.ShloMosaic.PureOps.Ideal
import Idealize.ShloMosaic.Lib.ValueIdx

noncomputable section

open scoped BigOperators

namespace Cert.Spec

open Idealize.ShloMosaic Idealize.ShloMosaic.ValueIdx

/-- The embeddings: 8192 rows of 128 extended reals. -/
abbrev Emb : Type := (⟨2, ![8192, 128]⟩ : Shape).Idx → EReal
/-- The labels: 8192 words. -/
abbrev Lab : Type := (⟨1, ![8192]⟩ : Shape).Idx → BitVec 32

/-- The sum of the squares of row `r`. -/
def ss (e : Emb) (r : Fin 8192) : EReal :=
  Ideal.ofBits .f32 0x00000000#32 + ∑ k : Fin 128, e (ix2 r k) * e (ix2 r k)
/-- What row `r` is divided by: its norm, or the small constant when the norm is smaller. -/
def den (e : Emb) (r : Fin 8192) : EReal := max (Ideal.sqrt (ss e r)) (Ideal.ofBits .f32 0x2B8CBCCC#32)
/-- The normalised embeddings. -/
def xn (e : Emb) (r : Fin 8192) (k : Fin 128) : EReal := Ideal.div (e (ix2 r k)) (den e r)
/-- The squared norm of the normalised row `r`. -/
def sq (e : Emb) (r : Fin 8192) : EReal :=
  Ideal.ofBits .f32 0x00000000#32 + ∑ k : Fin 128, xn e r k * xn e r k
/-- The inner product of the normalised rows `r` and `c`. -/
def dot (e : Emb) (r c : Fin 8192) : EReal := ∑ k : Fin 128, xn e r k * xn e c k
/-- The squared distance before it is clamped at zero. -/
def d2 (e : Emb) (r c : Fin 8192) : EReal := sq e r + sq e c - Ideal.ofBits .f32 0x40000000#32 * dot e r c
/-- The distance between the normalised rows `r` and `c`. -/
def dist (e : Emb) (r c : Fin 8192) : EReal := Ideal.sqrt (max (d2 e r c) (Ideal.ofBits .f32 0x00000000#32))

/-- `c` carries the anchor's label. -/
def same (l : Lab) (r c : Fin 8192) : Prop := l (ix1 r) = l (ix1 c)
/-- `c` is a positive for the anchor `r`. -/
def pos (l : Lab) (r c : Fin 8192) : Prop := same l r c ∧ r ≠ c
/-- `c` is a negative for the anchor `r`. -/
def neg (l : Lab) (r c : Fin 8192) : Prop := ¬ same l r c

instance (l : Lab) (r c : Fin 8192) : Decidable (same l r c) := by unfold same; infer_instance
instance (l : Lab) (r c : Fin 8192) : Decidable (pos l r c) := by unfold pos; infer_instance
instance (l : Lab) (r c : Fin 8192) : Decidable (neg l r c) := by unfold neg; infer_instance

/-- The hardest positive's distance: the largest distance from `r` to a positive, bottom when there is none. -/
def dap (e : Emb) (l : Lab) (r : Fin 8192) : EReal :=
  Finset.univ.sup fun c : Fin 8192 => if pos l r c then dist e r c else ⊥
/-- The hardest negative's distance: the smallest distance from `r` to a negative, top when there is none. -/
def dan (e : Emb) (l : Lab) (r : Fin 8192) : EReal :=
  Finset.univ.inf fun c : Fin 8192 => if neg l r c then dist e r c else ⊤

/-- The anchor `r` has a positive; has a negative. -/
def hasPos (l : Lab) (r : Fin 8192) : Prop := ∃ c, pos l r c
def hasNeg (l : Lab) (r : Fin 8192) : Prop := ∃ c, neg l r c

/-- Every embedding entry is a real number. -/
def Finite (e : Emb) : Prop := ∀ i, ∃ x : ℝ, e i = (x : EReal)

end Cert.Spec

end
-- ==== Proof.KI.HostPre.lean ====
/-
  What the host prefix leaves in the arrays the kernel reads, at the exact instance, element by element: the
  normalised embeddings, their squared norms laid out as a column and as a row, and the labels laid out as a
  column and as a row.
-/
import proofs.«159311_j57509612094151_1_alg».proof.Proof.KI.Data
import proofs.«159311_j57509612094151_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The embeddings and the labels core `c` was launched with. -/
abbrev embOf (c : Dev nD) : Cert.Spec.Emb := m ((c : Thread nD τ).loc main_arg0)
abbrev labOf (c : Dev nD) : Cert.Spec.Lab := m ((c : Thread nD τ).loc main_arg1)

/-! ## The host prefix as functions of the embeddings

Four stages: the rows' sums of squares, the divisor of each row (a column), the normalised rows, and the
normalised rows' sums of squares. Each is read at an index, and the readings are the definitions of the
specification. -/

/-- Row sums of the squares. -/
def ssArr (x : FVec Ideal S8192x128 .f32) : FVec Ideal S8192 .f32 :=
  Host.reduceAdd (mulf x x) (constant (F := Ideal) S_ .f32 0x00000000#32) reducesTo_S8192x128_S8192_d1 h_S_

/-- The divisors: the larger of a row's norm and the small constant, as a column. -/
def denArr (x : FVec Ideal S8192x128 .f32) : FVec Ideal S8192x1 .f32 :=
  maximumf (Host.sqrt (broadcastInDim S8192x1 ![0] bcast_S8192_S8192x1_0 (ssArr x)))
    (broadcastInDim S8192x1 ![] bcast_S_S8192x1 (constant (F := Ideal) S_ .f32 0x2B8CBCCC#32))

/-- Every row divided by its divisor. -/
def xnArr (x : FVec Ideal S8192x128 .f32) : FVec Ideal S8192x128 .f32 :=
  Host.divf x (broadcastInDim S8192x128 ![0, 1] bcast_S8192x1_S8192x128_0_1 (denArr x))

/-- Row sums of the squares of the normalised rows. -/
def sqArr (x : FVec Ideal S8192x128 .f32) : FVec Ideal S8192 .f32 :=
  Host.reduceAdd (mulf (xnArr x) (xnArr x)) (constant (F := Ideal) S_ .f32 0x00000000#32) reducesTo_S8192x128_S8192_d1 h_S_

/-- A sum along the second axis of an 8192 x 128 array, at row `r`: the initial value plus the 128 entries of the row. -/
theorem rowSum_apply (y : FVec Ideal S8192x128 .f32) (r : Fin 8192) :
    Host.reduceAdd y (constant (F := Ideal) S_ .f32 0x00000000#32) reducesTo_S8192x128_S8192_d1 h_S_ (ix1 r)
      = Ideal.ofBits .f32 0x00000000#32 + ∑ k : Fin 128, y (ix2 r k) := by
  simp only [Host.reduceAdd, Ideal.hostReduceAdd_def]
  rw [Ideal.hostReduceAdd_single reducesTo_S8192x128_S8192_d1 (by decide)]
  refine congrArg₂ (· + ·) rfl (Finset.sum_congr rfl fun k _ => ?_)
  exact congrArg y (funext fun a => Fin.ext (by match a with | ⟨0, _⟩ => rfl | ⟨1, _⟩ => rfl))

theorem ssArr_apply (x : FVec Ideal S8192x128 .f32) (r : Fin 8192) :
    ssArr x (ix1 r) = Cert.Spec.ss x r := by
  unfold ssArr Cert.Spec.ss
  exact rowSum_apply (mulf x x) r

theorem denArr_apply (x : FVec Ideal S8192x128 .f32) (r : Fin 8192) :
    denArr x (ix2 r (0 : Fin 1)) = Cert.Spec.den x r := by
  have e1 : broadcastInDim S8192x1 ![0] bcast_S8192_S8192x1_0 (ssArr x) (ix2 r (0 : Fin 1)) = ssArr x (ix1 r) :=
    broadcastInDim_apply _ bcast_S8192_S8192x1_0 (ssArr x) _ (ix1 r) (fun a => match a with
      | ⟨0, _⟩ => by show r.val = if (8192 : Nat) = 1 then 0 else r.val; rw [if_neg (by decide)])
  have e2 : broadcastInDim S8192x1 ![] bcast_S_S8192x1 (constant (F := Ideal) S_ .f32 0x2B8CBCCC#32) (ix2 r (0 : Fin 1))
      = Ideal.ofBits .f32 0x2B8CBCCC#32 :=
    (broadcastInDim_apply _ bcast_S_S8192x1 (constant (F := Ideal) S_ .f32 0x2B8CBCCC#32) _ (fun a => a.elim0) (fun a => a.elim0)).trans rfl
  unfold denArr Cert.Spec.den
  show max (Ideal.sqrt (broadcastInDim S8192x1 ![0] bcast_S8192_S8192x1_0 (ssArr x) (ix2 r (0 : Fin 1))))
      (broadcastInDim S8192x1 ![] bcast_S_S8192x1 (constant (F := Ideal) S_ .f32 0x2B8CBCCC#32) (ix2 r (0 : Fin 1))) = _
  rw [e1, e2, ssArr_apply]

theorem xnArr_apply (x : FVec Ideal S8192x128 .f32) (r : Fin 8192) (k : Fin 128) :
    xnArr x (ix2 r k) = Cert.Spec.xn x r k := by
  have e : broadcastInDim S8192x128 ![0, 1] bcast_S8192x1_S8192x128_0_1 (denArr x) (ix2 r k) = denArr x (ix2 r (0 : Fin 1)) :=
    broadcastInDim_apply _ bcast_S8192x1_S8192x128_0_1 (denArr x) _ (ix2 r (0 : Fin 1)) (fun a => match a with
      | ⟨0, _⟩ => by show r.val = if (8192 : Nat) = 1 then 0 else r.val; rw [if_neg (by decide)]
      | ⟨1, _⟩ => by show 0 = if (1 : Nat) = 1 then 0 else k.val; rw [if_pos rfl])
  unfold xnArr Cert.Spec.xn
  show Ideal.div (x (ix2 r k)) (broadcastInDim S8192x128 ![0, 1] bcast_S8192x1_S8192x128_0_1 (denArr x) (ix2 r k)) = _
  rw [e, denArr_apply]

theorem sqArr_apply (x : FVec Ideal S8192x128 .f32) (r : Fin 8192) :
    sqArr x (ix1 r) = Cert.Spec.sq x r := by
  unfold sqArr Cert.Spec.sq
  refine (rowSum_apply (mulf (xnArr x) (xnArr x)) r).trans ?_
  refine congrArg₂ (· + ·) rfl (Finset.sum_congr rfl fun k _ => ?_)
  show xnArr x (ix2 r k) * xnArr x (ix2 r k) = _
  rw [xnArr_apply]

/-! ## A vector of 8192 entries laid out as a column and as a row -/

theorem col_apply {α : Type} (y : S8192.Idx → α) (r : Fin 8192) :
    shapeCast S8192x1 y shapeCasts_S8192_S8192x1 (ix2 r (0 : Fin 1)) = y (ix1 r) :=
  shapeCast_apply y _ _ _ (by
    rw [Shape.rowMajor_val_two, Shape.rowMajor_val_one]
    show r.val = r.val * 1 + 0
    omega)

theorem row_apply {α : Type} (y : S8192.Idx → α) (r : Fin 8192) :
    shapeCast S1x8192 y shapeCasts_S8192_S1x8192 (ix2 (0 : Fin 1) r) = y (ix1 r) :=
  shapeCast_apply y _ _ _ (by
    rw [Shape.rowMajor_val_two, Shape.rowMajor_val_one]
    show r.val = 0 * 8192 + r.val
    omega)

/-! ## The arrays the kernel reads -/

/-- The first two windows' array holds the normalised embeddings. -/
theorem V1_x (c : Dev nD) (r : Fin 8192) (k : Fin 128) :
    (V1 m c main_v7 : FVec Ideal S8192x128 .f32) (ix2 r k) = Cert.Spec.xn (embOf m c) r k := by
  have e : (V1 m c main_v7 : FVec Ideal S8192x128 .f32) = xnArr (embOf m c) := by
    dsimp only [V1, W1, Gen.hostOps0]; after_results; rfl
  rw [e]
  exact xnArr_apply _ r k

/-- The squared norms as a column. -/
theorem V1_sqrow (c : Dev nD) (r : Fin 8192) :
    (V1 m c main_v10 : FVec Ideal S8192x1 .f32) (ix2 r (0 : Fin 1)) = Cert.Spec.sq (embOf m c) r := by
  have e : (V1 m c main_v10 : FVec Ideal S8192x1 .f32)
      = shapeCast S8192x1 (sqArr (embOf m c)) shapeCasts_S8192_S8192x1 := by
    dsimp only [V1, W1, Gen.hostOps0]; after_results; rfl
  rw [e]
  exact (col_apply (sqArr (embOf m c)) r).trans (sqArr_apply _ r)

/-- The squared norms as a row. -/
theorem V1_sqcol (c : Dev nD) (r : Fin 8192) :
    (V1 m c main_v11 : FVec Ideal S1x8192 .f32) (ix2 (0 : Fin 1) r) = Cert.Spec.sq (embOf m c) r := by
  have e : (V1 m c main_v11 : FVec Ideal S1x8192 .f32)
      = shapeCast S1x8192 (sqArr (embOf m c)) shapeCasts_S8192_S1x8192 := by
    dsimp only [V1, W1, Gen.hostOps0]; after_results; rfl
  rw [e]
  exact (row_apply (sqArr (embOf m c)) r).trans (sqArr_apply _ r)

/-- The labels as a column. -/
theorem V1_labrow (c : Dev nD) (r : Fin 8192) :
    (V1 m c main_v12 : IVec S8192x1 32) (ix2 r (0 : Fin 1)) = labOf m c (ix1 r) := by
  have e : (V1 m c main_v12 : IVec S8192x1 32)
      = shapeCast S8192x1 (labOf m c) shapeCasts_S8192_S8192x1 := by
    dsimp only [V1, W1, Gen.hostOps0]; after_results; rfl
  rw [e]
  exact col_apply (labOf m c) r

/-- The labels as a row. -/
theorem V1_labcol (c : Dev nD) (r : Fin 8192) :
    (V1 m c main_v13 : IVec S1x8192 32) (ix2 (0 : Fin 1) r) = labOf m c (ix1 r) := by
  have e : (V1 m c main_v13 : IVec S1x8192 32)
      = shapeCast S1x8192 (labOf m c) shapeCasts_S8192_S1x8192 := by
    dsimp only [V1, W1, Gen.hostOps0]; after_results; rfl
  rw [e]
  exact row_apply (labOf m c) r

end Cert.KernelIdeal.Hand

end
-- ==== Proof.KI.Value.lean ====
/-
  The two result arrays when the region is left, element by element: row r of the first holds the largest
  distance from anchor r to a positive, row r of the second the smallest distance from r to a negative. Row r
  lies in row block r / 512; over the eight column blocks of that row block the accumulator runs through all
  8192 candidates, and the write-back after the eighth puts it in place.
-/
import proofs.«159311_j57509612094151_1_alg».proof.Proof.KI.Data
import proofs.«159311_j57509612094151_1_alg».proof.Proof.KI.Tile
import proofs.«159311_j57509612094151_1_alg».proof.Proof.KI.HostPre
import proofs.«159311_j57509612094151_1_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## Where a block sits in its array -/

/-- Point t of the grid is (t / 8, t % 8): row block first, column block fastest. -/
theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The block each window shows at point t: the windows over anchors (their rows, squared norms, labels, and
    the two results) show row block t / 8, the windows over candidates show column block t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

/-- The anchor that row p of the tile at point t stands for, and the candidate its column q stands for. -/
def arow (t : Fin cfg0.N) (p : Fin 512) : Fin 8192 :=
  ⟨512 * (t.val / 8) + p.val, by have := t.isLt; have hN : cfg0.N = 128 := N_0; have := p.isLt; omega⟩
def ccol (t : Fin cfg0.N) (q : Fin 1024) : Fin 8192 :=
  ⟨1024 * (t.val % 8) + q.val, by have := q.isLt; omega⟩

/-- Row p of the anchors' block at point t is the normalised row of the anchor it stands for; -/
theorem xrow_apply (c : Dev nD) (t : Fin cfg0.N) (p : Fin 512) (k : Fin 128) :
    (xrow m c t) (ix2 p k) = Cert.Spec.xn (embOf m c) (arow t p) k := by
  refine Eq.trans ?_ (V1_x m c (arow t p) k)
  obtain ⟨e0, e1, -⟩ := idx_facts t
  unfold xrow iblk
  rw [View.read_apply]
  show V1 m c main_v7 _ = V1 m c main_v7 _
  congr 1
  funext a
  apply Fin.ext
  match a with
  | ⟨0, _⟩ => show win0_0.index t 0 * 512 + 1 * p.val = 512 * (t.val / 8) + p.val; rw [e0]; omega
  | ⟨1, _⟩ => show win0_0.index t 1 * 128 + 1 * k.val = k.val; rw [e1]; omega

/-- row q of the candidates' block is the normalised row of the candidate it stands for. -/
theorem xcol_apply (c : Dev nD) (t : Fin cfg0.N) (q : Fin 1024) (k : Fin 128) :
    (xcol m c t) (ix2 q k) = Cert.Spec.xn (embOf m c) (ccol t q) k := by
  refine Eq.trans ?_ (V1_x m c (ccol t q) k)
  obtain ⟨-, -, e0, e1, -⟩ := idx_facts t
  unfold xcol iblk
  rw [View.read_apply]
  show V1 m c main_v7 _ = V1 m c main_v7 _
  congr 1
  funext a
  apply Fin.ext
  match a with
  | ⟨0, _⟩ => show win0_1.index t 0 * 1024 + 1 * q.val = 1024 * (t.val % 8) + q.val; rw [e0]; omega
  | ⟨1, _⟩ => show win0_1.index t 1 * 128 + 1 * k.val = k.val; rw [e1]; omega

/-- The anchors' squared norms, -/
theorem sqrow_apply (c : Dev nD) (t : Fin cfg0.N) (p : Fin 512) :
    (sqrow m c t) (ix2 p (0 : Fin 1)) = Cert.Spec.sq (embOf m c) (arow t p) := by
  refine Eq.trans ?_ (V1_sqrow m c (arow t p))
  obtain ⟨-, -, -, -, e0, e1, -⟩ := idx_facts t
  unfold sqrow iblk
  rw [View.read_apply]
  show V1 m c main_v10 _ = V1 m c main_v10 _
  congr 1
  funext a
  apply Fin.ext
  match a with
  | ⟨0, _⟩ => show win0_2.index t 0 * 512 + 1 * p.val = 512 * (t.val / 8) + p.val; rw [e0]; omega
  | ⟨1, _⟩ => show win0_2.index t 1 * 1 + 1 * 0 = 0; rw [e1]

/-- the candidates' squared norms, -/
theorem sqcol_apply (c : Dev nD) (t : Fin cfg0.N) (q : Fin 1024) :
    (sqcol m c t) (ix2 (0 : Fin 1) q) = Cert.Spec.sq (embOf m c) (ccol t q) := by
  refine Eq.trans ?_ (V1_sqcol m c (ccol t q))
  obtain ⟨-, -, -, -, -, -, e0, e1, -⟩ := idx_facts t
  unfold sqcol iblk
  rw [View.read_apply]
  show V1 m c main_v11 _ = V1 m c main_v11 _
  congr 1
  funext a
  apply Fin.ext
  match a with
  | ⟨0, _⟩ => show win0_3.index t 0 * 1 + 1 * 0 = 0; rw [e0]
  | ⟨1, _⟩ => show win0_3.index t 1 * 1024 + 1 * q.val = 1024 * (t.val % 8) + q.val; rw [e1]; omega

/-- the anchors' labels -/
theorem labrow_apply (c : Dev nD) (t : Fin cfg0.N) (p : Fin 512) :
    (labrow m c t) (ix2 p (0 : Fin 1)) = labOf m c (ix1 (arow t p)) := by
  refine Eq.trans ?_ (V1_labrow m c (arow t p))
  obtain ⟨-, -, -, -, -, -, -, -, e0, e1, -⟩ := idx_facts t
  unfold labrow iblk
  rw [View.read_apply]
  show V1 m c main_v12 _ = V1 m c main_v12 _
  congr 1
  funext a
  apply Fin.ext
  match a with
  | ⟨0, _⟩ => show win0_4.index t 0 * 512 + 1 * p.val = 512 * (t.val / 8) + p.val; rw [e0]; omega
  | ⟨1, _⟩ => show win0_4.index t 1 * 1 + 1 * 0 = 0; rw [e1]

/-- and the candidates' labels, each read at the global row. -/
theorem labcol_apply (c : Dev nD) (t : Fin cfg0.N) (q : Fin 1024) :
    (labcol m c t) (ix2 (0 : Fin 1) q) = labOf m c (ix1 (ccol t q)) := by
  refine Eq.trans ?_ (V1_labcol m c (ccol t q))
  obtain ⟨-, -, -, -, -, -, -, -, -, -, e0, e1, -⟩ := idx_facts t
  unfold labcol iblk
  rw [View.read_apply]
  show V1 m c main_v13 _ = V1 m c main_v13 _
  congr 1
  funext a
  apply Fin.ext
  match a with
  | ⟨0, _⟩ => show win0_5.index t 0 * 1 + 1 * 0 = 0; rw [e0]
  | ⟨1, _⟩ => show win0_5.index t 1 * 1024 + 1 * q.val = 1024 * (t.val % 8) + q.val; rw [e1]; omega

/-! ## The candidates, one block of 1024 after another -/

/-- The largest value of f over the candidates below 1024 (j + 1) is the larger of the largest below 1024 j
    and the largest over the j-th block of 1024. -/
theorem sup_below_succ (f : Fin 8192 → EReal) (j : ℕ) (hj : j < 8) :
    (Finset.univ.filter fun c : Fin 8192 => c.val < 1024 * (j + 1)).sup f
      = max ((Finset.univ.filter fun c : Fin 8192 => c.val < 1024 * j).sup f)
          (Finset.univ.sup fun q : Fin 1024 => f ⟨1024 * j + q.val, by have := q.isLt; omega⟩) := by
  apply le_antisymm
  · refine Finset.sup_le fun c hc => ?_
    have hc' : c.val < 1024 * (j + 1) := (Finset.mem_filter.mp hc).2
    by_cases h : c.val < 1024 * j
    · exact le_max_of_le_left (Finset.le_sup (f := f) (Finset.mem_filter.mpr ⟨Finset.mem_univ _, h⟩))
    · refine le_max_of_le_right ?_
      have hq : c.val - 1024 * j < 1024 := by omega
      have e : c = ⟨1024 * j + (⟨c.val - 1024 * j, hq⟩ : Fin 1024).val, by show 1024 * j + (c.val - 1024 * j) < 8192; omega⟩ :=
        Fin.ext (by show c.val = 1024 * j + (c.val - 1024 * j); omega)
      rw [e]
      exact Finset.le_sup (f := fun q : Fin 1024 => f ⟨1024 * j + q.val, by have := q.isLt; omega⟩) (Finset.mem_univ _)
  · refine max_le (Finset.sup_mono fun c hc => ?_) (Finset.sup_le fun q _ => ?_)
    · exact Finset.mem_filter.mpr ⟨Finset.mem_univ _, by have := (Finset.mem_filter.mp hc).2; omega⟩
    · exact Finset.le_sup (f := f) (Finset.mem_filter.mpr ⟨Finset.mem_univ _, by show 1024 * j + q.val < 1024 * (j + 1); have := q.isLt; omega⟩)

/-- The same for the smallest value. -/
theorem inf_below_succ (f : Fin 8192 → EReal) (j : ℕ) (hj : j < 8) :
    (Finset.univ.filter fun c : Fin 8192 => c.val < 1024 * (j + 1)).inf f
      = min ((Finset.univ.filter fun c : Fin 8192 => c.val < 1024 * j).inf f)
          (Finset.univ.inf fun q : Fin 1024 => f ⟨1024 * j + q.val, by have := q.isLt; omega⟩) := by
  apply le_antisymm
  · refine le_min (Finset.inf_mono fun c hc => ?_) (Finset.le_inf fun q _ => ?_)
    · exact Finset.mem_filter.mpr ⟨Finset.mem_univ _, by have := (Finset.mem_filter.mp hc).2; omega⟩
    · exact Finset.inf_le (f := f) (Finset.mem_filter.mpr ⟨Finset.mem_univ _, by show 1024 * j + q.val < 1024 * (j + 1); have := q.isLt; omega⟩)
  · refine Finset.le_inf fun c hc => ?_
    have hc' : c.val < 1024 * (j + 1) := (Finset.mem_filter.mp hc).2
    by_cases h : c.val < 1024 * j
    · exact min_le_of_left_le (Finset.inf_le (f := f) (Finset.mem_filter.mpr ⟨Finset.mem_univ _, h⟩))
    · refine min_le_of_right_le ?_
      have hq : c.val - 1024 * j < 1024 := by omega
      have e : c = ⟨1024 * j + (⟨c.val - 1024 * j, hq⟩ : Fin 1024).val, by show 1024 * j + (c.val - 1024 * j) < 8192; omega⟩ :=
        Fin.ext (by show c.val = 1024 * j + (c.val - 1024 * j); omega)
      rw [e]
      exact Finset.inf_le (f := fun q : Fin 1024 => f ⟨1024 * j + q.val, by have := q.isLt; omega⟩) (Finset.mem_univ _)

/-- Below 0 there is no candidate. -/
theorem filter_below_zero : (Finset.univ.filter fun c : Fin 8192 => c.val < 1024 * 0) = ∅ :=
  Finset.filter_false_of_mem fun c _ => by omega

/-- Below 8192 are all of them. -/
theorem filter_below_all : (Finset.univ.filter fun c : Fin 8192 => c.val < 1024 * (7 + 1)) = Finset.univ :=
  Finset.filter_true_of_mem fun c _ => by have := c.isLt; omega

/-! ## One point's update, as mathematics -/

/-- An entry of the tile at point t is the distance between the anchor and the candidate it stands for. -/
theorem tile_apply (c : Dev nD) (t : Fin cfg0.N) (p : Fin 512) (q : Fin 1024) :
    tile m c t (ix2 p q) = Cert.Spec.dist (embOf m c) (arow t p) (ccol t q) := by
  unfold tile
  refine (pay6_apply (xrow m c t) (xcol m c t) (sqrow m c t) (sqcol m c t) p q).trans ?_
  simp only [xrow_apply, xcol_apply, sqrow_apply, sqcol_apply]
  rfl

/-- What a candidate x contributes to anchor r's largest positive distance, and to its smallest negative one. -/
def posTerm (c : Dev nD) (r : Fin 8192) : Fin 8192 → EReal :=
  fun x => if Cert.Spec.pos (labOf m c) r x then Cert.Spec.dist (embOf m c) r x else ⊥
def negTerm (c : Dev nD) (r : Fin 8192) : Fin 8192 → EReal :=
  fun x => if Cert.Spec.neg (labOf m c) r x then Cert.Spec.dist (embOf m c) r x else ⊤

/-- The running maximum after the update at point t: what it held, or a larger contribution of one of the
    1024 candidates of this column block. The diagonal mask is set exactly where the candidate is the anchor. -/
theorem step_fst_apply (c : Dev nD) (t : Fin cfg0.N) (acc : Vec Ideal S512x1 .f32 × Vec Ideal S512x1 .f32) (p : Fin 512) :
    (step m c t acc).1 (ix2 p (0 : Fin 1))
      = max (acc.1 (ix2 p (0 : Fin 1)) : EReal)
          (Finset.univ.sup fun q : Fin 1024 => posTerm m c (arow t p) (ccol t q)) := by
  unfold step
  dsimp only
  refine (pay2_apply (tile m c t) (k0_pay7 (grid0.coords t)) (k0_pay8 (labrow m c t)) (labcol m c t) acc.1 p).trans ?_
  congr 1
  refine Finset.sup_congr rfl fun q _ => ?_
  rw [tile_apply, pay8_apply, labrow_apply, labcol_apply]
  unfold posTerm
  refine if_congr ?_ rfl rfl
  unfold Cert.Spec.pos Cert.Spec.same
  refine and_congr Iff.rfl (not_congr ?_)
  rw [pay7_apply]
  obtain ⟨e0, e1⟩ := coords_facts t
  rw [e0, e1]
  constructor
  · intro h; exact Fin.ext (by show 512 * (t.val / 8) + p.val = 1024 * (t.val % 8) + q.val; omega)
  · intro h
    have h' : 512 * (t.val / 8) + p.val = 1024 * (t.val % 8) + q.val := congrArg Fin.val h
    omega

/-- The running minimum after the update at point t. -/
theorem step_snd_apply (c : Dev nD) (t : Fin cfg0.N) (acc : Vec Ideal S512x1 .f32 × Vec Ideal S512x1 .f32) (p : Fin 512) :
    (step m c t acc).2 (ix2 p (0 : Fin 1))
      = min (acc.2 (ix2 p (0 : Fin 1)) : EReal)
          (Finset.univ.inf fun q : Fin 1024 => negTerm m c (arow t p) (ccol t q)) := by
  unfold step
  dsimp only
  refine (pay3_apply (tile m c t) (k0_pay8 (labrow m c t)) (labcol m c t) acc.2 p).trans ?_
  congr 1
  refine Finset.inf_congr rfl fun q _ => ?_
  rw [tile_apply, pay8_apply, labrow_apply, labcol_apply]
  unfold negTerm
  exact if_congr Iff.rfl rfl rfl

/-! ## The accumulators after each point -/

/-- At a first column block the pair is the update of the reset pair; -/
theorem accAt_first (c : Dev nD) (n : ℕ) (h : n < cfg0.N) (h0 : n % 8 = 0) :
    accAt m c n h = step m c ⟨n, h⟩ (fresh (F := Ideal)) := by
  cases n with
  | zero => rfl
  | succ k => rw [accAt, if_pos h0]

/-- at any other, the update of what the point before left. -/
theorem accAt_carry (c : Dev nD) (n : ℕ) (h : n + 1 < cfg0.N) (h0 : ¬ (n + 1) % 8 = 0) :
    accAt m c (n + 1) h = step m c ⟨n + 1, h⟩ (accAt m c n (Nat.lt_of_succ_lt h)) := by
  rw [accAt, if_neg h0]

/-- After a first column block the running maximum has seen the first 1024 candidates. -/
theorem accAt_fst_reset (c : Dev nD) (n : ℕ) (h : n < cfg0.N) (h0 : n % 8 = 0) (p : Fin 512) :
    (accAt m c n h).1 (ix2 p (0 : Fin 1))
      = (Finset.univ.filter fun x : Fin 8192 => x.val < 1024 * (n % 8 + 1)).sup (posTerm m c (arow ⟨n, h⟩ p)) := by
  rw [accAt_first m c n h h0, step_fst_apply, sup_below_succ _ (n % 8) (by omega)]
  have e : (Finset.univ.filter fun x : Fin 8192 => x.val < 1024 * (n % 8)) = ∅ :=
    Finset.filter_false_of_mem fun x _ => by omega
  rw [e, Finset.sup_empty]
  exact congrArg₂ max (pay4_apply p) rfl

/-- And the running minimum likewise. -/
theorem accAt_snd_reset (c : Dev nD) (n : ℕ) (h : n < cfg0.N) (h0 : n % 8 = 0) (p : Fin 512) :
    (accAt m c n h).2 (ix2 p (0 : Fin 1))
      = (Finset.univ.filter fun x : Fin 8192 => x.val < 1024 * (n % 8 + 1)).inf (negTerm m c (arow ⟨n, h⟩ p)) := by
  rw [accAt_first m c n h h0, step_snd_apply, inf_below_succ _ (n % 8) (by omega)]
  have e : (Finset.univ.filter fun x : Fin 8192 => x.val < 1024 * (n % 8)) = ∅ :=
    Finset.filter_false_of_mem fun x _ => by omega
  rw [e, Finset.inf_empty]
  exact congrArg₂ min (pay5_apply p) rfl

/-- After point n = 8 i + j the running maximum of anchor 512 i + p is the largest contribution among the
    candidates of the column blocks 0 .. j, that is the candidates below 1024 (j + 1). -/
theorem accAt_fst (c : Dev nD) : ∀ (n : ℕ) (h : n < cfg0.N) (p : Fin 512),
    (accAt m c n h).1 (ix2 p (0 : Fin 1))
      = (Finset.univ.filter fun x : Fin 8192 => x.val < 1024 * (n % 8 + 1)).sup (posTerm m c (arow ⟨n, h⟩ p))
  | 0, h, p => accAt_fst_reset m c 0 h rfl p
  | n + 1, h, p => by
    by_cases h0 : (n + 1) % 8 = 0
    · exact accAt_fst_reset m c (n + 1) h h0 p
    · rw [accAt_carry m c n h h0, step_fst_apply, accAt_fst c n (Nat.lt_of_succ_lt h) p,
        sup_below_succ _ ((n + 1) % 8) (by omega)]
      have ea : arow ⟨n, Nat.lt_of_succ_lt h⟩ p = arow ⟨n + 1, h⟩ p :=
        Fin.ext (by show 512 * (n / 8) + p.val = 512 * ((n + 1) / 8) + p.val; omega)
      have ej : n % 8 + 1 = (n + 1) % 8 := by omega
      rw [ea, ej]
      rfl

/-- and the running minimum the smallest. -/
theorem accAt_snd (c : Dev nD) : ∀ (n : ℕ) (h : n < cfg0.N) (p : Fin 512),
    (accAt m c n h).2 (ix2 p (0 : Fin 1))
      = (Finset.univ.filter fun x : Fin 8192 => x.val < 1024 * (n % 8 + 1)).inf (negTerm m c (arow ⟨n, h⟩ p))
  | 0, h, p => accAt_snd_reset m c 0 h rfl p
  | n + 1, h, p => by
    by_cases h0 : (n + 1) % 8 = 0
    · exact accAt_snd_reset m c (n + 1) h h0 p
    · rw [accAt_carry m c n h h0, step_snd_apply, accAt_snd c n (Nat.lt_of_succ_lt h) p,
        inf_below_succ _ ((n + 1) % 8) (by omega)]
      have ea : arow ⟨n, Nat.lt_of_succ_lt h⟩ p = arow ⟨n + 1, h⟩ p :=
        Fin.ext (by show 512 * (n / 8) + p.val = 512 * ((n + 1) / 8) + p.val; omega)
      have ej : n % 8 + 1 = (n + 1) % 8 := by omega
      rw [ea, ej]
      rfl

/-! ## The write-backs assemble the two results -/

/-- The two results as whole arrays: row r holds the anchor r's hardest positive distance; hardest negative. -/
abbrev dapAll (c : Dev nD) : Vec Ideal S8192x1 .f32 := fun i => Cert.Spec.dap (embOf m c) (labOf m c) (i 0)
abbrev danAll (c : Dev nD) : Vec Ideal S8192x1 .f32 := fun i => Cert.Spec.dan (embOf m c) (labOf m c) (i 0)

/-- After the last column block the running maximum has seen every candidate. -/
theorem accAt_fst_last (c : Dev nD) (t : Fin cfg0.N) (h7 : t.val % 8 = 7) (p : Fin 512) :
    (accAt m c t.val t.isLt).1 (ix2 p (0 : Fin 1)) = Cert.Spec.dap (embOf m c) (labOf m c) (arow t p) := by
  rw [accAt_fst m c t.val t.isLt p, h7, filter_below_all]
  rfl

/-- And the running minimum likewise. -/
theorem accAt_snd_last (c : Dev nD) (t : Fin cfg0.N) (h7 : t.val % 8 = 7) (p : Fin 512) :
    (accAt m c t.val t.isLt).2 (ix2 p (0 : Fin 1)) = Cert.Spec.dan (embOf m c) (labOf m c) (arow t p) := by
  rw [accAt_snd m c t.val t.isLt p, h7, filter_below_all]
  rfl

/-- What a write-back of the first result writes is its block of the whole array. -/
theorem flushed6_eq (c : Dev nD) (t : Fin cfg0.N) (hf : (cfg0.win 6).flush t = true) :
    (dats m 0 c).flushed 6 t = ((cfg0.win 6).blk t).view.read (Elt Ideal) (dapAll m c) := by
  have h7 : t.val % 8 = 7 := (flush0_6 t).mp hf
  obtain ⟨-, -, -, -, -, -, -, -, -, -, -, -, e0, e1, -⟩ := idx_facts t
  funext y
  rw [View.read_apply]
  obtain ⟨p, z, rfl⟩ : ∃ (p : Fin 512) (z : Fin 1), y = ix2 p z := ⟨y 0, y 1, eq_ix2 y⟩
  obtain rfl : z = 0 := Subsingleton.elim _ _
  have er : (((cfg0.win 6).blk t).view.emb (ix2 p (0 : Fin 1))) 0 = arow t p :=
    Fin.ext (by show win0_6.index t (0 : Fin 2) * 512 + 1 * p.val = 512 * (t.val / 8) + p.val; rw [e0]; omega)
  show (accAt m c t.val t.isLt).1 (ix2 p (0 : Fin 1))
    = Cert.Spec.dap (embOf m c) (labOf m c) ((((cfg0.win 6).blk t).view.emb (ix2 p (0 : Fin 1))) 0)
  rw [er]
  exact accAt_fst_last m c t h7 p

/-- The same for the second result. -/
theorem flushed7_eq (c : Dev nD) (t : Fin cfg0.N) (hf : (cfg0.win 7).flush t = true) :
    (dats m 0 c).flushed 7 t = ((cfg0.win 7).blk t).view.read (Elt Ideal) (danAll m c) := by
  have h7 : t.val % 8 = 7 := (flush0_7 t).mp hf
  obtain ⟨-, -, -, -, -, -, -, -, -, -, -, -, -, -, e0, e1⟩ := idx_facts t
  funext y
  rw [View.read_apply]
  obtain ⟨p, z, rfl⟩ : ∃ (p : Fin 512) (z : Fin 1), y = ix2 p z := ⟨y 0, y 1, eq_ix2 y⟩
  obtain rfl : z = 0 := Subsingleton.elim _ _
  have er : (((cfg0.win 7).blk t).view.emb (ix2 p (0 : Fin 1))) 0 = arow t p :=
    Fin.ext (by show win0_7.index t (0 : Fin 2) * 512 + 1 * p.val = 512 * (t.val / 8) + p.val; rw [e0]; omega)
  show (accAt m c t.val t.isLt).2 (ix2 p (0 : Fin 1))
    = Cert.Spec.dan (embOf m c) (labOf m c) ((((cfg0.win 7).blk t).view.emb (ix2 p (0 : Fin 1))) 0)
  rw [er]
  exact accAt_snd_last m c t h7 p

/-- The point that writes back the row block of row r: the last column block of row block r / 512. -/
def lastOf (r : Fin 8192) : Fin cfg0.N :=
  ⟨8 * (r.val / 512) + 7, by have hN : cfg0.N = 128 := N_0; have := r.isLt; omega⟩

/-- Every row of the first result lies in a block that is written back. -/
theorem cover6 (i : S8192x1.Idx) :
    ∃ t : Fin cfg0.N, (cfg0.win 6).flush t = true ∧ i ∈ ((cfg0.win 6).blk t).view.set := by
  have h0 : (i 0).val < 8192 := (i 0).isLt
  have h1 : (i 1).val < 1 := (i 1).isLt
  refine ⟨lastOf (i 0), (flush0_6 _).mpr (by show (8 * ((i 0).val / 512) + 7) % 8 = 7; omega), ?_⟩
  obtain ⟨-, -, -, -, -, -, -, -, -, -, -, -, e0, e1, -⟩ := idx_facts (lastOf (i 0))
  have ev : (lastOf (i 0)).val = 8 * ((i 0).val / 512) + 7 := rfl
  show i ∈ ((View.whole main_v14_0).slice (win0_6.rect (lastOf (i 0)))).set
  rw [View.set_slice_whole, Rect.mem_set_unit]
  intro a
  match a with
  | ⟨0, _⟩ =>
    show win0_6.index (lastOf (i 0)) (0 : Fin 2) * 512 ≤ (i 0).val ∧ (i 0).val < win0_6.index (lastOf (i 0)) (0 : Fin 2) * 512 + 512
    rw [e0, ev]; omega
  | ⟨1, _⟩ =>
    show win0_6.index (lastOf (i 0)) (1 : Fin 2) * 1 ≤ (i 1).val ∧ (i 1).val < win0_6.index (lastOf (i 0)) (1 : Fin 2) * 1 + 1
    rw [e1]; omega

/-- The same for the second result. -/
theorem cover7 (i : S8192x1.Idx) :
    ∃ t : Fin cfg0.N, (cfg0.win 7).flush t = true ∧ i ∈ ((cfg0.win 7).blk t).view.set := by
  have h0 : (i 0).val < 8192 := (i 0).isLt
  have h1 : (i 1).val < 1 := (i 1).isLt
  refine ⟨lastOf (i 0), (flush0_7 _).mpr (by show (8 * ((i 0).val / 512) + 7) % 8 = 7; omega), ?_⟩
  obtain ⟨-, -, -, -, -, -, -, -, -, -, -, -, -, -, e0, e1⟩ := idx_facts (lastOf (i 0))
  have ev : (lastOf (i 0)).val = 8 * ((i 0).val / 512) + 7 := rfl
  show i ∈ ((View.whole main_v14_1).slice (win0_7.rect (lastOf (i 0)))).set
  rw [View.set_slice_whole, Rect.mem_set_unit]
  intro a
  match a with
  | ⟨0, _⟩ =>
    show win0_7.index (lastOf (i 0)) (0 : Fin 2) * 512 ≤ (i 0).val ∧ (i 0).val < win0_7.index (lastOf (i 0)) (0 : Fin 2) * 512 + 512
    rw [e0, ev]; omega
  | ⟨1, _⟩ =>
    show win0_7.index (lastOf (i 0)) (1 : Fin 2) * 1 ≤ (i 1).val ∧ (i 1).val < win0_7.index (lastOf (i 0)) (1 : Fin 2) * 1 + 1
    rw [e1]; omega

/-- So the two result arrays end holding the hardest distances, row by row. -/
theorem dapArr_eq (c : Dev nD) : dapArr m c = dapAll m c :=
  (dats m 0 c).arrAt_eq_of_cover 6 (dapAll m c) (flushed6_eq m c) cover6

theorem danArr_eq (c : Dev nD) : danArr m c = danAll m c :=
  (dats m 0 c).arrAt_eq_of_cover 7 (danAll m c) (flushed7_eq m c) cover7

/-- Row r of the first result: the hardest positive's distance. -/
theorem dapArr_apply (c : Dev nD) (r : Fin 8192) :
    (dapArr m c : FVec Ideal S8192x1 .f32) (ix2 r (0 : Fin 1)) = Cert.Spec.dap (embOf m c) (labOf m c) r := by
  rw [dapArr_eq]

/-- Row r of the second result: the hardest negative's distance. -/
theorem danArr_apply (c : Dev nD) (r : Fin 8192) :
    (danArr m c : FVec Ideal S8192x1 .f32) (ix2 r (0 : Fin 1)) = Cert.Spec.dan (embOf m c) (labOf m c) r := by
  rw [danArr_eq]

end Cert.KernelIdeal.Hand

end
-- ==== Proof.Ref.lean ====
/-
  The reference program read as mathematics.

  Up to its last few operations the reference computes three things for every anchor row r of the 8192:
  the largest distance from r to a row that carries r's label and is not r itself, the smallest distance from r
  to a row that carries another label, and the bit saying that r has both a positive and a negative. Here these
  three vectors are named, and each is identified, entry by entry, with the program-free specification: the
  distance matrix entry (r, q) is the specification's distance, the label masks at (r, q) are one-bit words that
  are set exactly when the specification's relations hold, a row maximum started at the lattice's bottom is a
  supremum over the columns, a row minimum started at the top is an infimum, and a row OR of one-bit words
  started at the clear word is set exactly when some column's word is set.
-/
import proofs.«159311_j57509612094151_1_alg».proof.Proof.RefRead
import proofs.«159311_j57509612094151_1_alg».proof.Proof.Spec
import Idealize.ShloMosaic.PureOps.Reduce
import Idealize.ShloMosaic.PureOps.Ideal.Laws
import Idealize.ShloMosaic.Lib.ValueIdx
import Idealize.ShloMosaic.Lib.StableHlo.Predicate
import proofs.«159311_j57509612094151_1_alg».proof.Proof.KI.TailDef

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The embeddings and the labels as the reference's stages take them. -/
abbrev EmbT : Type := (⟨S8192x128, .f32⟩ : BufTy).Contents (Elt Ideal)
abbrev LabT : Type := (⟨S8192, .i32⟩ : BufTy).Contents (Elt Ideal)

/-! ## The prefix: normalised rows, their squared norms, inner products, distances -/

/-- The sum of squares of a row of the embeddings. -/
theorem ss_read (x0 : EmbT) (j : S8192.Idx) : val_main_call0_v1 (F := Ideal) x0 j = Spec.ss x0 (j 0) := by
  rw [val_main_call0_v1_apply]
  unfold Spec.ss
  refine congrArg₂ (· + ·) rfl (Finset.sum_congr rfl fun k _ => ?_)
  rw [val_main_call0_v0_apply]
  have e : idx_main_call0_v1 j k = ix2 (j 0) k := funext fun a => by match a with | ⟨0, _⟩ => rfl | ⟨1, _⟩ => rfl
  rw [e]; rfl

/-- What a row is divided by. -/
theorem den_read (x0 : EmbT) (i : S8192x1.Idx) : val_main_v2 (F := Ideal) x0 i = Spec.den x0 (i 0) := by
  rw [val_main_v2_apply, val_main_v0_apply, val_main_call0_v2_apply, ss_read, val_main_v1_apply]
  rfl

/-- An entry of the normalised embeddings. -/
theorem xn_read (x0 : EmbT) (i : S8192x128.Idx) : val_main_v4 (F := Ideal) x0 i = Spec.xn x0 (i 0) (i 1) := by
  rw [val_main_v4_apply, val_main_v3_apply, den_read]
  unfold Spec.xn
  exact congrArg₂ Ideal.div (congrArg x0 (eq_ix2 i)) rfl

/-- The squared norm of a normalised row. -/
theorem sq_read (x0 : EmbT) (j : S8192.Idx) : val_main_v6 (F := Ideal) x0 j = Spec.sq x0 (j 0) := by
  rw [val_main_v6_apply]
  unfold Spec.sq
  refine congrArg₂ (· + ·) rfl (Finset.sum_congr rfl fun k _ => ?_)
  rw [val_main_v5_apply, xn_read]
  rfl

/-- The inner product of two normalised rows: the contraction runs over the 128 entries of a row. -/
theorem dot_read (x0 : EmbT) (i : S8192x8192.Idx) : val_main_v13 (F := Ideal) x0 i = Spec.dot x0 (i 0) (i 1) := by
  rw [val_main_v13_apply]
  unfold Spec.dot
  refine Finset.sum_congr rfl fun k _ => ?_
  rw [val_main_v12_apply, xn_read, xn_read]
  rfl

/-- An entry of the distance matrix. -/
theorem dist_read (x0 : EmbT) (i : S8192x8192.Idx) : val_main_v19 (F := Ideal) x0 i = Spec.dist x0 (i 0) (i 1) := by
  rw [val_main_v19_apply, val_main_v18_apply, val_main_v16_apply, val_main_v11_apply, val_main_v9_apply, val_main_v7_apply,
    sq_read, val_main_v10_apply, val_main_v8_apply, sq_read, val_main_v15_apply, val_main_v14_apply, dot_read,
    val_main_v17_apply]
  rfl

/-! ## One-bit words -/

private theorem bit_not (a : BitVec 1) : ~~~a = 1#1 ↔ ¬ a = 1#1 := by
  rcases BitVec.eq_zero_or_eq_one a with rfl | rfl <;> decide
private theorem bit_and (a b : BitVec 1) : IntOp.andi a b = 1#1 ↔ a = 1#1 ∧ b = 1#1 := by
  rcases BitVec.eq_zero_or_eq_one a with rfl | rfl <;> rcases BitVec.eq_zero_or_eq_one b with rfl | rfl <;> decide
private theorem bit_or (a b : BitVec 1) : IntOp.ori a b = 1#1 ↔ a = 1#1 ∨ b = 1#1 := by
  rcases BitVec.eq_zero_or_eq_one a with rfl | rfl <;> rcases BitVec.eq_zero_or_eq_one b with rfl | rfl <;> decide

/-- An OR of one-bit words over a finite set, started at the clear word, is set exactly when one of them is. -/
private theorem fold_ori_eq_one {ι : Type} [DecidableEq ι] (s : Finset ι) (f : ι → BitVec 1) :
    s.fold IntOp.ori 0#1 f = 1#1 ↔ ∃ k ∈ s, f k = 1#1 := by
  refine Finset.induction_on s ?_ ?_
  · simp
  · intro a s ha ih
    rw [Finset.fold_insert ha, bit_or, ih]
    constructor
    · rintro (h | ⟨k, hk, hf⟩)
      · exact ⟨a, Finset.mem_insert_self a s, h⟩
      · exact ⟨k, Finset.mem_insert_of_mem hk, hf⟩
    · rintro ⟨k, hk, hf⟩
      rcases Finset.mem_insert.1 hk with rfl | hk
      · exact Or.inl hf
      · exact Or.inr ⟨k, hk, hf⟩

/-! ## The label masks -/

/-- The equal-labels mask. -/
theorem same_read (x1 : LabT) (i : S8192x8192.Idx) :
    val_main_v24 (F := Ideal) x1 i = 1#1 ↔ Spec.same x1 (i 0) (i 1) := by
  rw [val_main_v24_apply, val_main_v22_apply, val_main_v20_apply, val_main_v23_apply, val_main_v21_apply,
    Predicate.cmpi_eq_iff]
  unfold Spec.same
  have e0 : idx_main_v20 (idx_main_v22 i) = ix1 (i 0) := funext fun a => by match a with | ⟨0, _⟩ => rfl
  have e1 : idx_main_v21 (idx_main_v23 i) = ix1 (i 1) := funext fun a => by match a with | ⟨0, _⟩ => rfl
  rw [e0, e1]
  exact Iff.rfl

/-- The diagonal mask: the row number and the column number are below 2 ^ 32, so their words agree only when
    the numbers do. -/
theorem eye_read (r q : Fin 8192) : val_main_v29 (F := Ideal) (ix2 r q) = 1#1 ↔ r = q := by
  rw [val_main_v29_apply, val_main_v28_apply, val_main_v25_apply, val_main_v27_apply, val_main_c_apply, val_main_v26_apply,
    Predicate.cmpi_eq_iff]
  show IntOp.addi (BitVec.ofNat 32 r.val) 0#32 = BitVec.ofNat 32 q.val ↔ r = q
  unfold IntOp.addi
  rw [BitVec.add_zero]
  constructor
  · intro h
    have h2 := congrArg BitVec.toNat h
    rw [BitVec.toNat_ofNat, BitVec.toNat_ofNat] at h2
    have h0 := r.isLt
    have h1 := q.isLt
    exact Fin.ext (by omega)
  · intro h; rw [h]

/-- The positives' mask. -/
theorem pos_read (x1 : LabT) (r q : Fin 8192) : val_main_v31 (F := Ideal) x1 (ix2 r q) = 1#1 ↔ Spec.pos x1 r q := by
  rw [val_main_v31_apply, val_main_v30_apply, bit_and, bit_not, same_read, eye_read]
  rfl

/-- The negatives' mask. -/
theorem neg_read (x1 : LabT) (r q : Fin 8192) : val_main_v32 (F := Ideal) x1 (ix2 r q) = 1#1 ↔ Spec.neg x1 r q := by
  rw [val_main_v32_apply, bit_not, same_read]
  rfl

/-! ## Reductions along a row of the 8192 x 8192 matrix -/

/-- Row r with the column number k put back is the entry (r, k). -/
private theorem lift_col (h : S8192x8192.Reduces [1] S8192) (r : Fin 8192) (k : Fin (S8192x8192.size 1)) :
    h.lift (ix1 r) k = ix2 r (⟨k.val, k.isLt⟩ : Fin 8192) := by
  funext a; apply Fin.ext
  match a with
  | ⟨0, _⟩ => rfl
  | ⟨1, _⟩ => rfl

private theorem negInf_eq_bot : Ideal.ofBits .f32 0xFF800000#32 = (⊥ : EReal) := by simp [Ideal.ofBits, Ideal.ieee]
private theorem posInf_eq_top : Ideal.ofBits .f32 0x7F800000#32 = (⊤ : EReal) := by simp [Ideal.ofBits, Ideal.ieee]

/-- A row maximum started at the bottom of the lattice is the supremum of the row. -/
theorem rowMax_read (x : FVec Ideal S8192x8192 .f32) (init : FVec Ideal S_ .f32)
    (hinit : init (Shape.Idx.first h_S_) = (⊥ : EReal)) (r : Fin 8192) :
    Host.reduce FloatOps.maximumf x init reducesTo_S8192x8192_S8192_d1 h_S_ (ix1 r)
      = Finset.univ.sup fun q : Fin 8192 => x (ix2 r q) := by
  have h : S8192x8192.Reduces [1] S8192 := by decide
  rw [Host.reduce_eq_fold_single FloatOps.maximumf x init reducesTo_S8192x8192_S8192_d1 h h_S_, hinit]
  have hf : (x ∘ h.lift (ix1 r)) = fun q : Fin 8192 => x (ix2 r q) := funext fun k => congrArg x (lift_col h r k)
  refine (congrArg (fun f => Finset.fold (FloatOps.maximumf (F := Ideal) (φ := .f32)) (⊥ : EReal) f
    (Finset.univ : Finset (Fin 8192))) hf).trans ?_
  rfl

/-- A row minimum started at the top of the lattice is the infimum of the row. -/
theorem rowMin_read (x : FVec Ideal S8192x8192 .f32) (init : FVec Ideal S_ .f32)
    (hinit : init (Shape.Idx.first h_S_) = (⊤ : EReal)) (r : Fin 8192) :
    Host.reduce FloatOps.minimumf x init reducesTo_S8192x8192_S8192_d1 h_S_ (ix1 r)
      = Finset.univ.inf fun q : Fin 8192 => x (ix2 r q) := by
  have h : S8192x8192.Reduces [1] S8192 := by decide
  rw [Host.reduce_eq_fold_single FloatOps.minimumf x init reducesTo_S8192x8192_S8192_d1 h h_S_, hinit]
  have hf : (x ∘ h.lift (ix1 r)) = fun q : Fin 8192 => x (ix2 r q) := funext fun k => congrArg x (lift_col h r k)
  refine (congrArg (fun f => Finset.fold (FloatOps.minimumf (F := Ideal) (φ := .f32)) (⊤ : EReal) f
    (Finset.univ : Finset (Fin 8192))) hf).trans ?_
  rfl

/-- A row OR of one-bit words started at the clear word is set exactly when some entry of the row is. -/
theorem rowOr_read (x : IVec S8192x8192 1) (init : IVec S_ 1) (hinit : init (Shape.Idx.first h_S_) = 0#1) (r : Fin 8192) :
    Host.reduce IntOp.ori x init reducesTo_S8192x8192_S8192_d1 h_S_ (ix1 r) = 1#1 ↔ ∃ q : Fin 8192, x (ix2 r q) = 1#1 := by
  have h : S8192x8192.Reduces [1] S8192 := by decide
  rw [Host.reduce_eq_fold_single IntOp.ori x init reducesTo_S8192x8192_S8192_d1 h h_S_, hinit]
  have hf : (x ∘ h.lift (ix1 r)) = fun q : Fin 8192 => x (ix2 r q) := funext fun k => congrArg x (lift_col h r k)
  have e := congrArg (fun f => Finset.fold (IntOp.ori (w := 1)) 0#1 f (Finset.univ : Finset (Fin 8192))) hf
  refine (iff_of_eq (congrArg (· = 1#1) e)).trans ?_
  refine (fold_ori_eq_one (Finset.univ : Finset (Fin 8192)) fun q : Fin 8192 => x (ix2 r q)).trans ?_
  exact ⟨fun ⟨k, _, hk⟩ => ⟨k, hk⟩, fun ⟨k, hk⟩ => ⟨k, Finset.mem_univ k, hk⟩⟩

/-! ## The three vectors, and what they are -/

variable (m : (ℓ : Loc nD τ sig) → Buf (Elt Ideal) ℓ)

/-- Every anchor's largest distance to a positive. -/
def refDap (c : Dev nD) : Vec Ideal S8192 .f32 :=
  val_main_v34 (F := Ideal) (m ((c.tc : Thread nD τ).loc main_arg0)) (m ((c.tc : Thread nD τ).loc main_arg1))
/-- Every anchor's smallest distance to a negative. -/
def refDan (c : Dev nD) : Vec Ideal S8192 .f32 :=
  val_main_v36 (F := Ideal) (m ((c.tc : Thread nD τ).loc main_arg0)) (m ((c.tc : Thread nD τ).loc main_arg1))
/-- Every anchor's bit: it has a positive and it has a negative. -/
def refValid (c : Dev nD) : IVec S8192 1 :=
  val_main_v39 (F := Ideal) (m ((c.tc : Thread nD τ).loc main_arg1))

theorem refDap_apply (c : Dev nD) (r : Fin 8192) :
    refDap m c (ix1 r)
      = Spec.dap (m ((c.tc : Thread nD τ).loc main_arg0)) (m ((c.tc : Thread nD τ).loc main_arg1)) r := by
  unfold refDap val_main_v34 Spec.dap
  refine (rowMax_read _ _ negInf_eq_bot r).trans ?_
  refine Finset.sup_congr rfl fun q _ => ?_
  rw [val_main_v33_apply, dist_read, val_main_call1_v1_apply]
  unfold Scalar.select
  exact if_congr (pos_read _ r q) rfl negInf_eq_bot

theorem refDan_apply (c : Dev nD) (r : Fin 8192) :
    refDan m c (ix1 r)
      = Spec.dan (m ((c.tc : Thread nD τ).loc main_arg0)) (m ((c.tc : Thread nD τ).loc main_arg1)) r := by
  unfold refDan val_main_v36 Spec.dan
  refine (rowMin_read _ _ posInf_eq_top r).trans ?_
  refine Finset.inf_congr rfl fun q _ => ?_
  rw [val_main_v35_apply, dist_read, val_main_call2_v1_apply]
  unfold Scalar.select
  exact if_congr (neg_read _ r q) rfl posInf_eq_top

theorem refValid_apply (c : Dev nD) (r : Fin 8192) :
    refValid m c (ix1 r) = 1#1
      ↔ (Spec.hasPos (m ((c.tc : Thread nD τ).loc main_arg1)) r ∧ Spec.hasNeg (m ((c.tc : Thread nD τ).loc main_arg1)) r) := by
  unfold refValid
  rw [val_main_v39_apply, bit_and]
  refine and_congr ?_ ?_
  · unfold val_main_v37 Spec.hasPos
    exact (rowOr_read _ _ rfl r).trans (exists_congr fun q => pos_read _ r q)
  · unfold val_main_v38 Spec.hasNeg
    exact (rowOr_read _ _ rfl r).trans (exists_congr fun q => neg_read _ r q)

/-- The reference's result is the common last stretch applied to the three vectors: its remaining operations are,
    one for one, the operations of that stretch. -/
theorem ref_out (c : Dev nD) :
    Cert.ReferenceIdeal.Value.res_main_v54 m c = Cert.KernelIdeal.Hand.loss (refDap m c) (refDan m c) (refValid m c) := by
  refine (val_main_v54_eq m c).trans ?_
  unfold refDap refDan refValid
  generalize m ((c.tc : Thread nD τ).loc main_arg0) = x0
  generalize m ((c.tc : Thread nD τ).loc main_arg1) = x1
  unfold val_main_v54 val_main_v53 val_main_v52 val_main_v51 val_main_v50 val_main_v49 val_main_v48 val_main_v47
    val_main_v46 val_main_v45 val_main_v44 val_main_v43 val_main_v42 val_main_v41 val_main_v40
  generalize val_main_v34 (F := Ideal) x0 x1 = a
  generalize val_main_v36 (F := Ideal) x0 x1 = b
  generalize val_main_v39 (F := Ideal) x1 = v
  rfl

end Cert.ReferenceIdeal.Hand

end
-- ==== Proof.Bridge.lean ====
/-
  Why two finite thresholds decide "this anchor has a positive" and "this anchor has a negative".

  Every distance between normalised rows is at least 0, and, when the embeddings are real numbers, at most 2:
  a normalised row has squared norm at most 1 (it is divided by at least its own norm), and
  |a - b|^2 <= 2 |a|^2 + 2 |b|^2. So the largest distance to a positive is either the lattice's bottom (no
  positive at all) or a number >= 0, and the smallest distance to a negative is either the top (no negative)
  or a number <= 2. Any threshold below 0 separates the first pair of cases, any threshold above 2 the second.
  The two thresholds used are a negative and a positive real of magnitude about 1e29.
-/
import proofs.«159311_j57509612094151_1_alg».proof.Proof.Spec
import Idealize.ShloMosaic.PureOps.Ideal
import Idealize.ShloMosaic.PureOps.Ideal.Laws
import Mathlib.Data.EReal.Basic
import Mathlib.Data.EReal.Operations
import Mathlib.Analysis.Real.Sqrt
import Mathlib.Data.Finset.Lattice.Fold

noncomputable section

open scoped BigOperators

namespace Cert.Spec

open Idealize.ShloMosaic Idealize.ShloMosaic.ValueIdx

/-! ## The four constants -/

/-- The pattern 0x40000000 is the real number 2. -/
theorem lit_two : Ideal.ofBits .f32 0x40000000#32 = ((2 : ℝ) : EReal) := by
  simp [Ideal.ofBits, Ideal.ieee, -EReal.coe_mul]; norm_num

/-- The small constant under the norm: significand 9223372, exponent -63. -/
theorem lit_eps_val : Ideal.ofBits .f32 0x2B8CBCCC#32 = ((9223372 * (2 : ℝ) ^ (-63 : ℤ) : ℝ) : EReal) := by
  simp [Ideal.ofBits, Ideal.ieee, -EReal.coe_mul]

/-- The lower threshold: minus 10587912 * 2^73. -/
theorem lit_negbig_val :
    Ideal.ofBits .f32 0xEFA18F08#32 = ((-(10587912 * (2 : ℝ) ^ (73 : ℤ)) : ℝ) : EReal) := by
  simp [Ideal.ofBits, Ideal.ieee, -EReal.coe_mul]

/-- The upper threshold: 10587912 * 2^73. -/
theorem lit_posbig_val :
    Ideal.ofBits .f32 0x6FA18F08#32 = ((10587912 * (2 : ℝ) ^ (73 : ℤ) : ℝ) : EReal) := by
  simp [Ideal.ofBits, Ideal.ieee, -EReal.coe_mul]

/-- The small constant is a positive real. -/
theorem lit_eps : ∃ ε : ℝ, 0 < ε ∧ Ideal.ofBits .f32 0x2B8CBCCC#32 = (ε : EReal) :=
  ⟨_, by positivity, lit_eps_val⟩

/-- The lower threshold is a negative real. -/
theorem lit_negbig : ∃ t : ℝ, t < 0 ∧ Ideal.ofBits .f32 0xEFA18F08#32 = (t : EReal) :=
  ⟨_, by rw [neg_lt_zero]; positivity, lit_negbig_val⟩

/-- The upper threshold is a real above 2. -/
theorem lit_posbig : ∃ t : ℝ, 2 < t ∧ Ideal.ofBits .f32 0x6FA18F08#32 = (t : EReal) := by
  refine ⟨_, ?_, lit_posbig_val⟩
  have h : (1 : ℝ) ≤ (2 : ℝ) ^ (73 : ℤ) := one_le_zpow₀ (by norm_num) (by norm_num)
  linarith

/-! ## Real arithmetic -/

/-- A finite sum of reals, seen in the extended reals, is the sum of the terms seen there. -/
theorem coe_sum {ι : Type} (s : Finset ι) (a : ι → ℝ) :
    ((∑ k ∈ s, a k : ℝ) : EReal) = ∑ k ∈ s, (a k : EReal) := by
  classical
  induction s using Finset.induction_on with
  | empty => simp
  | insert x s hx ih => rw [Finset.sum_insert hx, Finset.sum_insert hx, EReal.coe_add, ih]

/-- A vector divided by at least its own norm has squared norm at most 1. -/
theorem sum_sq_scaled_le_one (f : Fin 128 → ℝ) (ε : ℝ) (hε : 0 < ε) :
    ∑ k, (f k * (1 / max (Real.sqrt (∑ j, f j * f j)) ε)) * (f k * (1 / max (Real.sqrt (∑ j, f j * f j)) ε)) ≤ 1 := by
  have hS0 : 0 ≤ ∑ j, f j * f j := Finset.sum_nonneg fun j _ => mul_self_nonneg (f j)
  generalize hS : ∑ j, f j * f j = S at hS0 ⊢
  generalize hD : max (Real.sqrt S) ε = D
  have hDpos : 0 < D := hD ▸ lt_of_lt_of_le hε (le_max_right _ _)
  have hSD : S ≤ D * D := by
    have h1 : Real.sqrt S ≤ D := hD ▸ le_max_left _ _
    calc S = Real.sqrt S * Real.sqrt S := (Real.mul_self_sqrt hS0).symm
      _ ≤ D * D := mul_self_le_mul_self (Real.sqrt_nonneg S) h1
  have hsum : ∑ k, (f k * (1 / D)) * (f k * (1 / D)) = S / (D * D) := by
    rw [← hS, Finset.sum_div]
    refine Finset.sum_congr rfl fun k _ => ?_
    field_simp
  rw [hsum, div_le_one (mul_pos hDpos hDpos)]
  exact hSD

/-- Two vectors of squared norm at most 1 are at squared distance at most 4. -/
theorem sq_dist_le_four (g h : Fin 128 → ℝ) (hg : ∑ k, g k * g k ≤ 1) (hh : ∑ k, h k * h k ≤ 1) :
    (∑ k, g k * g k) + (∑ k, h k * h k) - 2 * ∑ k, g k * h k ≤ 4 := by
  have key : -(2 * ∑ k, g k * h k) ≤ (∑ k, g k * g k) + (∑ k, h k * h k) := by
    rw [Finset.mul_sum, ← Finset.sum_neg_distrib, ← Finset.sum_add_distrib]
    refine Finset.sum_le_sum fun k _ => ?_
    nlinarith [mul_self_nonneg (g k + h k)]
  linarith

/-! ## The square root on the extended reals -/

/-- The square root of a nonnegative extended real is nonnegative (that of the top is the top). -/
theorem sqrt_nonneg_of_nonneg {x : EReal} (hx : 0 ≤ x) : 0 ≤ Ideal.sqrt x := by
  induction x using EReal.rec with
  | bot => exact absurd hx (by simp)
  | top => rw [Ideal.sqrt_top]; exact le_top
  | coe r =>
    have hr : 0 ≤ r := EReal.coe_nonneg.1 hx
    rw [Ideal.sqrt_coe, if_neg (not_lt.2 hr)]
    exact EReal.coe_nonneg.2 (Real.sqrt_nonneg r)

/-- Every distance is nonnegative, whatever the embeddings hold. -/
theorem dist_nonneg (e : Emb) (r c : Fin 8192) : 0 ≤ dist e r c := by
  unfold dist
  refine sqrt_nonneg_of_nonneg ?_
  rw [Ideal.ofBits_zero_f32]
  exact le_max_right _ _

/-! ## Real embeddings: everything is a real number -/

section Real

variable (f : (⟨2, ![8192, 128]⟩ : Shape).Idx → ℝ) (ε : ℝ)

/-- The normalised entry, over the reals. -/
def nrm (r : Fin 8192) (k : Fin 128) : ℝ :=
  f (ix2 r k) * (1 / max (Real.sqrt (∑ j : Fin 128, f (ix2 r j) * f (ix2 r j))) ε)

/-- Over the reals: the squared distance between two normalised rows is at most 4. -/
theorem d2_real_le_four (hε : 0 < ε) (r c : Fin 8192) :
    (∑ k : Fin 128, nrm f ε r k * nrm f ε r k) + (∑ k : Fin 128, nrm f ε c k * nrm f ε c k)
      - 2 * ∑ k : Fin 128, nrm f ε r k * nrm f ε c k ≤ 4 :=
  sq_dist_le_four _ _ (sum_sq_scaled_le_one (fun k => f (ix2 r k)) ε hε)
    (sum_sq_scaled_le_one (fun k => f (ix2 c k)) ε hε)

variable {f ε} {e : Emb} (hf : ∀ i, e i = (f i : EReal)) (hε : 0 < ε)
  (hlit : Ideal.ofBits .f32 0x2B8CBCCC#32 = (ε : EReal))
include hf

theorem ss_real (r : Fin 8192) : ss e r = ((∑ j : Fin 128, f (ix2 r j) * f (ix2 r j) : ℝ) : EReal) := by
  unfold ss
  rw [Ideal.ofBits_zero_f32, zero_add, coe_sum]
  refine Finset.sum_congr rfl fun k _ => ?_
  rw [hf, EReal.coe_mul]

include hε hlit

theorem den_real (r : Fin 8192) :
    den e r = ((max (Real.sqrt (∑ j : Fin 128, f (ix2 r j) * f (ix2 r j))) ε : ℝ) : EReal) := by
  have hS0 : 0 ≤ ∑ j : Fin 128, f (ix2 r j) * f (ix2 r j) := Finset.sum_nonneg fun j _ => mul_self_nonneg _
  unfold den
  rw [ss_real hf, Ideal.sqrt_coe, if_neg (not_lt.2 hS0), hlit]
  exact (EReal.coe_strictMono.monotone.map_max).symm

theorem xn_real (r : Fin 8192) (k : Fin 128) : xn e r k = ((nrm f ε r k : ℝ) : EReal) := by
  have hD : max (Real.sqrt (∑ j : Fin 128, f (ix2 r j) * f (ix2 r j))) ε ≠ 0 :=
    (lt_of_lt_of_le hε (le_max_right _ _)).ne'
  unfold xn nrm
  rw [den_real hf hε hlit, Ideal.div_coe hD, hf, EReal.coe_mul]

theorem sq_real (r : Fin 8192) : sq e r = ((∑ k : Fin 128, nrm f ε r k * nrm f ε r k : ℝ) : EReal) := by
  unfold sq
  rw [Ideal.ofBits_zero_f32, zero_add, coe_sum]
  refine Finset.sum_congr rfl fun k _ => ?_
  rw [xn_real hf hε hlit, EReal.coe_mul]

theorem dot_real (r c : Fin 8192) : dot e r c = ((∑ k : Fin 128, nrm f ε r k * nrm f ε c k : ℝ) : EReal) := by
  unfold dot
  rw [coe_sum]
  refine Finset.sum_congr rfl fun k _ => ?_
  rw [xn_real hf hε hlit, xn_real hf hε hlit, EReal.coe_mul]

theorem d2_real (r c : Fin 8192) :
    d2 e r c = (((∑ k : Fin 128, nrm f ε r k * nrm f ε r k) + (∑ k : Fin 128, nrm f ε c k * nrm f ε c k)
      - 2 * ∑ k : Fin 128, nrm f ε r k * nrm f ε c k : ℝ) : EReal) := by
  unfold d2
  rw [sq_real hf hε hlit, sq_real hf hε hlit, dot_real hf hε hlit, lit_two, EReal.coe_sub, EReal.coe_add,
    EReal.coe_mul]

end Real

/-- With real embeddings every distance is at most 2. -/
theorem dist_le_two (e : Emb) (he : Finite e) (r c : Fin 8192) : dist e r c ≤ ((2 : ℝ) : EReal) := by
  choose f hf using he
  obtain ⟨ε, hε, hlit⟩ := lit_eps
  unfold dist
  rw [d2_real hf hε hlit, Ideal.ofBits_zero_f32, ← EReal.coe_zero, ← EReal.coe_strictMono.monotone.map_max,
    Ideal.sqrt_coe, if_neg (not_lt.2 (le_max_right _ _)), EReal.coe_le_coe_iff, Real.sqrt_le_iff]
  refine ⟨by norm_num, max_le ?_ (by norm_num)⟩
  have := d2_real_le_four f ε hε r c
  linarith

/-! ## The thresholds -/

/-- The hardest positive's distance exceeds the lower threshold exactly when there is a positive. -/
theorem dap_gt_iff (e : Emb) (l : Lab) (r : Fin 8192) :
    Ideal.ofBits .f32 0xEFA18F08#32 < dap e l r ↔ hasPos l r := by
  obtain ⟨t, ht, hlit⟩ := lit_negbig
  unfold dap hasPos
  rw [hlit, Finset.lt_sup_iff]
  constructor
  · rintro ⟨c, -, hc⟩
    by_cases hp : pos l r c
    · exact ⟨c, hp⟩
    · rw [if_neg hp] at hc; exact absurd hc not_lt_bot
  · rintro ⟨c, hp⟩
    refine ⟨c, Finset.mem_univ c, ?_⟩
    rw [if_pos hp]
    exact lt_of_lt_of_le (EReal.coe_neg'.2 ht) (dist_nonneg e r c)

/-- With real embeddings, the hardest negative's distance is under the upper threshold exactly when there is
    a negative. -/
theorem dan_lt_iff (e : Emb) (he : Finite e) (l : Lab) (r : Fin 8192) :
    dan e l r < Ideal.ofBits .f32 0x6FA18F08#32 ↔ hasNeg l r := by
  obtain ⟨t, ht, hlit⟩ := lit_posbig
  unfold dan hasNeg
  rw [hlit, Finset.inf_lt_iff]
  constructor
  · rintro ⟨c, -, hc⟩
    by_cases hn : neg l r c
    · exact ⟨c, hn⟩
    · rw [if_neg hn] at hc; exact absurd hc not_top_lt
  · rintro ⟨c, hn⟩
    refine ⟨c, Finset.mem_univ c, ?_⟩
    rw [if_pos hn]
    exact lt_of_le_of_lt (dist_le_two e he r c) (EReal.coe_lt_coe_iff.2 ht)

/-! ## The same, through the one-bit comparison -/

/-- The comparison "greater than" gives the bit 1 exactly when its left operand is the greater. -/
theorem cmp_ogt_eq_one (x y : EReal) : Ideal.cmp .ogt x y = 1#1 ↔ y < x := by
  unfold Ideal.cmp
  by_cases h : y < x <;> simp [h]

/-- The comparison "less than" gives the bit 1 exactly when its left operand is the smaller. -/
theorem cmp_olt_eq_one (x y : EReal) : Ideal.cmp .olt x y = 1#1 ↔ x < y := by
  unfold Ideal.cmp
  by_cases h : x < y <;> simp [h]

theorem cmp_dap_iff (e : Emb) (l : Lab) (r : Fin 8192) :
    Ideal.cmp .ogt (dap e l r) (Ideal.ofBits .f32 0xEFA18F08#32) = 1#1 ↔ hasPos l r :=
  (cmp_ogt_eq_one _ _).trans (dap_gt_iff e l r)

theorem cmp_dan_iff (e : Emb) (he : Finite e) (l : Lab) (r : Fin 8192) :
    Ideal.cmp .olt (dan e l r) (Ideal.ofBits .f32 0x6FA18F08#32) = 1#1 ↔ hasNeg l r :=
  (cmp_olt_eq_one _ _).trans (dan_lt_iff e he l r)

/-- The same two facts with the bit written as a truth value. -/
theorem cmp_dap_eq (e : Emb) (l : Lab) (r : Fin 8192) [Decidable (hasPos l r)] :
    Ideal.cmp .ogt (dap e l r) (Ideal.ofBits .f32 0xEFA18F08#32) = BitVec.ofBool (decide (hasPos l r)) := by
  unfold Ideal.cmp
  exact congrArg BitVec.ofBool (decide_eq_decide.2 (dap_gt_iff e l r))

theorem cmp_dan_eq (e : Emb) (he : Finite e) (l : Lab) (r : Fin 8192) [Decidable (hasNeg l r)] :
    Ideal.cmp .olt (dan e l r) (Ideal.ofBits .f32 0x6FA18F08#32) = BitVec.ofBool (decide (hasNeg l r)) := by
  unfold Ideal.cmp
  exact congrArg BitVec.ofBool (decide_eq_decide.2 (dan_lt_iff e he l r))

end Cert.Spec

end
-- ==== Proof.Equal.lean ====
/-
  The two programs' results are one value.

  Both results are the same function of three things: the vector of each anchor's largest distance to a
  positive, the vector of each anchor's smallest distance to a negative, and the mask of the anchors that
  count. The first two agree entry by entry, because on either side entry r is the specification's value for
  anchor r over the same embeddings and labels. The masks are built differently: one side marks an anchor when
  its two mined distances clear two finite thresholds, the other when a row OR over the positives' mask and a
  row OR over the negatives' mask are both set. Either way the anchor's bit is set exactly when the anchor has
  a positive and a negative (for the thresholds this uses that every distance between normalised rows of real
  embeddings lies between 0 and 2), and two one-bit words that are set under the same condition are equal.
-/
import proofs.«159311_j57509612094151_1_alg».proof.Proof.KI.Value
import proofs.«159311_j57509612094151_1_alg».proof.Proof.KI.Tail
import proofs.«159311_j57509612094151_1_alg».proof.Proof.Ref
import proofs.«159311_j57509612094151_1_alg».proof.Proof.Bridge
import Idealize.ShloMosaic.Lib.Pipeline.Value
import Idealize.ShloMosaic.Lib.ValueIdx

noncomputable section

namespace Cert.Hand

open Idealize.ShloMosaic Idealize.ShloMosaic.TcCoe Idealize.ShloMosaic.ValueIdx Idealize.SL.Sem

/-! ## One-bit words -/

/-- Two one-bit words that are set under the same condition are the same word. -/
private theorem bit_ext (a b : BitVec 1) (h : a = 1#1 ↔ b = 1#1) : a = b := by
  rcases BitVec.eq_zero_or_eq_one a with rfl | rfl <;> rcases BitVec.eq_zero_or_eq_one b with rfl | rfl
  · rfl
  · exact absurd (h.2 rfl) (by decide)
  · exact absurd (h.1 rfl) (by decide)
  · rfl

/-- The AND of two one-bit words is set exactly when both are. -/
private theorem bit_and (a b : BitVec 1) : IntOp.andi a b = 1#1 ↔ a = 1#1 ∧ b = 1#1 := by
  rcases BitVec.eq_zero_or_eq_one a with rfl | rfl <;> rcases BitVec.eq_zero_or_eq_one b with rfl | rfl <;> decide

/-! ## The threshold mask at an anchor -/

/-- A scalar constant spread over the 8192 entries is that constant at every entry. -/
private theorem spread_const (w : BitVec 32) (i : Cert.KernelIdeal.S8192.Idx) :
    broadcastInDim Cert.KernelIdeal.S8192 ![] Cert.KernelIdeal.Hand.scalarSpreads
        (constant (F := Ideal) Cert.KernelIdeal.S_ .f32 w) i
      = Ideal.ofBits .f32 w :=
  (broadcastInDim_apply _ Cert.KernelIdeal.Hand.scalarSpreads _ i (fun a => a.elim0) (fun a => a.elim0)).trans rfl

/-- The threshold mask marks an anchor exactly when its first distance is above the low threshold and its second
    below the high one. -/
private theorem validK_read (A B : Vec Ideal Cert.KernelIdeal.S8192 .f32) (i : Cert.KernelIdeal.S8192.Idx) :
    Cert.KernelIdeal.Hand.validK A B i = 1#1
      ↔ (Ideal.cmp .ogt (A i) (Ideal.ofBits .f32 0xEFA18F08#32) = 1#1
          ∧ Ideal.cmp .olt (B i) (Ideal.ofBits .f32 0x6FA18F08#32) = 1#1) := by
  unfold Cert.KernelIdeal.Hand.validK
  show IntOp.andi _ _ = 1#1 ↔ _
  refine (bit_and _ _).trans ?_
  rw [cmpf_apply, cmpf_apply, spread_const, spread_const]
  exact Iff.rfl

/-! ## The results -/

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (hfin : Cert.Spec.Finite (m ((c.tc : Thread Cert.KernelIdeal.nD Cert.KernelIdeal.τ).loc Cert.KernelIdeal.main_arg0))) :
    Cert.KernelIdeal.Hand.loss (Cert.KernelIdeal.Hand.col (Cert.KernelIdeal.Hand.dapArr m c))
        (Cert.KernelIdeal.Hand.col (Cert.KernelIdeal.Hand.danArr m c))
        (Cert.KernelIdeal.Hand.validK (Cert.KernelIdeal.Hand.col (Cert.KernelIdeal.Hand.dapArr m c))
          (Cert.KernelIdeal.Hand.col (Cert.KernelIdeal.Hand.danArr m c)))
      = Cert.KernelIdeal.Hand.loss (Cert.ReferenceIdeal.Hand.refDap m' c) (Cert.ReferenceIdeal.Hand.refDan m' c)
          (Cert.ReferenceIdeal.Hand.refValid m' c) := by
  -- the two result columns enter only through their rows' values
  have ha := fun r : Fin 8192 => Cert.KernelIdeal.Hand.dapArr_apply m c r
  have hb := fun r : Fin 8192 => Cert.KernelIdeal.Hand.danArr_apply m c r
  generalize Cert.KernelIdeal.Hand.dapArr m c = P at ha ⊢
  generalize Cert.KernelIdeal.Hand.danArr m c = N at hb ⊢
  -- the reference's three vectors over the kernel's embeddings and labels
  have ra := fun r : Fin 8192 => (Cert.ReferenceIdeal.Hand.refDap_apply m' c r).trans
    (congrArg₂ (fun (e : Cert.Spec.Emb) (l : Cert.Spec.Lab) => Cert.Spec.dap e l r) h0 h1)
  have rb := fun r : Fin 8192 => (Cert.ReferenceIdeal.Hand.refDan_apply m' c r).trans
    (congrArg₂ (fun (e : Cert.Spec.Emb) (l : Cert.Spec.Lab) => Cert.Spec.dan e l r) h0 h1)
  -- entry r of either distance vector is the specification's value at anchor r
  have ea : Cert.KernelIdeal.Hand.col P = Cert.ReferenceIdeal.Hand.refDap m' c := by
    funext i
    obtain ⟨r, rfl⟩ : ∃ r : Fin 8192, i = ix1 r := ⟨i 0, eq_ix1 i⟩
    exact ((Cert.KernelIdeal.Hand.col_read P r).trans (ha r)).trans (ra r).symm
  have eb : Cert.KernelIdeal.Hand.col N = Cert.ReferenceIdeal.Hand.refDan m' c := by
    funext i
    obtain ⟨r, rfl⟩ : ∃ r : Fin 8192, i = ix1 r := ⟨i 0, eq_ix1 i⟩
    exact ((Cert.KernelIdeal.Hand.col_read N r).trans (hb r)).trans (rb r).symm
  -- either mask's bit at anchor r is set exactly when r has a positive and a negative
  have ev : Cert.KernelIdeal.Hand.validK (Cert.KernelIdeal.Hand.col P) (Cert.KernelIdeal.Hand.col N)
      = Cert.ReferenceIdeal.Hand.refValid m' c := by
    funext i
    obtain ⟨r, rfl⟩ : ∃ r : Fin 8192, i = ix1 r := ⟨i 0, eq_ix1 i⟩
    refine bit_ext _ _ ?_
    refine (validK_read _ _ (ix1 r)).trans ?_
    refine Iff.trans ?_ (Cert.ReferenceIdeal.Hand.refValid_apply m' c r).symm
    rw [h1, Cert.KernelIdeal.Hand.col_read P r, Cert.KernelIdeal.Hand.col_read N r, ha r, hb r]
    exact and_congr (Cert.Spec.cmp_dap_iff _ _ r) (Cert.Spec.cmp_dan_iff _ hfin _ r)
  rw [ev, ea, eb]

end Cert.Hand

end
-- ==== Proof.Finite.lean ====
/-
  From the stated input condition to the finiteness of the embeddings.

  The condition on the inputs says that one boolean word, the conjunction over all 8192 x 128 entries x of the
  comparison  |x| < +infinity,  is true, where |x| is the larger of x and -x.  A conjunction that is true has every
  conjunct true, so every entry satisfies the comparison; and an extended real whose absolute value lies strictly
  below the top element is neither of the two infinities, hence is a real number.
-/
import proofs.«159311_j57509612094151_1_alg».proof.Pre_finite_inputs
import proofs.«159311_j57509612094151_1_alg».proof.Proof.Gen.Pre_finite_inputs
import proofs.«159311_j57509612094151_1_alg».proof.Proof.Spec
import Idealize.ShloMosaic.Lib.ReduceAll
import Idealize.ShloMosaic.PureOps.Ideal
import Idealize.ShloMosaic.Lib.ValueIdx

noncomputable section

namespace Cert.Spec

open Idealize.ShloMosaic Idealize.ShloMosaic.ValueIdx

/-- The word 0x7F800000 read as a single-precision value is the top of the extended reals. -/
theorem inf_word_eq_top : Ideal.ofBits .f32 0x7F800000#32 = (⊤ : EReal) := by
  simp [Ideal.ofBits, Ideal.ieee]

/-- An extended real whose absolute value, max x (-x), is strictly below the top is a real: at the top the maximum
    is the top itself, and at the bottom the negation is the top, so both infinities contradict the bound. -/
theorem real_of_abs_lt_top (x : EReal) (h : max x (-x) < ⊤) : ∃ r : ℝ, x = (r : EReal) := by
  induction x using EReal.rec with
  | bot => simp at h
  | coe r => exact ⟨r, rfl⟩
  | top => simp at h

/-- The result of a reduction over every axis has a single index. -/
instance : Subsingleton Cert.Pre_finite_inputs.S_.Idx := ⟨fun a b => funext fun d => d.elim0⟩

/-- Under the stated input condition every embedding entry is a real number. -/
theorem finite_of_pre [hP : Cert.Pre_finite_inputs.Facts]
    (e : FVec Ideal Cert.Pre_finite_inputs.S8192x128 .f32) (l : IVec Cert.Pre_finite_inputs.S8192 32)
    (h : Cert.Pre_finite_inputs.fn (F := Ideal) e l = fun _ => 1#1) : Finite e := by
  intro i
  -- the one word of the condition, with the chain of operations in view
  have h0 := congrFun h ValueIdx.ix0
  dsimp only [Cert.Pre_finite_inputs.fn] at h0
  -- a true conjunction has its conjunct at i true
  have hi := Host.reduce_andi_all _ _ _ _ _ h0 i
  -- that conjunct is the comparison  max (e i) (-(e i)) < top
  have hc : Ideal.cmp .olt (max (e i) (-(e i))) (Ideal.ofBits .f32 0x7F800000#32) = 1#1 := hi
  rw [inf_word_eq_top] at hc
  refine real_of_abs_lt_top (e i) ?_
  unfold Ideal.cmp at hc
  by_contra hn
  simp [hn] at hc

end Cert.Spec

end
-- ==== Proof.lean ====
/-
  A batch-hard triplet loss: embeddings are normalised row by row; for every anchor the largest distance to a
  row with its label (other than itself) and the smallest distance to a row with another label are mined from
  the 8192 x 8192 matrix of pairwise distances; anchors that have both contribute the hinge of the difference
  plus a margin, and the result is the mean of the positive contributions.

  The kernel mines tile by tile (512 anchors x 1024 candidates), folding each tile's row maxima and minima into
  running accumulators whose initial values, and the fills of the masked entries, are two large finite
  constants that stand for the two infinities and are read as such over the extended reals. The reference
  mines with the infinities themselves and decides "has a positive and a negative" from the masks; the kernel
  decides it by comparing the mined values with two finite thresholds. The two agree because every distance
  between normalised rows lies between 0 and 2 (this is where the finiteness of the inputs is used): a mined
  maximum exceeds the negative threshold exactly when some positive exists, and a mined minimum stays below
  the positive threshold exactly when some negative exists. Everything after the mining is one and the same
  function of the mined values and the validity mask in both programs.

  The frames: the reference's is its run; the kernel's two (word level and idealized) come from one text,
  generic in the float instance, which runs @main as a chain of host stretches around the one kernel region.
-/
import proofs.«159311_j57509612094151_1_alg».proof.Defs
import proofs.«159311_j57509612094151_1_alg».proof.Proof.Gen.Kernel
import proofs.«159311_j57509612094151_1_alg».proof.Proof.Gen.KernelIdeal
import proofs.«159311_j57509612094151_1_alg».proof.Proof.Gen.ReferenceIdeal
import proofs.«159311_j57509612094151_1_alg».proof.Proof.Gen.Pre_finite_inputs
import proofs.«159311_j57509612094151_1_alg».proof.Proof.K.Body
import proofs.«159311_j57509612094151_1_alg».proof.Proof.K.Launch
import proofs.«159311_j57509612094151_1_alg».proof.Proof.K.Args
import proofs.«159311_j57509612094151_1_alg».proof.Proof.KI.Body
import proofs.«159311_j57509612094151_1_alg».proof.Proof.KI.Launch
import proofs.«159311_j57509612094151_1_alg».proof.Proof.KI.Args
import proofs.«159311_j57509612094151_1_alg».proof.Proof.KI.Tail
import proofs.«159311_j57509612094151_1_alg».proof.Proof.Equal
import proofs.«159311_j57509612094151_1_alg».proof.Proof.Finite
import Idealize.ShloMosaic.Adequacy
import Idealize.ShloMosaic.Init

noncomputable section

namespace Cert.Proof

open Idealize.ShloMosaic Idealize.SL.Sem

/-- The word-level kernel runs to the end and leaves its two arguments as launched: no item of @main writes one. -/
theorem frame_k : Cert.frame_Kernel := fun m ρ _ =>
  (θ_run Cert.Kernel.defs _ _).mono
    (fun r h c =>
      ⟨(h c _ (Cert.Kernel.Hand.mem_uc Cert.Kernel.main_arg0 (by decide))).trans (Cert.Kernel.Hand.W8_main_arg0 m c),
       (h c _ (Cert.Kernel.Hand.mem_uc Cert.Kernel.main_arg1 (by decide))).trans (Cert.Kernel.Hand.W8_main_arg1 m c)⟩)
    (Cert.Kernel.Hand.run_main (F := Bits) m ρ (Cert.Kernel.Hand.body_obligation m))

/-- The idealized kernel, likewise. -/
theorem frame_ki : Cert.frame_KernelIdeal := fun m ρ _ =>
  (θ_run Cert.KernelIdeal.defs _ _).mono
    (fun r h c =>
      ⟨(h c _ (Cert.KernelIdeal.Hand.mem_uc Cert.KernelIdeal.main_arg0 (by decide))).trans (Cert.KernelIdeal.Hand.W8_main_arg0 m c),
       (h c _ (Cert.KernelIdeal.Hand.mem_uc Cert.KernelIdeal.main_arg1 (by decide))).trans (Cert.KernelIdeal.Hand.W8_main_arg1 m c)⟩)
    (Cert.KernelIdeal.Hand.run_main (F := Ideal) m ρ (Cert.KernelIdeal.Hand.body_obligation m))

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four named constants: the table reads the negative stand-in as the lattice's bottom and the positive
    one as its top, at both places each occurs (the accumulators' reset and the masks' fill). -/
theorem preserves : Cert.preserves_Kernel_KernelIdeal :=
  ⟨IdealRules.named_const.statement Cert.KernelIdeal.κ "neg_big" .f32 0xF149F2CA#32 ⊥ rfl,
   IdealRules.named_const.statement Cert.KernelIdeal.κ "pos_big" .f32 0x7149F2CA#32 ⊤ rfl,
   IdealRules.named_const.statement Cert.KernelIdeal.κ "neg_big" .f32 0xF149F2CA#32 ⊥ rfl,
   IdealRules.named_const.statement Cert.KernelIdeal.κ "pos_big" .f32 0x7149F2CA#32 ⊤ rfl⟩

/-- Over the extended reals, from memories that agree on the arguments, both programs end at one value: the
    kernel's result buffer holds the common tail applied to its mined arrays and its threshold mask, the
    reference's the same tail applied to its own mined vectors and its mask, and these are equal. -/
theorem algebraic : Cert.algebraic_KernelIdeal_ReferenceIdeal := by
  intro m ρ m' ρ' hpre hagree
  refine ⟨fun c => Cert.KernelIdeal.Hand.loss (Cert.ReferenceIdeal.Hand.refDap m' c) (Cert.ReferenceIdeal.Hand.refDan m' c)
    (Cert.ReferenceIdeal.Hand.refValid m' c), ?_, ?_⟩
  · refine (θ_run Cert.KernelIdeal.defs _ _).mono (fun r h c => ⟨?_, ?_, ?_⟩)
      (Cert.KernelIdeal.Hand.run_main (F := Ideal) m ρ (Cert.KernelIdeal.Hand.body_obligation m))
    · exact ((h c _ (Cert.KernelIdeal.Hand.mem_uc Cert.KernelIdeal.main_v36 (by decide))).trans (Cert.KernelIdeal.Hand.W8_out m c)).trans
        (Cert.Hand.result_eq m m' c (hagree c).1 (hagree c).2 (Cert.Spec.finite_of_pre _ _ (hpre c)))
    · exact (h c _ (Cert.KernelIdeal.Hand.mem_uc Cert.KernelIdeal.main_arg0 (by decide))).trans (Cert.KernelIdeal.Hand.W8_main_arg0 m c)
    · exact (h c _ (Cert.KernelIdeal.Hand.mem_uc Cert.KernelIdeal.main_arg1 (by decide))).trans (Cert.KernelIdeal.Hand.W8_main_arg1 m c)
  · exact (θ_run Cert.ReferenceIdeal.defs _ _).mono (fun _ h c => ⟨(h c).1.trans (Cert.ReferenceIdeal.Hand.ref_out m' c), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
